-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S262144x3 : S_.BroadcastsInDim S262144x3 (![] : Fin 0 → Fin S262144x3.rank)
  reducesTo_S262144x3_S_d0_1 : S262144x3.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1024x128 : S_.BroadcastsInDim S1024x128 (![] : Fin 0 → Fin S1024x128.rank)
  reducesTo_S1024x128_S_d0_1 : S1024x128.ReducesTo [0, 1] S_
  bcast_S_S1024x16 : S_.BroadcastsInDim S1024x16 (![] : Fin 0 → Fin S1024x16.rank)
  reducesTo_S1024x16_S_d0_1 : S1024x16.ReducesTo [0, 1] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_arg8 : FVec F S1x16 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  main_v38

def fn_part1 {F : FTy → Type} [FloatOps F] (main_arg5 : FVec F S1024x128 .f32) (main_arg6 : FVec F S1x128 .f32) (main_arg7 : FVec F S1024x16 .f32) (main_arg8 : FVec F S1x16 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1024x128 .f32 := Host.absf main_arg5
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1024x16 .f32 := Host.absf main_arg7
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg8 main_v33

def fn {F : FTy → Type} [FloatOps F] (main_arg0 : FVec F S262144x16 .f32) (main_arg1 : FVec F S262144x3 .f32) (main_arg2 : IVec S262144x8 32) (main_arg3 : FVec F S128x128 .f32) (main_arg4 : FVec F S1x128 .f32) (main_arg5 : FVec F S1024x128 .f32) (main_arg6 : FVec F S1x128 .f32) (main_arg7 : FVec F S1024x16 .f32) (main_arg8 : FVec F S1x16 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_arg8 main_v13 main_v16
-- ==== Kernel.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩
abbrev S262144x8x1 : Shape := ⟨3, ![262144, 8, 1]⟩
abbrev S262144x8x3 : Shape := ⟨3, ![262144, 8, 3]⟩
abbrev S262144x8x16 : Shape := ⟨3, ![262144, 8, 16]⟩
abbrev S262144x128 : Shape := ⟨2, ![262144, 128]⟩
abbrev S512x8x16 : Shape := ⟨3, ![512, 8, 16]⟩
abbrev S512x3 : Shape := ⟨2, ![512, 3]⟩
abbrev S512x8x3 : Shape := ⟨3, ![512, 8, 3]⟩
abbrev S512x128 : Shape := ⟨2, ![512, 128]⟩
abbrev S512x1x3 : Shape := ⟨3, ![512, 1, 3]⟩
abbrev S512x8 : Shape := ⟨2, ![512, 8]⟩
abbrev S512x1x16 : Shape := ⟨3, ![512, 1, 16]⟩
abbrev S512x16 : Shape := ⟨2, ![512, 16]⟩
abbrev S512x1 : Shape := ⟨2, ![512, 1]⟩
abbrev S16x128 : Shape := ⟨2, ![16, 128]⟩
abbrev S262144x8x128 : Shape := ⟨3, ![262144, 8, 128]⟩
abbrev S512x8x128 : Shape := ⟨3, ![512, 8, 128]⟩
abbrev S512x1x128 : Shape := ⟨3, ![512, 1, 128]⟩
abbrev S128x16 : Shape := ⟨2, ![128, 16]⟩

abbrev nBuf : Space → Nat
  | .hbm => 48
  | .vmem => 30
  | .smem => 0
  | _ => 0

abbrev bufTy : (tb : Table) → Fin (tcTables nBuf tb) → BufTy
  | .hbm, ⟨0, _⟩ => ⟨S262144x16, .f32⟩
  | .hbm, ⟨1, _⟩ => ⟨S262144x3, .f32⟩
  | .hbm, ⟨2, _⟩ => ⟨S262144x8, .i32⟩
  | .hbm, ⟨3, _⟩ => ⟨S128x128, .f32⟩
  | .hbm, ⟨4, _⟩ => ⟨S1x128, .f32⟩
  | .hbm, ⟨5, _⟩ => ⟨S1024x128, .f32⟩
  | .hbm, ⟨6, _⟩ => ⟨S1x128, .f32⟩
  | .hbm, ⟨7, _⟩ => ⟨S1024x16, .f32⟩
  | .hbm, ⟨8, _⟩ => ⟨S1x16, .f32⟩
  | .hbm, ⟨9, _⟩ => ⟨S_, .i32⟩
  | .hbm, ⟨10, _⟩ => ⟨S262144x8, .i32⟩
  | .hbm, ⟨11, _⟩ => ⟨S262144x8, .i1⟩
  | .hbm, ⟨12, _⟩ => ⟨S_, .i32⟩
  | .hbm, ⟨13, _⟩ => ⟨S262144x8, .i32⟩
  | .hbm, ⟨14, _⟩ => ⟨S262144x8, .i32⟩
  | .hbm, ⟨15, _⟩ => ⟨S262144x8, .i32⟩
  | .hbm, ⟨16, _⟩ => ⟨S262144x8x1, .i32⟩
  | .hbm, ⟨17, _⟩ => ⟨S262144x8x3, .f32⟩
  | .hbm, ⟨18, _⟩ => ⟨S_, .i32⟩
  | .hbm, ⟨19, _⟩ => ⟨S262144x8, .i32⟩
  | .hbm, ⟨20, _⟩ => ⟨S262144x8, .i1⟩
  | .hbm, ⟨21, _⟩ => ⟨S_, .i32⟩
  | .hbm, ⟨22, _⟩ => ⟨S262144x8, .i32⟩
  | .hbm, ⟨23, _⟩ => ⟨S262144x8, .i32⟩
  | .hbm, ⟨24, _⟩ => ⟨S262144x8, .i32⟩
  | .hbm, ⟨25, _⟩ => ⟨S262144x8x1, .i32⟩
  | .hbm, ⟨26, _⟩ => ⟨S262144x8x16, .f32⟩
  | .hbm, ⟨27, _⟩ => ⟨S262144x128, .f32⟩
  | .hbm, ⟨28, _⟩ => ⟨S_, .i32⟩
  | .hbm, ⟨29, _⟩ => ⟨S262144x8, .i32⟩
  | .hbm, ⟨30, _⟩ => ⟨S262144x8, .i1⟩
  | .hbm, ⟨31, _⟩ => ⟨S_, .i32⟩
  | .hbm, ⟨32, _⟩ => ⟨S262144x8, .i32⟩
  | .hbm, ⟨33, _⟩ => ⟨S262144x8, .i32⟩
  | .hbm, ⟨34, _⟩ => ⟨S262144x8, .i32⟩
  | .hbm, ⟨35, _⟩ => ⟨S262144x8x1, .i32⟩
  | .hbm, ⟨36, _⟩ => ⟨S262144x8x128, .f32⟩
  | .hbm, ⟨37, _⟩ => ⟨S262144x128, .f32⟩
  | .hbm, ⟨38, _⟩ => ⟨S_, .i32⟩
  | .hbm, ⟨39, _⟩ => ⟨S262144x8, .i32⟩
  | .hbm, ⟨40, _⟩ => ⟨S262144x8, .i1⟩
  | .hbm, ⟨41, _⟩ => ⟨S_, .i32⟩
  | .hbm, ⟨42, _⟩ => ⟨S262144x8, .i32⟩
  | .hbm, ⟨43, _⟩ => ⟨S262144x8, .i32⟩
  | .hbm, ⟨44, _⟩ => ⟨S262144x8, .i32⟩
  | .hbm, ⟨45, _⟩ => ⟨S262144x8x1, .i32⟩
  | .hbm, ⟨46, _⟩ => ⟨S262144x8x128, .f32⟩
  | .hbm, ⟨47, _⟩ => ⟨S262144x16, .f32⟩
  | .local _ .vmem, ⟨0, _⟩ => ⟨S512x8x16, .f32⟩
  | .local _ .vmem, ⟨1, _⟩ => ⟨S512x8x16, .f32⟩
  | .local _ .vmem, ⟨2, _⟩ => ⟨S512x3, .f32⟩
  | .local _ .vmem, ⟨3, _⟩ => ⟨S512x3, .f32⟩
  | .local _ .vmem, ⟨4, _⟩ => ⟨S512x8x3, .f32⟩
  | .local _ .vmem, ⟨5, _⟩ => ⟨S512x8x3, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x8x128, .f32⟩
  | .local _ .vmem, ⟨11, _⟩ => ⟨S512x8x128, .f32⟩
  | .local _ .vmem, ⟨12, _⟩ => ⟨S512x3, .f32⟩
  | .local _ .vmem, ⟨13, _⟩ => ⟨S512x3, .f32⟩
  | .local _ .vmem, ⟨14, _⟩ => ⟨S512x8x3, .f32⟩
  | .local _ .vmem, ⟨15, _⟩ => ⟨S512x8x3, .f32⟩
  | .local _ .vmem, ⟨16, _⟩ => ⟨S1024x128, .f32⟩
  | .local _ .vmem, ⟨17, _⟩ => ⟨S1x128, .f32⟩
  | .local _ .vmem, ⟨18, _⟩ => ⟨S512x128, .f32⟩
  | .local _ .vmem, ⟨19, _⟩ => ⟨S512x128, .f32⟩
  | .local _ .vmem, ⟨20, _⟩ => ⟨S512x8x128, .f32⟩
  | .local _ .vmem, ⟨21, _⟩ => ⟨S512x8x128, .f32⟩
  | .local _ .vmem, ⟨22, _⟩ => ⟨S512x3, .f32⟩
  | .local _ .vmem, ⟨23, _⟩ => ⟨S512x3, .f32⟩
  | .local _ .vmem, ⟨24, _⟩ => ⟨S512x8x3, .f32⟩
  | .local _ .vmem, ⟨25, _⟩ => ⟨S512x8x3, .f32⟩
  | .local _ .vmem, ⟨26, _⟩ => ⟨S1024x16, .f32⟩
  | .local _ .vmem, ⟨27, _⟩ => ⟨S1x16, .f32⟩
  | .local _ .vmem, ⟨28, _⟩ => ⟨S512x16, .f32⟩
  | .local _ .vmem, ⟨29, _⟩ => ⟨S512x16, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![512], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x8x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![512], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x8x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  inb_S512x3_S512x3_0_0 : ∀ a, (![0, 0] : Fin 2 → Nat) a + S512x3.size a ≤ S512x3.size a
  h_S512x3 : 0 < S512x3.numel
  inb_S512x8x3_S512x8x3_0_0_0 : ∀ a, (![0, 0, 0] : Fin 3 → Nat) a + S512x8x3.size a ≤ S512x8x3.size a
  h_S512x8x3 : 0 < S512x8x3.numel
  shapeCasts_S512x8x3_S512x8x3 : S512x8x3.ShapeCasts S512x8x3
  shapeCasts_S512x3_S512x1x3 : S512x3.ShapeCasts S512x1x3
  broadcasts_S512x1x3_S512x8x3 : S512x1x3.Broadcasts S512x8x3
  reduces_S512x8x3_S512x8 : S512x8x3.Reduces [2] S512x8
  inb_S512x8x16_S512x8x16_0_0_0 : ∀ a, (![0, 0, 0] : Fin 3 → Nat) a + S512x8x16.size a ≤ S512x8x16.size a
  h_S512x8x16 : 0 < S512x8x16.numel
  shapeCasts_S512x8x16_S512x8x16 : S512x8x16.ShapeCasts S512x8x16
  slices_S512x8x16_o0_0_0_S512x1x16 : S512x8x16.Slices ![0, 0, 0] S512x1x16
  shapeCasts_S512x1x16_S512x16 : S512x1x16.ShapeCasts S512x16
  slices_S512x8_o0_0_S512x1 : S512x8.Slices ![0, 0] S512x1
  broadcasts_S512x1_S512x16 : S512x1.Broadcasts S512x16
  inb_S128x128_S16x128_0_0 : ∀ a, (![0, 0] : Fin 2 → Nat) a + S16x128.size a ≤ S128x128.size a
  h_S16x128 : 0 < S16x128.numel
  bitsLt_bf16_f32 : FTy.bits .bf16 < FTy.bits .f32
  slices_S512x8x16_o0_1_0_S512x1x16 : S512x8x16.Slices ![0, 1, 0] S512x1x16
  slices_S512x8_o0_1_S512x1 : S512x8.Slices ![0, 1] S512x1
  inb_S128x128_S16x128_16_0 : ∀ a, (![16, 0] : Fin 2 → Nat) a + S16x128.size a ≤ S128x128.size a
  slices_S512x8x16_o0_2_0_S512x1x16 : S512x8x16.Slices ![0, 2, 0] S512x1x16
  slices_S512x8_o0_2_S512x1 : S512x8.Slices ![0, 2] S512x1
  inb_S128x128_S16x128_32_0 : ∀ a, (![32, 0] : Fin 2 → Nat) a + S16x128.size a ≤ S128x128.size a
  slices_S512x8x16_o0_3_0_S512x1x16 : S512x8x16.Slices ![0, 3, 0] S512x1x16
  slices_S512x8_o0_3_S512x1 : S512x8.Slices ![0, 3] S512x1
  inb_S128x128_S16x128_48_0 : ∀ a, (![48, 0] : Fin 2 → Nat) a + S16x128.size a ≤ S128x128.size a
  slices_S512x8x16_o0_4_0_S512x1x16 : S512x8x16.Slices ![0, 4, 0] S512x1x16
  slices_S512x8_o0_4_S512x1 : S512x8.Slices ![0, 4] S512x1
  inb_S128x128_S16x128_64_0 : ∀ a, (![64, 0] : Fin 2 → Nat) a + S16x128.size a ≤ S128x128.size a
  slices_S512x8x16_o0_5_0_S512x1x16 : S512x8x16.Slices ![0, 5, 0] S512x1x16
  slices_S512x8_o0_5_S512x1 : S512x8.Slices ![0, 5] S512x1
  inb_S128x128_S16x128_80_0 : ∀ a, (![80, 0] : Fin 2 → Nat) a + S16x128.size a ≤ S128x128.size a
  slices_S512x8x16_o0_6_0_S512x1x16 : S512x8x16.Slices ![0, 6, 0] S512x1x16
  slices_S512x8_o0_6_S512x1 : S512x8.Slices ![0, 6] S512x1
  inb_S128x128_S16x128_96_0 : ∀ a, (![96, 0] : Fin 2 → Nat) a + S16x128.size a ≤ S128x128.size a
  slices_S512x8x16_o0_7_0_S512x1x16 : S512x8x16.Slices ![0, 7, 0] S512x1x16
  slices_S512x8_o0_7_S512x1 : S512x8.Slices ![0, 7] S512x1
  inb_S128x128_S16x128_112_0 : ∀ a, (![112, 0] : Fin 2 → Nat) a + S16x128.size a ≤ S128x128.size a
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S512x8x128_S512x8x128_0_0_0 : ∀ a, (![0, 0, 0] : Fin 3 → Nat) a + S512x8x128.size a ≤ S512x8x128.size a
  h_S512x8x128 : 0 < S512x8x128.numel
  shapeCasts_S512x8x128_S512x8x128 : S512x8x128.ShapeCasts S512x8x128
  slices_S512x8x128_o0_0_0_S512x1x128 : S512x8x128.Slices ![0, 0, 0] S512x1x128
  shapeCasts_S512x1x128_S512x128 : S512x1x128.ShapeCasts S512x128
  broadcasts_S512x1_S512x128 : S512x1.Broadcasts S512x128
  inb_S1024x128_S128x128_0_0 : ∀ a, (![0, 0] : Fin 2 → Nat) a + S128x128.size a ≤ S1024x128.size a
  h_S128x128 : 0 < S128x128.numel
  slices_S512x8x128_o0_1_0_S512x1x128 : S512x8x128.Slices ![0, 1, 0] S512x1x128
  inb_S1024x128_S128x128_128_0 : ∀ a, (![128, 0] : Fin 2 → Nat) a + S128x128.size a ≤ S1024x128.size a
  slices_S512x8x128_o0_2_0_S512x1x128 : S512x8x128.Slices ![0, 2, 0] S512x1x128
  inb_S1024x128_S128x128_256_0 : ∀ a, (![256, 0] : Fin 2 → Nat) a + S128x128.size a ≤ S1024x128.size a
  slices_S512x8x128_o0_3_0_S512x1x128 : S512x8x128.Slices ![0, 3, 0] S512x1x128
  inb_S1024x128_S128x128_384_0 : ∀ a, (![384, 0] : Fin 2 → Nat) a + S128x128.size a ≤ S1024x128.size a
  slices_S512x8x128_o0_4_0_S512x1x128 : S512x8x128.Slices ![0, 4, 0] S512x1x128
  inb_S1024x128_S128x128_512_0 : ∀ a, (![512, 0] : Fin 2 → Nat) a + S128x128.size a ≤ S1024x128.size a
  slices_S512x8x128_o0_5_0_S512x1x128 : S512x8x128.Slices ![0, 5, 0] S512x1x128
  inb_S1024x128_S128x128_640_0 : ∀ a, (![640, 0] : Fin 2 → Nat) a + S128x128.size a ≤ S1024x128.size a
  slices_S512x8x128_o0_6_0_S512x1x128 : S512x8x128.Slices ![0, 6, 0] S512x1x128
  inb_S1024x128_S128x128_768_0 : ∀ a, (![768, 0] : Fin 2 → Nat) a + S128x128.size a ≤ S1024x128.size a
  slices_S512x8x128_o0_7_0_S512x1x128 : S512x8x128.Slices ![0, 7, 0] S512x1x128
  inb_S1024x128_S128x128_896_0 : ∀ a, (![896, 0] : Fin 2 → Nat) a + S128x128.size a ≤ S1024x128.size a
  inb_S1024x16_S128x16_0_0 : ∀ a, (![0, 0] : Fin 2 → Nat) a + S128x16.size a ≤ S1024x16.size a
  h_S128x16 : 0 < S128x16.numel
  inb_S1024x16_S128x16_128_0 : ∀ a, (![128, 0] : Fin 2 → Nat) a + S128x16.size a ≤ S1024x16.size a
  inb_S1024x16_S128x16_256_0 : ∀ a, (![256, 0] : Fin 2 → Nat) a + S128x16.size a ≤ S1024x16.size a
  inb_S1024x16_S128x16_384_0 : ∀ a, (![384, 0] : Fin 2 → Nat) a + S128x16.size a ≤ S1024x16.size a
  inb_S1024x16_S128x16_512_0 : ∀ a, (![512, 0] : Fin 2 → Nat) a + S128x16.size a ≤ S1024x16.size a
  inb_S1024x16_S128x16_640_0 : ∀ a, (![640, 0] : Fin 2 → Nat) a + S128x16.size a ≤ S1024x16.size a
  inb_S1024x16_S128x16_768_0 : ∀ a, (![768, 0] : Fin 2 → Nat) a + S128x16.size a ≤ S1024x16.size a
  inb_S1024x16_S128x16_896_0 : ∀ a, (![896, 0] : Fin 2 → Nat) a + S128x16.size a ≤ S1024x16.size a
  inb_S1x16_S1x16_0_0 : ∀ a, (![0, 0] : Fin 2 → Nat) a + S1x16.size a ≤ S1x16.size a
  h_S1x16 : 0 < S1x16.numel
  broadcasts_S1x16_S512x16 : S1x16.Broadcasts S512x16
  inb_S512x16_S512x16_0_0 : ∀ a, (![0, 0] : Fin 2 → Nat) a + S512x16.size a ≤ S512x16.size a
  h_S512x16 : 0 < S512x16.numel
  gather_S262144x3_S262144x8x1_S262144x8x3_2_0_n_n_0_2_13_wf : GatherDims.WF S262144x3 S262144x8x1 S262144x8x3 [2] [0] [] [0] [] 2 ![1, 3]
  gather_S262144x16_S262144x8x1_S262144x8x16_2_0_n_n_0_2_116_wf : GatherDims.WF S262144x16 S262144x8x1 S262144x8x16 [2] [0] [] [0] [] 2 ![1, 16]
  dot_S512x16_S16x128_S512x128_1_0_0_1_n_n_wf : DotDims.WF S512x16 S16x128 S512x128 [1] [0] [0] [1] [] []
  gather_S262144x128_S262144x8x1_S262144x8x128_2_0_n_n_0_2_1128_wf : GatherDims.WF S262144x128 S262144x8x1 S262144x8x128 [2] [0] [] [0] [] 2 ![1, 128]
  dot_S512x128_S128x128_S512x128_1_0_0_1_n_n_wf : DotDims.WF S512x128 S128x128 S512x128 [1] [0] [0] [1] [] []
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x16.size a ≤ S262144x8x16.size a
  hwx0_0 : ∀ i : grid0.Coords, EltTy.bits .f32 = 32 ∨ (Rect.block (s := S262144x8x16) S512x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S262144x3.size a
  hwx0_1 : ∀ i : grid0.Coords, EltTy.bits .f32 = 32 ∨ (Rect.block (s := S262144x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x3.size a ≤ S262144x8x3.size a
  hwx0_2 : ∀ i : grid0.Coords, EltTy.bits .f32 = 32 ∨ (Rect.block (s := S262144x8x3) S512x8x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S262144x128.size a
  hwx0_5 : ∀ i : grid0.Coords, EltTy.bits .f32 = 32 ∨ (Rect.block (s := S262144x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8x128.size a ≤ S262144x8x128.size a
  hwx1_0 : ∀ i : grid1.Coords, EltTy.bits .f32 = 32 ∨ (Rect.block (s := S262144x8x128) S512x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x3.size a ≤ S262144x3.size a
  hwx1_1 : ∀ i : grid1.Coords, EltTy.bits .f32 = 32 ∨ (Rect.block (s := S262144x3) S512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8x3.size a ≤ S262144x8x3.size a
  hwx1_2 : ∀ i : grid1.Coords, EltTy.bits .f32 = 32 ∨ (Rect.block (s := S262144x8x3) S512x8x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .f32 = 32 ∨ (Rect.block (s := S1024x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S262144x128.size a
  hwx1_5 : ∀ i : grid1.Coords, EltTy.bits .f32 = 32 ∨ (Rect.block (s := S262144x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8x128.size a ≤ S262144x8x128.size a
  hwx2_0 : ∀ i : grid2.Coords, EltTy.bits .f32 = 32 ∨ (Rect.block (s := S262144x8x128) S512x8x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x3.size a ≤ S262144x3.size a
  hwx2_1 : ∀ i : grid2.Coords, EltTy.bits .f32 = 32 ∨ (Rect.block (s := S262144x3) S512x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x8x3.size a ≤ S262144x8x3.size a
  hwx2_2 : ∀ i : grid2.Coords, EltTy.bits .f32 = 32 ∨ (Rect.block (s := S262144x8x3) S512x8x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x16.size a ≤ S1024x16.size a
  hwx2_3 : ∀ i : grid2.Coords, EltTy.bits .f32 = 32 ∨ (Rect.block (s := S1024x16) S1024x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x16.size a ≤ S262144x16.size a
  hwx2_5 : ∀ i : grid2.Coords, EltTy.bits .f32 = 32 ∨ (Rect.block (s := S262144x16) S512x16.size (cc2_transform_5 i) (hinb2_5 i)).WholeWords (EltTy.packing .f32)

variable [Facts₀]

def gather_S262144x3_S262144x8x1_S262144x8x3_2_0_n_n_0_2_13 : GatherDims S262144x3 S262144x8x1 S262144x8x3 where
  offsetDims := [2]
  collapsedSliceDims := [0]
  operandBatchingDims := []
  startIndicesBatchingDims := []
  startIndexMap := [0]
  indexVectorDim := 2
  sliceSizes := ![1, 3]
  wf := gather_S262144x3_S262144x8x1_S262144x8x3_2_0_n_n_0_2_13_wf
def gather_S262144x16_S262144x8x1_S262144x8x16_2_0_n_n_0_2_116 : GatherDims S262144x16 S262144x8x1 S262144x8x16 where
  offsetDims := [2]
  collapsedSliceDims := [0]
  operandBatchingDims := []
  startIndicesBatchingDims := []
  startIndexMap := [0]
  indexVectorDim := 2
  sliceSizes := ![1, 16]
  wf := gather_S262144x16_S262144x8x1_S262144x8x16_2_0_n_n_0_2_116_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def gather_S262144x128_S262144x8x1_S262144x8x128_2_0_n_n_0_2_1128 : GatherDims S262144x128 S262144x8x1 S262144x8x128 where
  offsetDims := [2]
  collapsedSliceDims := [0]
  operandBatchingDims := []
  startIndicesBatchingDims := []
  startIndexMap := [0]
  indexVectorDim := 2
  sliceSizes := ![1, 128]
  wf := gather_S262144x128_S262144x8x1_S262144x8x128_2_0_n_n_0_2_1128_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_v13) S512x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x8x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S512x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x8x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S512x8x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x8x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S512x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩
abbrev S262144x8x1 : Shape := ⟨3, ![262144, 8, 1]⟩
abbrev S262144x8x16 : Shape := ⟨3, ![262144, 8, 16]⟩
abbrev S262144x8x3 : Shape := ⟨3, ![262144, 8, 3]⟩
abbrev S262144x1x3 : Shape := ⟨3, ![262144, 1, 3]⟩
abbrev S262144x128 : Shape := ⟨2, ![262144, 128]⟩
abbrev S262144x8x128 : Shape := ⟨3, ![262144, 8, 128]⟩
abbrev S262144x1024 : Shape := ⟨2, ![262144, 1024]⟩

abbrev nBuf : Space → Nat
  | .hbm => 130
  | .vmem => 0
  | .smem => 0
  | _ => 0

abbrev hbmTy0_0 (i : Nat) : BufTy := match i % 128 with
  | 0 => ⟨S262144x16, .f32⟩
  | 1 => ⟨S262144x3, .f32⟩
  | 2 => ⟨S262144x8, .i32⟩
  | 3 => ⟨S128x128, .f32⟩
  | 4 => ⟨S1x128, .f32⟩
  | 5 => ⟨S1024x128, .f32⟩
  | 6 => ⟨S1x128, .f32⟩
  | 7 => ⟨S1024x16, .f32⟩
  | 8 => ⟨S1x16, .f32⟩
  | 9 => ⟨S_, .i32⟩
  | 10 => ⟨S262144x8, .i32⟩
  | 11 => ⟨S262144x8, .i1⟩
  | 12 => ⟨S_, .i32⟩
  | 13 => ⟨S262144x8, .i32⟩
  | 14 => ⟨S262144x8, .i32⟩
  | 15 => ⟨S262144x8, .i32⟩
  | 16 => ⟨S262144x8x1, .i32⟩
  | 17 => ⟨S262144x8x16, .f32⟩
  | 18 => ⟨S_, .i32⟩
  | 19 => ⟨S262144x8, .i32⟩
  | 20 => ⟨S262144x8, .i1⟩
  | 21 => ⟨S_, .i32⟩
  | 22 => ⟨S262144x8, .i32⟩
  | 23 => ⟨S262144x8, .i32⟩
  | 24 => ⟨S262144x8, .i32⟩
  | 25 => ⟨S262144x8x1, .i32⟩
  | 26 => ⟨S262144x8x3, .f32⟩
  | 27 => ⟨S262144x1x3, .f32⟩
  | 28 => ⟨S262144x8x3, .f32⟩
  | 29 => ⟨S262144x8x3, .f32⟩
  | 30 => ⟨S262144x8x3, .f32⟩
  | 31 => ⟨S_, .f32⟩
  | 32 => ⟨S262144x8, .f32⟩
  | 33 => ⟨S262144x8x1, .f32⟩
  | 34 => ⟨S262144x8x1, .f32⟩
  | 35 => ⟨S_, .f32⟩
  | 36 => ⟨S262144x8x1, .f32⟩
  | 37 => ⟨S262144x8x1, .i1⟩
  | 38 => ⟨S_, .f32⟩
  | 39 => ⟨S262144x8x1, .f32⟩
  | 40 => ⟨S262144x8x1, .f32⟩
  | 41 => ⟨S262144x8x16, .f32⟩
  | 42 => ⟨S262144x8x16, .f32⟩
  | 43 => ⟨S262144x128, .f32⟩
  | 44 => ⟨S262144x128, .f32⟩
  | 45 => ⟨S262144x128, .f32⟩
  | 46 => ⟨S262144x128, .f32⟩
  | 47 => ⟨S_, .i32⟩
  | 48 => ⟨S262144x8, .i32⟩
  | 49 => ⟨S262144x8, .i1⟩
  | 50 => ⟨S_, .i32⟩
  | 51 => ⟨S262144x8, .i32⟩
  | 52 => ⟨S262144x8, .i32⟩
  | 53 => ⟨S262144x8, .i32⟩
  | 54 => ⟨S262144x8x1, .i32⟩
  | 55 => ⟨S262144x8x128, .f32⟩
  | 56 => ⟨S_, .i32⟩
  | 57 => ⟨S262144x8, .i32⟩
  | 58 => ⟨S262144x8, .i1⟩
  | 59 => ⟨S_, .i32⟩
  | 60 => ⟨S262144x8, .i32⟩
  | 61 => ⟨S262144x8, .i32⟩
  | 62 => ⟨S262144x8, .i32⟩
  | 63 => ⟨S262144x8x1, .i32⟩
  | 64 => ⟨S262144x8x3, .f32⟩
  | 65 => ⟨S262144x1x3, .f32⟩
  | 66 => ⟨S262144x8x3, .f32⟩
  | 67 => ⟨S262144x8x3, .f32⟩
  | 68 => ⟨S262144x8x3, .f32⟩
  | 69 => ⟨S_, .f32⟩
  | 70 => ⟨S262144x8, .f32⟩
  | 71 => ⟨S262144x8x1, .f32⟩
  | 72 => ⟨S262144x8x1, .f32⟩
  | 73 => ⟨S_, .f32⟩
  | 74 => ⟨S262144x8x1, .f32⟩
  | 75 => ⟨S262144x8x1, .i1⟩
  | 76 => ⟨S_, .f32⟩
  | 77 => ⟨S262144x8x1, .f32⟩
  | 78 => ⟨S262144x8x1, .f32⟩
  | 79 => ⟨S262144x8x128, .f32⟩
  | 80 => ⟨S262144x8x128, .f32⟩
  | 81 => ⟨S262144x1024, .f32⟩
  | 82 => ⟨S262144x128, .f32⟩
  | 83 => ⟨S262144x128, .f32⟩
  | 84 => ⟨S262144x128, .f32⟩
  | 85 => ⟨S_, .f32⟩
  | 86 => ⟨S262144x128, .f32⟩
  | 87 => ⟨S262144x128, .i1⟩
  | 88 => ⟨S_, .f32⟩
  | 89 => ⟨S262144x128, .f32⟩
  | 90 => ⟨S262144x128, .f32⟩
  | 91 => ⟨S262144x128, .f32⟩
  | 92 => ⟨S_, .i32⟩
  | 93 => ⟨S262144x8, .i32⟩
  | 94 => ⟨S262144x8, .i1⟩
  | 95 => ⟨S_, .i32⟩
  | 96 => ⟨S262144x8, .i32⟩
  | 97 => ⟨S262144x8, .i32⟩
  | 98 => ⟨S262144x8, .i32⟩
  | 99 => ⟨S262144x8x1, .i32⟩
  | 100 => ⟨S262144x8x128, .f32⟩
  | 101 => ⟨S_, .i32⟩
  | 102 => ⟨S262144x8, .i32⟩
  | 103 => ⟨S262144x8, .i1⟩
  | 104 => ⟨S_, .i32⟩
  | 105 => ⟨S262144x8, .i32⟩
  | 106 => ⟨S262144x8, .i32⟩
  | 107 => ⟨S262144x8, .i32⟩
  | 108 => ⟨S262144x8x1, .i32⟩
  | 109 => ⟨S262144x8x3, .f32⟩
  | 110 => ⟨S262144x1x3, .f32⟩
  | 111 => ⟨S262144x8x3, .f32⟩
  | 112 => ⟨S262144x8x3, .f32⟩
  | 113 => ⟨S262144x8x3, .f32⟩
  | 114 => ⟨S_, .f32⟩
  | 115 => ⟨S262144x8, .f32⟩
  | 116 => ⟨S262144x8x1, .f32⟩
  | 117 => ⟨S262144x8x1, .f32⟩
  | 118 => ⟨S_, .f32⟩
  | 119 => ⟨S262144x8x1, .f32⟩
  | 120 => ⟨S262144x8x1, .i1⟩
  | 121 => ⟨S_, .f32⟩
  | 122 => ⟨S262144x8x1, .f32⟩
  | 123 => ⟨S262144x8x1, .f32⟩
  | 124 => ⟨S262144x8x128, .f32⟩
  | 125 => ⟨S262144x8x128, .f32⟩
  | 126 => ⟨S262144x1024, .f32⟩
  | 127 => ⟨S262144x16, .f32⟩
  | _ => ⟨S262144x16, .f32⟩

abbrev hbmTy0_1 (i : Nat) : BufTy := match i % 128 with
  | 0 => ⟨S262144x16, .f32⟩
  | 1 => ⟨S262144x16, .f32⟩
  | _ => ⟨S262144x16, .f32⟩

abbrev hbmTy (i : Nat) : BufTy := match i / 128 with
  | 0 => hbmTy0_0 i
  | 1 => hbmTy0_1 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_call3_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  bcast_S262144x3_S262144x1x3_0_2 : S262144x3.BroadcastsInDim S262144x1x3 (![0, 2] : Fin 2 → Fin S262144x1x3.rank)
  bcast_S262144x1x3_S262144x8x3_0_1_2 : S262144x1x3.BroadcastsInDim S262144x8x3 (![0, 1, 2] : Fin 3 → Fin S262144x8x3.rank)
  reducesTo_S262144x8x3_S262144x8_d2 : S262144x8x3.ReducesTo [2] S262144x8
  h_S_ : 0 < S_.numel
  bcast_S_S262144x8x1 : S_.BroadcastsInDim S262144x8x1 (![] : Fin 0 → Fin S262144x8x1.rank)
  bcast_S262144x8x1_S262144x8x16_0_1_2 : S262144x8x1.BroadcastsInDim S262144x8x16 (![0, 1, 2] : Fin 3 → Fin S262144x8x16.rank)
  shapeCasts_S262144x8x16_S262144x128 : S262144x8x16.ShapeCasts S262144x128
  bcast_S1x128_S262144x128_0_1 : S1x128.BroadcastsInDim S262144x128 (![0, 1] : Fin 2 → Fin S262144x128.rank)
  bcast_S262144x8x1_S262144x8x128_0_1_2 : S262144x8x1.BroadcastsInDim S262144x8x128 (![0, 1, 2] : Fin 3 → Fin S262144x8x128.rank)
  shapeCasts_S262144x8x128_S262144x1024 : S262144x8x128.ShapeCasts S262144x1024
  bcast_S_S262144x128 : S_.BroadcastsInDim S262144x128 (![] : Fin 0 → Fin S262144x128.rank)
  bcast_S1x16_S262144x16_0_1 : S1x16.BroadcastsInDim S262144x16 (![0, 1] : Fin 2 → Fin S262144x16.rank)
  gather_S262144x16_S262144x8x1_S262144x8x16_2_0_n_n_0_2_116_wf : GatherDims.WF S262144x16 S262144x8x1 S262144x8x16 [2] [0] [] [0] [] 2 ![1, 16]
  gather_S262144x3_S262144x8x1_S262144x8x3_2_0_n_n_0_2_13_wf : GatherDims.WF S262144x3 S262144x8x1 S262144x8x3 [2] [0] [] [0] [] 2 ![1, 3]
  dot_S262144x128_S128x128_S262144x128_1_0_0_1_n_n_wf : DotDims.WF S262144x128 S128x128 S262144x128 [1] [0] [0] [1] [] []
  gather_S262144x128_S262144x8x1_S262144x8x128_2_0_n_n_0_2_1128_wf : GatherDims.WF S262144x128 S262144x8x1 S262144x8x128 [2] [0] [] [0] [] 2 ![1, 128]
  dot_S262144x1024_S1024x128_S262144x128_1_0_0_1_n_n_wf : DotDims.WF S262144x1024 S1024x128 S262144x128 [1] [0] [0] [1] [] []
  dot_S262144x1024_S1024x16_S262144x16_1_0_0_1_n_n_wf : DotDims.WF S262144x1024 S1024x16 S262144x16 [1] [0] [0] [1] [] []

variable [Facts₀]

def gather_S262144x16_S262144x8x1_S262144x8x16_2_0_n_n_0_2_116 : GatherDims S262144x16 S262144x8x1 S262144x8x16 where
  offsetDims := [2]
  collapsedSliceDims := [0]
  operandBatchingDims := []
  startIndicesBatchingDims := []
  startIndexMap := [0]
  indexVectorDim := 2
  sliceSizes := ![1, 16]
  wf := gather_S262144x16_S262144x8x1_S262144x8x16_2_0_n_n_0_2_116_wf
def gather_S262144x3_S262144x8x1_S262144x8x3_2_0_n_n_0_2_13 : GatherDims S262144x3 S262144x8x1 S262144x8x3 where
  offsetDims := [2]
  collapsedSliceDims := [0]
  operandBatchingDims := []
  startIndicesBatchingDims := []
  startIndexMap := [0]
  indexVectorDim := 2
  sliceSizes := ![1, 3]
  wf := gather_S262144x3_S262144x8x1_S262144x8x3_2_0_n_n_0_2_13_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def gather_S262144x128_S262144x8x1_S262144x8x128_2_0_n_n_0_2_1128 : GatherDims S262144x128 S262144x8x1 S262144x8x128 where
  offsetDims := [2]
  collapsedSliceDims := [0]
  operandBatchingDims := []
  startIndicesBatchingDims := []
  startIndexMap := [0]
  indexVectorDim := 2
  sliceSizes := ![1, 128]
  wf := gather_S262144x128_S262144x8x1_S262144x8x128_2_0_n_n_0_2_1128_wf
def dot_S262144x1024_S1024x128_S262144x128_1_0_0_1_n_n : DotDims S262144x1024 S1024x128 S262144x128 where
  lhsContracting := [1]
  rhsContracting := [0]
  lhsNonContracting := [0]
  rhsNonContracting := [1]
  lhsBatch := []
  rhsBatch := []
  wf := dot_S262144x1024_S1024x128_S262144x128_1_0_0_1_n_n_wf
def dot_S262144x1024_S1024x16_S262144x16_1_0_0_1_n_n : DotDims S262144x1024 S1024x16 S262144x16 where
  lhsContracting := [1]
  rhsContracting := [0]
  lhsNonContracting := [0]
  rhsNonContracting := [1]
  lhsBatch := []
  rhsBatch := []
  wf := dot_S262144x1024_S1024x16_S262144x16_1_0_0_1_n_n_wf

class Facts : Prop extends Facts₀ where

variable [Facts]
-- ==== Proof.LayerSpec.lean ====
/-
  The message-passing layer both programs compute, as a function of whole arrays on the extended reals.

  For a node `n` with eight neighbours: `dist n k` is the Euclidean distance between the node's position and the
  position of its `k`-th neighbour (the square root of the sum over the three coordinates of the squared difference),
  with a distance equal to zero replaced by one half. The layer divides the `F` features of neighbour `k`'s message by
  `dist n k`, lays the `8 · F` quotients out in one row (column `c` is feature `c % F` of neighbour `c / F`), multiplies
  that row into the weight matrix and adds the bias row: `lin n j = (∑ c, (msgs n (c / F) (c % F) / dist n (c / F)) · W c j) + b 0 j`.
  The hidden layer follows with `leaky`: `x` when `x ≥ 0`, else the literal slope times `x`.

  Also here: the one regrouping of a sum the two programs differ by. The kernel accumulates, from zero, eight partial
  products, one per neighbour, each a sum over that neighbour's `F` features; the reference contracts all `8 · F` columns at
  once. Addition on the extended reals is commutative and associative, so the two agree without any finiteness.
-/
import Idealize.ShloMosaic.Lib.ValueIdx
import Idealize.ShloMosaic.PureOps.Ideal.Laws

noncomputable section

open scoped BigOperators

namespace Cert.Layer

open Idealize.ShloMosaic Idealize.ShloMosaic.ValueIdx

variable {R F KF H : ℕ}

/-- The sum of squared coordinate differences between node `n` and its `k`-th neighbour. -/
def sq (pos : (⟨2, ![R, 3]⟩ : Shape).Idx → EReal) (spos : (⟨3, ![R, 8, 3]⟩ : Shape).Idx → EReal) (n : Fin R) (k : Fin 8) : EReal :=
  ∑ d : Fin 3, (pos (ix2 n d) - spos (ix3 n k d)) * (pos (ix2 n d) - spos (ix3 n k d))

/-- A distance with zero replaced by one half. -/
def fix (s : EReal) : EReal :=
  Scalar.select (Ideal.cmp .oeq s (Ideal.ofBits .f32 0x00000000#32)) (Ideal.ofBits .f32 0x3F000000#32) s

/-- The distance from node `n` to its `k`-th neighbour, zero replaced by one half. -/
def dist (pos : (⟨2, ![R, 3]⟩ : Shape).Idx → EReal) (spos : (⟨3, ![R, 8, 3]⟩ : Shape).Idx → EReal) (n : Fin R) (k : Fin 8) : EReal :=
  fix (Ideal.sqrt (sq pos spos n k))

/-- Feature `f` of neighbour `k`'s message over the distance to that neighbour. -/
def wow (msgs : (⟨3, ![R, 8, F]⟩ : Shape).Idx → EReal) (pos : (⟨2, ![R, 3]⟩ : Shape).Idx → EReal)
    (spos : (⟨3, ![R, 8, 3]⟩ : Shape).Idx → EReal) (n : Fin R) (k : Fin 8) (f : Fin F) : EReal :=
  Ideal.div (msgs (ix3 n k f)) (dist pos spos n k)

theorem div_lt_of_eq (hKF : KF = 8 * F) (c : Fin KF) : c.val / F < 8 := by
  have := c.isLt
  rcases Nat.eq_zero_or_pos F with h | h
  · subst h; simp
  · exact Nat.div_lt_of_lt_mul (by rw [Nat.mul_comm]; omega)

theorem mod_lt_of_eq (hKF : KF = 8 * F) (c : Fin KF) : c.val % F < F := by
  have := c.isLt
  rcases Nat.eq_zero_or_pos F with h | h
  · subst h; omega
  · exact Nat.mod_lt _ h

/-- Column `c` of the flattened row: feature `c % F` of neighbour `c / F`, times the weight at `(c, j)`. -/
def term (hKF : KF = 8 * F) (msgs : (⟨3, ![R, 8, F]⟩ : Shape).Idx → EReal) (pos : (⟨2, ![R, 3]⟩ : Shape).Idx → EReal)
    (spos : (⟨3, ![R, 8, 3]⟩ : Shape).Idx → EReal) (W : (⟨2, ![KF, H]⟩ : Shape).Idx → EReal) (n : Fin R) (j : Fin H) (c : Fin KF) : EReal :=
  wow msgs pos spos n ⟨c.val / F, div_lt_of_eq hKF c⟩ ⟨c.val % F, mod_lt_of_eq hKF c⟩ * W (ix2 c j)

/-- The layer before its activation: the contraction over all `8 · F` columns plus the bias. -/
def lin (hKF : KF = 8 * F) (msgs : (⟨3, ![R, 8, F]⟩ : Shape).Idx → EReal) (pos : (⟨2, ![R, 3]⟩ : Shape).Idx → EReal)
    (spos : (⟨3, ![R, 8, 3]⟩ : Shape).Idx → EReal) (W : (⟨2, ![KF, H]⟩ : Shape).Idx → EReal)
    (b : (⟨2, ![1, H]⟩ : Shape).Idx → EReal) (n : Fin R) (j : Fin H) : EReal :=
  (∑ c : Fin KF, term hKF msgs pos spos W n j c) + b (ix2 (0 : Fin 1) j)

/-- The leaky rectifier with the literal slope. -/
def leaky (x : EReal) : EReal :=
  Scalar.select (Ideal.cmp .oge x (Ideal.ofBits .f32 0x00000000#32)) x (Ideal.ofBits .f32 0x3C23D70A#32 * x)

/-- The layer as a whole array: `act` says whether the rectifier follows. -/
def val (act : Bool) (hKF : KF = 8 * F) (msgs : (⟨3, ![R, 8, F]⟩ : Shape).Idx → EReal) (pos : (⟨2, ![R, 3]⟩ : Shape).Idx → EReal)
    (spos : (⟨3, ![R, 8, 3]⟩ : Shape).Idx → EReal) (W : (⟨2, ![KF, H]⟩ : Shape).Idx → EReal)
    (b : (⟨2, ![1, H]⟩ : Shape).Idx → EReal) : (⟨2, ![R, H]⟩ : Shape).Idx → EReal :=
  fun i => if act then leaky (lin hKF msgs pos spos W b (i 0) (i 1)) else lin hKF msgs pos spos W b (i 0) (i 1)

/-- The kernel's order of summation: from zero, neighbour by neighbour, each neighbour's `F` features summed first. -/
def acc8 (S : Fin 8 → EReal) : EReal :=
  (((((((0 + S 0) + S 1) + S 2) + S 3) + S 4) + S 5) + S 6) + S 7

/-- Neighbour `k`'s partial product: the sum over its `F` features of the column `k · F + f`. -/
def part (hKF : KF = 8 * F) (g : Fin KF → EReal) (k : Fin 8) : EReal :=
  ∑ f : Fin F, g ⟨k.val * F + f.val, by have := k.isLt; have := f.isLt; subst hKF; nlinarith⟩

/-- The eight partial products, accumulated from zero, are the sum over all `8 · F` columns. -/
theorem acc8_part (hKF : KF = 8 * F) (g : Fin KF → EReal) : acc8 (part hKF g) = ∑ c : Fin KF, g c := by
  subst hKF
  unfold acc8
  rw [zero_add, ← Fin.sum_univ_eight (part rfl g)]
  unfold part
  rw [← Finset.sum_product', Finset.univ_product_univ]
  exact Fintype.sum_equiv finProdFinEquiv _ _ (fun x => by
    rcases x with ⟨k, f⟩
    refine congrArg g (Fin.ext ?_)
    show k.val * F + f.val = f.val + F * k.val
    rw [Nat.mul_comm, Nat.add_comm])

end Cert.Layer

end
-- ==== Proof.KernelTerm.lean ====
/-
  The kernel's result as a term of its nine arguments: the neighbour table normalised (a negative entry has the row
  count added), each node's eight neighbour rows gathered — of the positions, of the features, then of each layer's
  output — and the three layers composed through those gathers.
-/
import proofs.«126566_j70523363000700_1_alg».proof.Proof.Gen.KernelIdeal
import proofs.«126566_j70523363000700_1_alg».proof.Proof.LayerSpec

noncomputable section

namespace Cert.KernelIdeal.KValue

open Idealize.ShloMosaic Idealize.ShloMosaic.ValueIdx Cert.KernelIdeal Cert.KernelIdeal.Gen

/-- The neighbour table normalised: a negative entry has the row count added; laid out with a trailing unit axis. -/
def nbr (x2 : (⟨S262144x8, .i32⟩ : BufTy).Contents (Elt Ideal)) : (⟨S262144x8x1, .i32⟩ : BufTy).Contents (Elt Ideal) :=
  broadcastInDim S262144x8x1 ![0, 1] bcast_S262144x8_S262144x8x1_0_1
    (select (cmpi .slt x2 (broadcastInDim S262144x8 ![] bcast_S_S262144x8 (constantI S_ 32 0#32)))
      (addi x2 (broadcastInDim S262144x8 ![] bcast_S_S262144x8 (constantI S_ 32 262144#32))) x2)

/-- The neighbours' positions. -/
def spos (x1 : (⟨S262144x3, .f32⟩ : BufTy).Contents (Elt Ideal)) (x2 : (⟨S262144x8, .i32⟩ : BufTy).Contents (Elt Ideal)) :
    (⟨S262144x8x3, .f32⟩ : BufTy).Contents (Elt Ideal) :=
  Host.gather gather_S262144x3_S262144x8x1_S262144x8x3_2_0_n_n_0_2_13 x1 (nbr x2)

/-- The first layer's output. -/
def h1 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) : (⟨S262144x128, .f32⟩ : BufTy).Contents (Elt Ideal) :=
  Cert.Layer.val false (R := 262144) (F := 16) (KF := 128) (H := 128) (by norm_num)
    (Host.gather gather_S262144x16_S262144x8x1_S262144x8x16_2_0_n_n_0_2_116 x0 (nbr x2)) x1 (spos x1 x2) x3 x4

/-- The hidden layer's output. -/
def h2 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) : (⟨S262144x128, .f32⟩ : BufTy).Contents (Elt Ideal) :=
  Cert.Layer.val true (R := 262144) (F := 128) (KF := 1024) (H := 128) (by norm_num)
    (Host.gather gather_S262144x128_S262144x8x1_S262144x8x128_2_0_n_n_0_2_1128 (h1 x0 x1 x2 x3 x4) (nbr x2)) x1 (spos x1 x2) x5 x6

/-- The result. -/
def h3 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) (x7 : (⟨S1024x16, .f32⟩ : BufTy).Contents (Elt Ideal))
    (x8 : (⟨S1x16, .f32⟩ : BufTy).Contents (Elt Ideal)) : (⟨S262144x16, .f32⟩ : BufTy).Contents (Elt Ideal) :=
  Cert.Layer.val false (R := 262144) (F := 128) (KF := 1024) (H := 16) (by norm_num)
    (Host.gather gather_S262144x128_S262144x8x1_S262144x8x128_2_0_n_n_0_2_1128 (h2 x0 x1 x2 x3 x4 x5 x6) (nbr x2)) x1 (spos x1 x2) x7 x8

end Cert.KernelIdeal.KValue

end
-- ==== Proof.LayerRows.lean ====
/-
  The layer at one node depends only on that node's rows: its eight neighbour messages, its position, its eight
  neighbours' positions, the weight column and the bias entry. Two sets of arrays that agree there give the same value,
  whatever their numbers of rows: what reads a block of rows of the layer as the layer of the blocks.
-/
import proofs.«126566_j70523363000700_1_alg».proof.Proof.LayerSpec

noncomputable section

open scoped BigOperators

namespace Cert.Layer

open Idealize.ShloMosaic Idealize.ShloMosaic.ValueIdx

variable {R R' F KF H : ℕ}

theorem lin_congr (hKF : KF = 8 * F)
    (msgs : (⟨3, ![R, 8, F]⟩ : Shape).Idx → EReal) (pos : (⟨2, ![R, 3]⟩ : Shape).Idx → EReal) (spos : (⟨3, ![R, 8, 3]⟩ : Shape).Idx → EReal)
    (W : (⟨2, ![KF, H]⟩ : Shape).Idx → EReal) (b : (⟨2, ![1, H]⟩ : Shape).Idx → EReal)
    (msgs' : (⟨3, ![R', 8, F]⟩ : Shape).Idx → EReal) (pos' : (⟨2, ![R', 3]⟩ : Shape).Idx → EReal) (spos' : (⟨3, ![R', 8, 3]⟩ : Shape).Idx → EReal)
    (W' : (⟨2, ![KF, H]⟩ : Shape).Idx → EReal) (b' : (⟨2, ![1, H]⟩ : Shape).Idx → EReal)
    (n : Fin R) (n' : Fin R') (j : Fin H)
    (hm : ∀ k f, msgs (ix3 n k f) = msgs' (ix3 n' k f)) (hp : ∀ d, pos (ix2 n d) = pos' (ix2 n' d))
    (hs : ∀ k d, spos (ix3 n k d) = spos' (ix3 n' k d)) (hW : ∀ c, W (ix2 c j) = W' (ix2 c j))
    (hb : b (ix2 (0 : Fin 1) j) = b' (ix2 (0 : Fin 1) j)) :
    lin hKF msgs pos spos W b n j = lin hKF msgs' pos' spos' W' b' n' j := by
  unfold lin term wow dist sq
  simp only [hm, hp, hs, hW, hb]

/-- The layer read at row `n` of one set of arrays and at row `n'` of another that agrees with it on that row. -/
theorem val_congr (act : Bool) (hKF : KF = 8 * F)
    (msgs : (⟨3, ![R, 8, F]⟩ : Shape).Idx → EReal) (pos : (⟨2, ![R, 3]⟩ : Shape).Idx → EReal) (spos : (⟨3, ![R, 8, 3]⟩ : Shape).Idx → EReal)
    (W : (⟨2, ![KF, H]⟩ : Shape).Idx → EReal) (b : (⟨2, ![1, H]⟩ : Shape).Idx → EReal)
    (msgs' : (⟨3, ![R', 8, F]⟩ : Shape).Idx → EReal) (pos' : (⟨2, ![R', 3]⟩ : Shape).Idx → EReal) (spos' : (⟨3, ![R', 8, 3]⟩ : Shape).Idx → EReal)
    (W' : (⟨2, ![KF, H]⟩ : Shape).Idx → EReal) (b' : (⟨2, ![1, H]⟩ : Shape).Idx → EReal)
    (n : Fin R) (n' : Fin R') (j : Fin H)
    (hm : ∀ k f, msgs (ix3 n k f) = msgs' (ix3 n' k f)) (hp : ∀ d, pos (ix2 n d) = pos' (ix2 n' d))
    (hs : ∀ k d, spos (ix3 n k d) = spos' (ix3 n' k d)) (hW : ∀ c, W (ix2 c j) = W' (ix2 c j))
    (hb : b (ix2 (0 : Fin 1) j) = b' (ix2 (0 : Fin 1) j)) :
    val act hKF msgs pos spos W b (ix2 n j) = val act hKF msgs' pos' spos' W' b' (ix2 n' j) := by
  have h := lin_congr hKF msgs pos spos W b msgs' pos' spos' W' b' n n' j hm hp hs hW hb
  show (if act then leaky (lin hKF msgs pos spos W b n j) else lin hKF msgs pos spos W b n j)
    = (if act then leaky (lin hKF msgs' pos' spos' W' b' n' j) else lin hKF msgs' pos' spos' W' b' n' j)
  rw [h]

end Cert.Layer

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.Body0.lean ====
/-
  Region 0's stored block is the layer on the extended reals.

  The body loads the node positions, the neighbours' positions, the message block, eight slabs of sixteen rows of the weight
  matrix and the bias row, and stores one block. At an output index `(p, j)` the stored value is read operation by operation:
  the distance vector at `(p, k)` is the specification's distance; neighbour `k`'s sixteen features over that distance,
  contracted with the slab from row `k · 16`, are the specification's partial sum over the columns `k · 16 + f`; the eight
  partial products are added from zero in order, and the bias entry `j` is added last. Regrouping the eight partial sums into
  the one sum over all 128 columns is the specification's own lemma.
-/
import proofs.«126566_j70523363000700_1_alg».proof.Proof.LayerSpec
import proofs.«126566_j70523363000700_1_alg».proof.Proof.LibRowOps
import proofs.«126566_j70523363000700_1_alg».proof.Proof.Gen.KernelIdeal.Frame

noncomputable section

namespace Cert.KernelIdeal.Body

open Idealize.ShloMosaic Idealize.ShloMosaic.ValueIdx Cert.KernelIdeal Cert.KernelIdeal.Gen
open scoped BigOperators

namespace R0

/-! ### A product of a [512,16] block with a [16,128] slab, read at an output index -/

theorem lhs_dot_0 (i : S512x128.Idx) (q : dot_S512x16_S16x128_S512x128_1_0_0_1_n_n.contr.Idx) :
    (dot_S512x16_S16x128_S512x128_1_0_0_1_n_n.lhsIdx i q 0).val = (i 0).val := by
  unfold DotDims.lhsIdx
  rw [dif_neg (show ¬(0 : Fin S512x16.rank) ∈ dot_S512x16_S16x128_S512x128_1_0_0_1_n_n.lhsBatch by decide), dif_pos (show (0 : Fin S512x16.rank) ∈ dot_S512x16_S16x128_S512x128_1_0_0_1_n_n.lhsNonContracting by decide)]
  rfl
theorem lhs_dot_1 (i : S512x128.Idx) (q : dot_S512x16_S16x128_S512x128_1_0_0_1_n_n.contr.Idx) :
    (dot_S512x16_S16x128_S512x128_1_0_0_1_n_n.lhsIdx i q 1).val = (q ⟨0, by decide⟩).val :=
  dot_S512x16_S16x128_S512x128_1_0_0_1_n_n.lhsIdx_val_of_single rfl i q
theorem rhs_dot_0 (i : S512x128.Idx) (q : dot_S512x16_S16x128_S512x128_1_0_0_1_n_n.contr.Idx) :
    (dot_S512x16_S16x128_S512x128_1_0_0_1_n_n.rhsIdx i q 0).val = (q ⟨0, by decide⟩).val :=
  dot_S512x16_S16x128_S512x128_1_0_0_1_n_n.rhsIdx_val_of_single rfl i q
theorem rhs_dot_1 (i : S512x128.Idx) (q : dot_S512x16_S16x128_S512x128_1_0_0_1_n_n.contr.Idx) :
    (dot_S512x16_S16x128_S512x128_1_0_0_1_n_n.rhsIdx i q 1).val = (i 1).val := by
  unfold DotDims.rhsIdx
  rw [dif_neg (show ¬(1 : Fin S16x128.rank) ∈ dot_S512x16_S16x128_S512x128_1_0_0_1_n_n.rhsBatch by decide), dif_pos (show (1 : Fin S16x128.rank) ∈ dot_S512x16_S16x128_S512x128_1_0_0_1_n_n.rhsNonContracting by decide)]
  rfl

/-- Into the zero block, the product at `(p, j)` is the sum over the 16 features of row `p` times column `j`. -/
theorem matmulZero_apply (a : FVec Ideal S512x16 .bf16) (w : FVec Ideal S16x128 .bf16) (p : Fin 512) (j : Fin 128) :
    matmul (F := Ideal) dot_S512x16_S16x128_S512x128_1_0_0_1_n_n none a w (constant (F := Ideal) S512x128 .f32 0x00000000#32) (ix2 p j)
      = ∑ f : Fin 16, a (ix2 p f) * w (ix2 f j) := by
  refine (Ideal.matmul_constant_zero_apply dot_S512x16_S16x128_S512x128_1_0_0_1_n_n none a w (ix2 p j)).trans ?_
  rw [← Equiv.sum_comp (contrEquiv1 dot_S512x16_S16x128_S512x128_1_0_0_1_n_n 16 rfl rfl).symm]
  refine Finset.sum_congr rfl fun k _ => ?_
  have hk := contrEquiv1_symm_val dot_S512x16_S16x128_S512x128_1_0_0_1_n_n 16 rfl rfl k
  have el : dot_S512x16_S16x128_S512x128_1_0_0_1_n_n.lhsIdx (ix2 p j) ((contrEquiv1 dot_S512x16_S16x128_S512x128_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S512x16_S16x128_S512x128_1_0_0_1_n_n.rhsIdx (ix2 p j) ((contrEquiv1 dot_S512x16_S16x128_S512x128_1_0_0_1_n_n 16 rfl rfl).symm k) = ix2 k j := funext fun a => Fin.ext (by
    match a with
    | ⟨0, _⟩ => exact (rhs_dot_0 _ _).trans hk
    | ⟨1, _⟩ => exact rhs_dot_1 _ _)
  rw [el, er]

/-! ### The distance vector at `(p, k)` -/

/-- A pair `(p, k)` with the coordinate `d` put back on axis 2 is the index `(p, k, d)`. -/
theorem lift_coord (h : S512x8x3.Reduces [2] S512x8) (p : Fin 512) (k : Fin 8) (d : Fin (S512x8x3.size 2)) :
    h.lift (ix2 p k) d = ix3 p k (⟨d.val, d.isLt⟩ : Fin 3) := by
  funext c; apply Fin.ext
  fin_cases c <;> rfl

/-- The node's position spread over its eight neighbours reads, at `(p, k, d)`, coordinate `d` of node `p`. -/
theorem spreadPos_apply (v0 : Vec Ideal S512x3 .f32) (p : Fin 512) (k : Fin 8) (d : Fin 3) :
    broadcastTo S512x8x3 (shapeCast S512x1x3 v0 shapeCasts_S512x3_S512x1x3) broadcasts_S512x1x3_S512x8x3 (ix3 p k d) = v0 (ix2 p d) := by
  refine (broadcastTo_apply _ broadcasts_S512x1x3_S512x8x3 (ix3 p k d) (ix3 p (0 : Fin 1) d) (fun a => by
    match a with
    | ⟨0, _⟩ => rfl
    | ⟨1, _⟩ => rfl
    | ⟨2, _⟩ => rfl)).trans ?_
  exact shapeCast_apply v0 shapeCasts_S512x3_S512x1x3 (ix3 p (0 : Fin 1) d) (ix2 p d) (by
    rw [Shape.rowMajor_val_two, Shape.rowMajor_val_three]
    show p.val * 3 + d.val = (p.val * 1 + 0) * 3 + d.val
    omega)

/-- The sum of squared differences at `(p, k)`. -/
theorem sq_apply (v0 : Vec Ideal S512x3 .f32) (v1 : Vec Ideal S512x8x3 .f32) (p : Fin 512) (k : Fin 8) :
    multiReduction (F := Ideal) .add [2] S512x8
      (mulf (subf (broadcastTo S512x8x3 (shapeCast S512x1x3 v0 shapeCasts_S512x3_S512x1x3) broadcasts_S512x1x3_S512x8x3) (shapeCast S512x8x3 v1 shapeCasts_S512x8x3_S512x8x3))
            (subf (broadcastTo S512x8x3 (shapeCast S512x1x3 v0 shapeCasts_S512x3_S512x1x3) broadcasts_S512x1x3_S512x8x3) (shapeCast S512x8x3 v1 shapeCasts_S512x8x3_S512x8x3)))
      0x00000000#32 reduces_S512x8x3_S512x8 (.inl rfl) rfl (ix2 p k) = Cert.Layer.sq v0 v1 p k := by
  refine (Ideal.multiReduction_add_single _ 0x00000000#32 reduces_S512x8x3_S512x8 (.inl rfl) rfl (ix2 p k)).trans ?_
  unfold Cert.Layer.sq
  show ∑ d : Fin 3, _ = _
  refine Finset.sum_congr rfl fun d _ => ?_
  rw [lift_coord reduces_S512x8x3_S512x8 p k d, shapeCast_self]
  have e := spreadPos_apply v0 p k d
  exact congrArg₂ (· * ·) (congrArg (· - v1 (ix3 p k d)) e) (congrArg (· - v1 (ix3 p k d)) e)

/-- The distance payload at `(p, k)`. -/
theorem dist_apply (v0 : Vec Ideal S512x3 .f32) (v1 : Vec Ideal S512x8x3 .f32) (p : Fin 512) (k : Fin 8) :
    k0_pay2 (F := Ideal) v0 v1 (ix2 p k) = Cert.Layer.dist v0 v1 p k := by
  unfold k0_pay2 Cert.Layer.dist Cert.Layer.fix
  have e := sq_apply v0 v1 p k
  exact congrArg (fun s => Scalar.select (Ideal.cmp .oeq (Ideal.sqrt s) (Ideal.ofBits .f32 0x00000000#32)) (Ideal.ofBits .f32 0x3F000000#32) (Ideal.sqrt s)) e

/-! ### One neighbour's quotient block, one weight slab, one partial product -/

/-- Neighbour `o`'s features over the distance to it, at `(p, f)`. -/
theorem quot_apply (v12 : FVec Ideal S512x8 .f32) (v14 : FVec Ideal S512x8x16 .f32) (o : ℕ) (ho : o < 8)
    (hs : S512x8x16.Slices ![0, o, 0] S512x1x16) (hs' : S512x8.Slices ![0, o] S512x1) (p : Fin 512) (f : Fin 16) :
    divf (shapeCast S512x16 (extractStridedSlice S512x1x16 ![0, o, 0] v14 hs) shapeCasts_S512x1x16_S512x16)
         (broadcastTo S512x16 (extractStridedSlice S512x1 ![0, o] v12 hs') broadcasts_S512x1_S512x16) (ix2 p f)
      = Ideal.div (v14 (ix3 p (⟨o, ho⟩ : Fin 8) f)) (v12 (ix2 p (⟨o, ho⟩ : Fin 8))) := by
  have e1 : shapeCast S512x16 (extractStridedSlice S512x1x16 ![0, o, 0] v14 hs) shapeCasts_S512x1x16_S512x16 (ix2 p f)
      = v14 (ix3 p (⟨o, ho⟩ : Fin 8) f) := by
    refine (shapeCast_apply _ shapeCasts_S512x1x16_S512x16 (ix2 p f) (ix3 p (0 : Fin 1) f) (by
      rw [Shape.rowMajor_val_two, Shape.rowMajor_val_three]
      show (p.val * 1 + 0) * 16 + f.val = p.val * 16 + f.val
      omega)).trans ?_
    exact extractStridedSlice_apply ![0, o, 0] v14 hs (ix3 p (0 : Fin 1) f) (ix3 p (⟨o, ho⟩ : Fin 8) f) (fun a => by
      match a with
      | ⟨0, _⟩ => show p.val = 0 + p.val; omega
      | ⟨1, _⟩ => show o = o + 0; omega
      | ⟨2, _⟩ => show f.val = 0 + f.val; omega)
  have e2 : broadcastTo S512x16 (extractStridedSlice S512x1 ![0, o] v12 hs') broadcasts_S512x1_S512x16 (ix2 p f)
      = v12 (ix2 p (⟨o, ho⟩ : Fin 8)) := by
    refine (Cert.RowOps.spreadCol_apply _ broadcasts_S512x1_S512x16 p f).trans ?_
    exact extractStridedSlice_apply ![0, o] v12 hs' (ix2 p (0 : Fin 1)) (ix2 p (⟨o, ho⟩ : Fin 8)) (fun a => by
      match a with
      | ⟨0, _⟩ => show p.val = 0 + p.val; omega
      | ⟨1, _⟩ => show o = o + 0; omega)
  exact congrArg₂ Ideal.div e1 e2

/-- Neighbour `k`'s partial product at `(p, j)`, from the distance vector, the message block and a weight slab. -/
def pp (d : FVec Ideal S512x8 .f32) (m : FVec Ideal S512x8x16 .f32) (w : Vec Ideal S16x128 .f32) (p : Fin 512) (j : Fin 128)
    (k : Fin 8) : EReal :=
  ∑ f : Fin 16, Ideal.div (m (ix3 p k f)) (d (ix2 p k)) * w (ix2 f j)

/-- Neighbour `o`'s partial product at `(p, j)`. -/
theorem part_apply (v12 : FVec Ideal S512x8 .f32) (v14 : FVec Ideal S512x8x16 .f32) (w : Vec Ideal S16x128 .f32) (o : ℕ) (ho : o < 8)
    (hs : S512x8x16.Slices ![0, o, 0] S512x1x16) (hs' : S512x8.Slices ![0, o] S512x1) (p : Fin 512) (j : Fin 128) :
    matmul (F := Ideal) dot_S512x16_S16x128_S512x128_1_0_0_1_n_n none
      (truncf .bf16 (divf (shapeCast S512x16 (extractStridedSlice S512x1x16 ![0, o, 0] v14 hs) shapeCasts_S512x1x16_S512x16)
         (broadcastTo S512x16 (extractStridedSlice S512x1 ![0, o] v12 hs') broadcasts_S512x1_S512x16)) bitsLt_bf16_f32)
      (truncf .bf16 w bitsLt_bf16_f32) (constant (F := Ideal) S512x128 .f32 0x00000000#32) (ix2 p j)
      = pp v12 v14 w p j (⟨o, ho⟩ : Fin 8) := by
  refine (matmulZero_apply _ _ p j).trans ?_
  refine Finset.sum_congr rfl fun f _ => ?_
  exact congrArg (· * w (ix2 f j)) (quot_apply v12 v14 o ho hs hs' p f)

/-- The weight slab of 16 rows from row `off`, read at `(f, j)`. -/
theorem slab_apply (x3 : Vec Ideal S128x128 .f32) (off : ℕ) (hoff : off + 16 ≤ 128)
    (inb : ∀ a, (![off, 0] : Fin 2 → ℕ) a + S16x128.size a ≤ S128x128.size a) (f : Fin 16) (j : Fin 128) :
    View.ld x3 (Rect.unit (s := S128x128) ![off, 0] S16x128.size inb) (ix2 f j)
      = x3 (ix2 (⟨off + f.val, by have := f.isLt; omega⟩ : Fin 128) j) := by
  show x3 _ = x3 _
  refine congrArg x3 (funext fun a => Fin.ext ?_)
  match a with
  | ⟨0, _⟩ => show off + 1 * f.val = off + f.val; omega
  | ⟨1, _⟩ => show 0 + 1 * j.val = j.val; omega

/-- The bias row spread over the 512 nodes reads, at `(p, j)`, its entry `j`. -/
theorem bias_apply (b : Vec Ideal S1x128 .f32) (p : Fin 512) (j : Fin 128) :
    broadcastTo S512x128 b broadcasts_S1x128_S512x128 (ix2 p j) = b (ix2 (0 : Fin 1) j) :=
  broadcastTo_apply b broadcasts_S1x128_S512x128 (ix2 p j) (ix2 (0 : Fin 1) j) (fun a => by
    match a with
    | ⟨0, _⟩ => rfl
    | ⟨1, _⟩ => rfl)

/-! ### The payloads at `(p, j)` -/

theorem pay3_eq (v13 : Vec Ideal S512x8x16 .f32) : k0_pay3 (F := Ideal) v13 = v13 :=
  shapeCast_self v13 shapeCasts_S512x8x16_S512x8x16

theorem pay5_apply (v0 : Vec Ideal S512x3 .f32) (v1 : Vec Ideal S512x8x3 .f32) (v13 : Vec Ideal S512x8x16 .f32) (p : Fin 512) (f : Fin 16) :
    k0_pay5 (F := Ideal) v0 v1 v13 (ix2 p f)
      = Ideal.div (k0_pay3 (F := Ideal) v13 (ix3 p (2 : Fin 8) f)) (k0_pay2 (F := Ideal) v0 v1 (ix2 p (2 : Fin 8))) := by
  unfold k0_pay5
  exact quot_apply (k0_pay2 (F := Ideal) v0 v1) (k0_pay3 (F := Ideal) v13) 2 (by norm_num) _ _ p f

theorem pay4_apply (v0 : Vec Ideal S512x3 .f32) (v1 : Vec Ideal S512x8x3 .f32) (v13 : Vec Ideal S512x8x16 .f32)
    (v21 v31 : Vec Ideal S16x128 .f32) (p : Fin 512) (j : Fin 128) :
    k0_pay4 (F := Ideal) v0 v1 v13 v21 v31 (ix2 p j)
      = (0 + pp (k0_pay2 (F := Ideal) v0 v1) (k0_pay3 (F := Ideal) v13) v21 p j 0) + pp (k0_pay2 (F := Ideal) v0 v1) (k0_pay3 (F := Ideal) v13) v31 p j 1 := by
  unfold k0_pay4
  exact congrArg₂ (· + ·)
    (congrArg₂ (· + ·) Ideal.ofBits_zero_f32 (part_apply (k0_pay2 (F := Ideal) v0 v1) (k0_pay3 (F := Ideal) v13) v21 0 (by norm_num) _ _ p j))
    (part_apply (k0_pay2 (F := Ideal) v0 v1) (k0_pay3 (F := Ideal) v13) v31 1 (by norm_num) _ _ p j)

theorem pay6_apply (v12 : FVec Ideal S512x8 .f32) (v14 : FVec Ideal S512x8x16 .f32) (v35 : FVec Ideal S512x128 .f32)
    (v40 : FVec Ideal S512x16 .f32) (v41 v51 v61 v71 v81 : Vec Ideal S16x128 .f32) (p : Fin 512) (j : Fin 128) :
    k0_pay6 (F := Ideal) v12 v14 v35 v40 v41 v51 v61 v71 v81 (ix2 p j)
      = ((((v35 (ix2 p j) + ∑ f : Fin 16, v40 (ix2 p f) * v41 (ix2 f j)) + pp v12 v14 v51 p j 3) + pp v12 v14 v61 p j 4)
          + pp v12 v14 v71 p j 5) + pp v12 v14 v81 p j 6 := by
  unfold k0_pay6
  exact congrArg₂ (· + ·) (congrArg₂ (· + ·) (congrArg₂ (· + ·) (congrArg₂ (· + ·)
    (congrArg (v35 (ix2 p j) + ·) (matmulZero_apply _ _ p j))
    (part_apply v12 v14 v51 3 (by norm_num) _ _ p j))
    (part_apply v12 v14 v61 4 (by norm_num) _ _ p j))
    (part_apply v12 v14 v71 5 (by norm_num) _ _ p j))
    (part_apply v12 v14 v81 6 (by norm_num) _ _ p j)

theorem pay1_apply (v12 : FVec Ideal S512x8 .f32) (v14 : FVec Ideal S512x8x16 .f32) (v85 : FVec Ideal S512x128 .f32)
    (v91 : Vec Ideal S16x128 .f32) (v96 : Vec Ideal S1x128 .f32) (p : Fin 512) (j : Fin 128) :
    k0_pay1 (F := Ideal) v12 v14 v85 v91 v96 (ix2 p j)
      = (v85 (ix2 p j) + pp v12 v14 v91 p j 7) + v96 (ix2 (0 : Fin 1) j) := by
  unfold k0_pay1
  exact congrArg₂ (· + ·) (congrArg (v85 (ix2 p j) + ·) (part_apply v12 v14 v91 7 (by norm_num) _ _ p j)) (bias_apply v96 p j)

/-! ### The partial products are the specification's, and the whole block -/

/-- Column `k · 16 + f` of the flattened row is feature `f` of neighbour `k`. -/
theorem term_col (hKF : 128 = 8 * 16) (x0 : Vec Ideal S512x8x16 .f32) (x1 : Vec Ideal S512x3 .f32) (x2 : Vec Ideal S512x8x3 .f32)
    (x3 : Vec Ideal S128x128 .f32) (p : Fin 512) (j : Fin 128) (k : Fin 8) (f : Fin 16) (h : k.val * 16 + f.val < 128) :
    Cert.Layer.term (R := 512) (F := 16) (KF := 128) (H := 128) hKF x0 x1 x2 x3 p j ⟨k.val * 16 + f.val, h⟩
      = Ideal.div (x0 (ix3 p k f)) (Cert.Layer.dist x1 x2 p k) * x3 (ix2 (⟨k.val * 16 + f.val, h⟩ : Fin 128) j) := by
  have hk : (⟨(⟨k.val * 16 + f.val, h⟩ : Fin 128).val / 16, Cert.Layer.div_lt_of_eq hKF _⟩ : Fin 8) = k :=
    Fin.ext (by have := f.isLt; show (k.val * 16 + f.val) / 16 = k.val; omega)
  have hf : (⟨(⟨k.val * 16 + f.val, h⟩ : Fin 128).val % 16, Cert.Layer.mod_lt_of_eq hKF _⟩ : Fin 16) = f :=
    Fin.ext (by have := f.isLt; show (k.val * 16 + f.val) % 16 = f.val; omega)
  unfold Cert.Layer.term Cert.Layer.wow
  rw [hk, hf]

/-- Neighbour `k`'s partial product against the slab from row `k · 16` is the specification's partial sum. -/
theorem pp_slab (hKF : 128 = 8 * 16) (x0 : Vec Ideal S512x8x16 .f32) (x1 : Vec Ideal S512x3 .f32) (x2 : Vec Ideal S512x8x3 .f32)
    (x3 : Vec Ideal S128x128 .f32) (p : Fin 512) (j : Fin 128) (k : Fin 8) (off : ℕ) (hoff : off = k.val * 16)
    (inb : ∀ a, (![off, 0] : Fin 2 → ℕ) a + S16x128.size a ≤ S128x128.size a) :
    pp (k0_pay2 (F := Ideal) x1 x2) (k0_pay3 (F := Ideal) x0) (View.ld x3 (Rect.unit (s := S128x128) ![off, 0] S16x128.size inb)) p j k
      = Cert.Layer.part hKF (Cert.Layer.term (R := 512) (F := 16) (KF := 128) (H := 128) hKF x0 x1 x2 x3 p j) k := by
  subst hoff
  unfold pp Cert.Layer.part
  refine Finset.sum_congr rfl fun f _ => ?_
  refine Eq.trans ?_ (term_col hKF x0 x1 x2 x3 p j k f _).symm
  exact congrArg₂ (· * ·)
    (congrArg₂ Ideal.div (congrFun (pay3_eq x0) (ix3 p k f)) (dist_apply x1 x2 p k))
    (slab_apply x3 (k.val * 16) (by have := k.isLt; omega) inb f j)

/-- Eight terms accumulated from zero, each a value of `S`, are `acc8 S`. -/
theorem acc8_of {a0 a1 a2 a3 a4 a5 a6 a7 : EReal} (S : Fin 8 → EReal) (h0 : a0 = S 0) (h1 : a1 = S 1) (h2 : a2 = S 2)
    (h3 : a3 = S 3) (h4 : a4 = S 4) (h5 : a5 = S 5) (h6 : a6 = S 6) (h7 : a7 = S 7) :
    (((((((0 + a0) + a1) + a2) + a3) + a4) + a5) + a6) + a7 = Cert.Layer.acc8 S := by
  subst h0 h1 h2 h3 h4 h5 h6 h7
  rfl

/-- The body's arithmetic over the loaded blocks, at `(p, j)`: the eight partial products from zero, plus the bias. -/
theorem body_apply (v0 : Vec Ideal S512x3 .f32) (v1 : Vec Ideal S512x8x3 .f32) (v13 : Vec Ideal S512x8x16 .f32)
    (w0 w1 w2 w3 w4 w5 w6 w7 : Vec Ideal S16x128 .f32) (b : Vec Ideal S1x128 .f32) (p : Fin 512) (j : Fin 128) :
    k0_pay1 (F := Ideal) (k0_pay2 (F := Ideal) v0 v1) (k0_pay3 (F := Ideal) v13)
        (k0_pay6 (F := Ideal) (k0_pay2 (F := Ideal) v0 v1) (k0_pay3 (F := Ideal) v13) (k0_pay4 (F := Ideal) v0 v1 v13 w0 w1)
          (k0_pay5 (F := Ideal) v0 v1 v13) w2 w3 w4 w5 w6) w7 b (ix2 p j)
      = ((((((((0 + pp (k0_pay2 (F := Ideal) v0 v1) (k0_pay3 (F := Ideal) v13) w0 p j 0) + pp (k0_pay2 (F := Ideal) v0 v1) (k0_pay3 (F := Ideal) v13) w1 p j 1) + pp (k0_pay2 (F := Ideal) v0 v1) (k0_pay3 (F := Ideal) v13) w2 p j 2) + pp (k0_pay2 (F := Ideal) v0 v1) (k0_pay3 (F := Ideal) v13) w3 p j 3)
          + pp (k0_pay2 (F := Ideal) v0 v1) (k0_pay3 (F := Ideal) v13) w4 p j 4) + pp (k0_pay2 (F := Ideal) v0 v1) (k0_pay3 (F := Ideal) v13) w5 p j 5) + pp (k0_pay2 (F := Ideal) v0 v1) (k0_pay3 (F := Ideal) v13) w6 p j 6) + pp (k0_pay2 (F := Ideal) v0 v1) (k0_pay3 (F := Ideal) v13) w7 p j 7)
          + b (ix2 (0 : Fin 1) j) := by
  refine (pay1_apply _ _ _ w7 b p j).trans ?_
  refine congrArg (fun t => (t + pp (k0_pay2 (F := Ideal) v0 v1) (k0_pay3 (F := Ideal) v13) w7 p j 7) + b (ix2 (0 : Fin 1) j)) ?_
  refine (pay6_apply _ _ _ _ w2 w3 w4 w5 w6 p j).trans ?_
  refine congrArg (fun t => (((t + pp (k0_pay2 (F := Ideal) v0 v1) (k0_pay3 (F := Ideal) v13) w3 p j 3) + pp (k0_pay2 (F := Ideal) v0 v1) (k0_pay3 (F := Ideal) v13) w4 p j 4) + pp (k0_pay2 (F := Ideal) v0 v1) (k0_pay3 (F := Ideal) v13) w5 p j 5)
      + pp (k0_pay2 (F := Ideal) v0 v1) (k0_pay3 (F := Ideal) v13) w6 p j 6) ?_
  exact congrArg₂ (· + ·) (pay4_apply v0 v1 v13 w0 w1 p j)
    (Finset.sum_congr rfl fun f _ => congrArg (· * w2 (ix2 f j)) (pay5_apply v0 v1 v13 p f))

end R0

open R0

theorem out0 (x0 : Vec Ideal S512x8x16 .f32) (x1 : Vec Ideal S512x3 .f32) (x2 : Vec Ideal S512x8x3 .f32)
    (x3 : Vec Ideal S128x128 .f32) (x4 : Vec Ideal S1x128 .f32) :
    out0_5 (F := Ideal) x0 x1 x2 x3 x4 = Cert.Layer.val false (R := 512) (F := 16) (KF := 128) (H := 128) (by norm_num) x0 x1 x2 x3 x4 := by
  have hz2 : (![0, 0] : Fin 2 → Nat) = fun _ => 0 := by funext a; fin_cases a <;> rfl
  have hz3 : (![0, 0, 0] : Fin 3 → Nat) = fun _ => 0 := by funext a; fin_cases a <;> rfl
  unfold out0_5
  rw [View.canon_unit_zero hz2]
  simp only [View.ld_unit_zero (S := S512x3) hz2, View.ld_unit_zero (S := S512x8x3) hz3,
    View.ld_unit_zero (S := S512x8x16) hz3, View.ld_unit_zero (S := S1x128) hz2]
  funext i
  obtain ⟨p, j, rfl⟩ : ∃ (p : Fin 512) (j : Fin 128), i = ix2 p j := ⟨i 0, i 1, eq_ix2 i⟩
  have hKF : 128 = 8 * 16 := by norm_num
  refine (body_apply x1 x2 x0 _ _ _ _ _ _ _ _ x4 p j).trans ?_
  show _ = Cert.Layer.lin hKF x0 x1 x2 x3 x4 p j
  unfold Cert.Layer.lin
  refine congrArg (· + x4 (ix2 (0 : Fin 1) j)) ?_
  rw [← Cert.Layer.acc8_part hKF]
  exact acc8_of _ (pp_slab hKF x0 x1 x2 x3 p j 0 0 rfl _) (pp_slab hKF x0 x1 x2 x3 p j 1 16 rfl _)
    (pp_slab hKF x0 x1 x2 x3 p j 2 32 rfl _) (pp_slab hKF x0 x1 x2 x3 p j 3 48 rfl _)
    (pp_slab hKF x0 x1 x2 x3 p j 4 64 rfl _) (pp_slab hKF x0 x1 x2 x3 p j 5 80 rfl _)
    (pp_slab hKF x0 x1 x2 x3 p j 6 96 rfl _) (pp_slab hKF x0 x1 x2 x3 p j 7 112 rfl _)

end Cert.KernelIdeal.Body

end
-- ==== Proof.Blocks0.lean ====
/-
  Region 0 of the kernel's program, from blocks to arrays. The grid has 512 points; point `t` stages rows
  `512 · t … 512 · t + 511` of the neighbour messages, of the positions and of the neighbours' positions, the whole weight
  matrix and the whole bias row, and writes back rows `512 · t … 512 · t + 511` of the output. The body's output block is
  the layer of the staged blocks; a row of the layer depends only on that row of its row-blocked operands, so what point
  `t` writes back is block `t` of the layer of the whole arrays; the 512 blocks tile the output array, which therefore
  ends holding the layer of the arrays as the region finds them.
-/
import proofs.«126566_j70523363000700_1_alg».proof.Proof.Gen.KernelIdeal.Frame
import proofs.«126566_j70523363000700_1_alg».proof.Proof.LayerRows
import proofs.«126566_j70523363000700_1_alg».proof.Proof.Body0

set_option maxRecDepth 16384

noncomputable section

namespace Cert.KernelIdeal.Blocks0

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Row `p` of block `t` of a 512-row tiling is row `512 · t + p` of the array. -/
abbrev row (t : Fin 512) (p : Fin 512) : Fin 262144 := ⟨t.val * 512 + p.val, by have := t.isLt; have := p.isLt; omega⟩

/-- The layer of the arrays as region 0 finds them. -/
abbrev G (c : Dev nD) : S262144x128.Idx → EReal :=
  Cert.Layer.val false (R := 262144) (F := 16) (KF := 128) (H := 128) (by norm_num) (V c main_v13) (V c main_arg1) (V c main_v6) (V c main_arg3) (V c main_arg4)

/-- The index maps, decided over the grid: the row-blocked windows sit at block `t`, the weights and the bias at block 0. -/
theorem idx : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The message block at point `t` is rows `512 · t …` of the message array. -/
theorem msgs_blk (c : Dev nD) (t : Fin cfg0.N) (p : Fin 512) (k : Fin 8) (f : Fin 16) :
    iblk0 V c 0 t (ix3 p k f) = V c main_v13 (ix3 (row ⟨t.val, t.isLt⟩ p) k f) := by
  obtain ⟨e0, e1, e2, -⟩ := idx t
  show V c main_v13 (((cfg0.win 0).blk t).view.emb (ix3 p k f)) = _
  refine congrArg (V c main_v13) (funext fun a => Fin.ext ?_)
  match a with
  | ⟨0, _⟩ => show win0_0.index t (0 : Fin 3) * 512 + 1 * p.val = t.val * 512 + p.val; rw [e0]; omega
  | ⟨1, _⟩ => show win0_0.index t (1 : Fin 3) * 8 + 1 * k.val = k.val; rw [e1]; omega
  | ⟨2, _⟩ => show win0_0.index t (2 : Fin 3) * 16 + 1 * f.val = f.val; rw [e2]; omega

/-- The position block at point `t`. -/
theorem pos_blk (c : Dev nD) (t : Fin cfg0.N) (p : Fin 512) (d : Fin 3) :
    iblk0 V c 1 t (ix2 p d) = V c main_arg1 (ix2 (row ⟨t.val, t.isLt⟩ p) d) := by
  obtain ⟨-, -, -, e0, e1, -⟩ := idx t
  show V c main_arg1 (((cfg0.win 1).blk t).view.emb (ix2 p d)) = _
  refine congrArg (V c main_arg1) (funext fun a => Fin.ext ?_)
  match a with
  | ⟨0, _⟩ => show win0_1.index t (0 : Fin 2) * 512 + 1 * p.val = t.val * 512 + p.val; rw [e0]; omega
  | ⟨1, _⟩ => show win0_1.index t (1 : Fin 2) * 3 + 1 * d.val = d.val; rw [e1]; omega

/-- The neighbour-position block at point `t`. -/
theorem spos_blk (c : Dev nD) (t : Fin cfg0.N) (p : Fin 512) (k : Fin 8) (d : Fin 3) :
    iblk0 V c 2 t (ix3 p k d) = V c main_v6 (ix3 (row ⟨t.val, t.isLt⟩ p) k d) := by
  obtain ⟨-, -, -, -, -, e0, e1, e2, -⟩ := idx t
  show V c main_v6 (((cfg0.win 2).blk t).view.emb (ix3 p k d)) = _
  refine congrArg (V c main_v6) (funext fun a => Fin.ext ?_)
  match a with
  | ⟨0, _⟩ => show win0_2.index t (0 : Fin 3) * 512 + 1 * p.val = t.val * 512 + p.val; rw [e0]; omega
  | ⟨1, _⟩ => show win0_2.index t (1 : Fin 3) * 8 + 1 * k.val = k.val; rw [e1]; omega
  | ⟨2, _⟩ => show win0_2.index t (2 : Fin 3) * 3 + 1 * d.val = d.val; rw [e2]; omega

/-- The weight window is the whole matrix at every point. -/
theorem wts_blk (c : Dev nD) (t : Fin cfg0.N) (q : Fin 128) (j : Fin 128) :
    iblk0 V c 3 t (ix2 q j) = V c main_arg3 (ix2 q j) := by
  obtain ⟨-, -, -, -, -, -, -, -, e0, e1, -⟩ := idx t
  show V c main_arg3 (((cfg0.win 3).blk t).view.emb (ix2 q j)) = _
  refine congrArg (V c main_arg3) (funext fun a => Fin.ext ?_)
  match a with
  | ⟨0, _⟩ => show win0_3.index t (0 : Fin 2) * 128 + 1 * q.val = q.val; rw [e0]; omega
  | ⟨1, _⟩ => show win0_3.index t (1 : Fin 2) * 128 + 1 * j.val = j.val; rw [e1]; omega

/-- The bias window is the whole row at every point. -/
theorem bias_blk (c : Dev nD) (t : Fin cfg0.N) (z : Fin 1) (j : Fin 128) :
    iblk0 V c 4 t (ix2 z j) = V c main_arg4 (ix2 z j) := by
  obtain ⟨-, -, -, -, -, -, -, -, -, -, e0, e1, -⟩ := idx t
  show V c main_arg4 (((cfg0.win 4).blk t).view.emb (ix2 z j)) = _
  refine congrArg (V c main_arg4) (funext fun a => Fin.ext ?_)
  match a with
  | ⟨0, _⟩ => show win0_4.index t (0 : Fin 2) * 1 + 1 * z.val = z.val; rw [e0]; omega
  | ⟨1, _⟩ => show win0_4.index t (1 : Fin 2) * 128 + 1 * j.val = j.val; rw [e1]; omega

/-- What point `t` writes back is block `t` of the layer of the arrays. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5, Cert.KernelIdeal.Body.out0]
  obtain ⟨-, -, -, -, -, -, -, -, -, -, -, -, e0, e1⟩ := idx t
  funext y
  have ey : (((cfg0.win 5).blk t).view.emb y : S262144x128.Idx)
      = ix2 (row ⟨t.val, t.isLt⟩ (⟨(y 0).val, (y 0).isLt⟩ : Fin 512)) (⟨(y 1).val, (y 1).isLt⟩ : Fin 128) := by
    funext a; apply Fin.ext
    match a with
    | ⟨0, _⟩ => show win0_5.index t (0 : Fin 2) * 512 + 1 * (y 0).val = t.val * 512 + (y 0).val; rw [e0]; omega
    | ⟨1, _⟩ => show win0_5.index t (1 : Fin 2) * 128 + 1 * (y 1).val = (y 1).val; rw [e1]; omega
  show Cert.Layer.val false (R := 512) (F := 16) (KF := 128) (H := 128) _ (iblk0 V c 0 t) (iblk0 V c 1 t) (iblk0 V c 2 t) (iblk0 V c 3 t) (iblk0 V c 4 t) y
    = G V c (((cfg0.win 5).blk t).view.emb y)
  rw [ey]
  refine (congrArg (Cert.Layer.val false (R := 512) (F := 16) (KF := 128) (H := 128) _ (iblk0 V c 0 t) (iblk0 V c 1 t) (iblk0 V c 2 t) (iblk0 V c 3 t) (iblk0 V c 4 t))
    (eq_ix2 (n0 := 512) (n1 := 128) y)).trans ?_
  exact Cert.Layer.val_congr false _ _ _ _ _ _ _ _ _ _ _ _ _ _
    (fun k f => msgs_blk V c t _ k f) (fun d => pos_blk V c t _ d) (fun k d => spos_blk V c t _ k d)
    (fun q => wts_blk V c t q _) (bias_blk V c t 0 _)

/-- Every row of the output array lies in the block of the point that is its number divided by 512. -/
theorem cover (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  let t : Fin cfg0.N := ⟨(i 0).val / 512, by show (i 0).val / 512 < 512; omega⟩
  obtain ⟨-, -, -, -, -, -, -, -, -, -, -, -, e0, e1⟩ := idx t
  refine ⟨t, flush0_5 t, ?_⟩
  show i ∈ ((View.whole main_v14).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; show (i 0).val / 512 * 512 ≤ (i 0).val ∧ (i 0).val < (i 0).val / 512 * 512 + 512; omega
  | ⟨1, _⟩ =>
    show win0_5.index t (1 : Fin 2) * 128 ≤ (i 1).val ∧ (i 1).val < win0_5.index t (1 : Fin 2) * 128 + 128
    rw [e1]; omega

/-- The output array after region 0: the layer of the arrays the region was entered with. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Blocks0

end
-- ==== Proof.Body1.lean ====
import proofs.«126566_j70523363000700_1_alg».proof.Proof.LayerSpec
import proofs.«126566_j70523363000700_1_alg».proof.Proof.LibRowOps
import proofs.«126566_j70523363000700_1_alg».proof.Proof.Gen.KernelIdeal.Frame

noncomputable section

namespace Cert.KernelIdeal.Body

open Idealize.ShloMosaic Idealize.ShloMosaic.ValueIdx Cert.KernelIdeal Cert.KernelIdeal.Gen

open scoped BigOperators

/-! ## The loads

A load through the whole-block rectangle reads the block; a load of a slab of 128 rows of the weight matrix from row
`o` reads, at `(f, j)`, the matrix at `(o + f, j)`. -/

theorem zeros2 : (![0, 0] : Fin 2 → Nat) = fun _ => 0 := by
  funext a; fin_cases a <;> rfl

theorem zeros3 : (![0, 0, 0] : Fin 3 → Nat) = fun _ => 0 := by
  funext a; fin_cases a <;> rfl

/-- The weight slab starting at row `o`, read at `(f, j)`, is the weight matrix at `(o + f, j)`. -/
theorem slab_apply (x3 : Vec Ideal S1024x128 .f32) (o : Nat) (ho : o + 128 ≤ 1024)
    (inb : ∀ a, (![o, 0] : Fin 2 → Nat) a + S128x128.size a ≤ S1024x128.size a) (f j : Fin 128) :
    View.ld x3 (Rect.unit (s := S1024x128) ![o, 0] S128x128.size inb) (ix2 f j)
      = x3 (ix2 (⟨o + f.val, by have := f.isLt; omega⟩ : Fin 1024) j) :=
  congrArg x3 (funext fun a => Fin.ext (by
    match a with
    | ⟨0, _⟩ => show o + 1 * f.val = o + f.val; omega
    | ⟨1, _⟩ => show 0 + 1 * j.val = j.val; omega))

/-! ## The distance vector -/

/-- Coordinate `d` put back on the reduced axis of `(p, k)` is the index `(p, k, d)`. -/
theorem lift_coord (h : S512x8x3.Reduces [2] S512x8) (p : Fin 512) (k : Fin 8) (d : Fin (S512x8x3.size 2)) :
    h.lift (ix2 p k) d = ix3 p k (⟨d.val, d.isLt⟩ : Fin 3) := by
  funext c; apply Fin.ext
  fin_cases c <;> rfl

/-- A node's position spread over its eight neighbours reads, at `(p, k, d)`, coordinate `d` of node `p`. -/
theorem posSpread_apply (x1 : FVec Ideal S512x3 .f32) (p : Fin 512) (k : Fin 8) (d : Fin 3) :
    broadcastTo S512x8x3 (shapeCast S512x1x3 x1 shapeCasts_S512x3_S512x1x3) broadcasts_S512x1x3_S512x8x3 (ix3 p k d)
      = x1 (ix2 p d) :=
  (broadcastTo_apply _ broadcasts_S512x1x3_S512x8x3 (ix3 p k d) (ix3 p (0 : Fin 1) d) (fun a => by
    match a with
    | ⟨0, _⟩ => show p.val = if (512 : ℕ) = 1 then 0 else p.val; rw [if_neg (by decide)]
    | ⟨1, _⟩ => show (0 : Fin 1).val = if (1 : ℕ) = 1 then 0 else k.val; rw [if_pos rfl]; rfl
    | ⟨2, _⟩ => show d.val = if (3 : ℕ) = 1 then 0 else d.val; rw [if_neg (by decide)])).trans
  (shapeCast_apply x1 shapeCasts_S512x3_S512x1x3 (ix3 p (0 : Fin 1) d) (ix2 p d) (by
    rw [Shape.rowMajor_val_two, Shape.rowMajor_val_three]
    show p.val * 3 + d.val = (p.val * 1 + 0) * 3 + d.val; omega))

/-- The squared coordinate difference the body forms, at `(p, k, d)`. -/
theorem sqDiff_apply (x1 : FVec Ideal S512x3 .f32) (x2 : FVec Ideal S512x8x3 .f32) (p : Fin 512) (k : Fin 8) (d : Fin 3) :
    mulf (subf (broadcastTo S512x8x3 (shapeCast S512x1x3 x1 shapeCasts_S512x3_S512x1x3) broadcasts_S512x1x3_S512x8x3)
          (shapeCast S512x8x3 x2 shapeCasts_S512x8x3_S512x8x3))
        (subf (broadcastTo S512x8x3 (shapeCast S512x1x3 x1 shapeCasts_S512x3_S512x1x3) broadcasts_S512x1x3_S512x8x3)
          (shapeCast S512x8x3 x2 shapeCasts_S512x8x3_S512x8x3)) (ix3 p k d)
      = (x1 (ix2 p d) - x2 (ix3 p k d)) * (x1 (ix2 p d) - x2 (ix3 p k d)) := by
  have e : subf (broadcastTo S512x8x3 (shapeCast S512x1x3 x1 shapeCasts_S512x3_S512x1x3) broadcasts_S512x1x3_S512x8x3)
      (shapeCast S512x8x3 x2 shapeCasts_S512x8x3_S512x8x3) (ix3 p k d) = x1 (ix2 p d) - x2 (ix3 p k d) := by
    refine (subf_apply _ _ _).trans ?_
    rw [posSpread_apply, shapeCast_self]
  exact (mulf_apply _ _ _).trans (by rw [e])

/-- The body's distance vector at `(p, k)` is the layer's distance from node `p` to its `k`-th neighbour. -/
theorem dist_apply (x1 : FVec Ideal S512x3 .f32) (x2 : FVec Ideal S512x8x3 .f32) (p : Fin 512) (k : Fin 8) :
    k1_pay2 (F := Ideal) x1 x2 (ix2 p k) = Cert.Layer.dist x1 x2 p k := by
  have hsum : multiReduction (F := Ideal) .add [2] S512x8
      (mulf (subf (broadcastTo S512x8x3 (shapeCast S512x1x3 x1 shapeCasts_S512x3_S512x1x3) broadcasts_S512x1x3_S512x8x3)
          (shapeCast S512x8x3 x2 shapeCasts_S512x8x3_S512x8x3))
        (subf (broadcastTo S512x8x3 (shapeCast S512x1x3 x1 shapeCasts_S512x3_S512x1x3) broadcasts_S512x1x3_S512x8x3)
          (shapeCast S512x8x3 x2 shapeCasts_S512x8x3_S512x8x3)))
      0x00000000#32 reduces_S512x8x3_S512x8 (.inl rfl) rfl (ix2 p k) = Cert.Layer.sq x1 x2 p k := by
    refine (Ideal.multiReduction_add_single _ 0x00000000#32 reduces_S512x8x3_S512x8 (.inl rfl) rfl (ix2 p k)).trans ?_
    refine (Finset.sum_congr rfl fun d _ =>
      (congrArg _ (lift_coord reduces_S512x8x3_S512x8 p k d)).trans (sqDiff_apply x1 x2 p k ⟨d.val, d.isLt⟩)).trans ?_
    rfl
  unfold k1_pay2
  exact congrArg (fun s => Cert.Layer.fix (Ideal.sqrt s)) hsum

/-! ## One partial product

The matrix product of a `[512, 128]` operand with a `[128, 128]` operand, added to a zero accumulator, is, at
`(p, j)`, the sum over the 128 contracted columns. Its left operand is neighbour `o`'s messages over the distance to
that neighbour. -/

theorem lhs_axis0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_axis1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_axis0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_axis1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into the zero accumulator at `(p, j)`: the sum over the contracted column `f`. -/
theorem matmul_zero_apply (a : FVec Ideal S512x128 .bf16) (b : FVec Ideal S128x128 .bf16) (p : Fin 512) (j : Fin 128) :
    matmul dot_S512x128_S128x128_S512x128_1_0_0_1_n_n none a b (constant (F := Ideal) S512x128 .f32 0x00000000#32) (ix2 p j)
      = ∑ f : Fin 128, a (ix2 p f) * b (ix2 f j) := by
  simp only [matmul]
  rw [Ideal.matmul_constant_zero_apply, ← Equiv.sum_comp (contrEquiv1 dot_S512x128_S128x128_S512x128_1_0_0_1_n_n 128 rfl rfl).symm]
  refine Finset.sum_congr rfl fun f _ => ?_
  have hf := contrEquiv1_symm_val dot_S512x128_S128x128_S512x128_1_0_0_1_n_n 128 rfl rfl f
  have el : dot_S512x128_S128x128_S512x128_1_0_0_1_n_n.lhsIdx (ix2 p j) ((contrEquiv1 dot_S512x128_S128x128_S512x128_1_0_0_1_n_n 128 rfl rfl).symm f) = ix2 p f := funext fun c => Fin.ext (by
    match c with
    | ⟨0, _⟩ => exact lhs_axis0 _ _
    | ⟨1, _⟩ => exact (lhs_axis1 _ _).trans hf)
  have er : dot_S512x128_S128x128_S512x128_1_0_0_1_n_n.rhsIdx (ix2 p j) ((contrEquiv1 dot_S512x128_S128x128_S512x128_1_0_0_1_n_n 128 rfl rfl).symm f) = ix2 f j := funext fun c => Fin.ext (by
    match c with
    | ⟨0, _⟩ => exact (rhs_axis0 _ _).trans hf
    | ⟨1, _⟩ => exact rhs_axis1 _ _)
  rw [el, er]

/-- Neighbour `o`'s messages over the distance to it, at `(p, f)`. -/
theorem quot_apply (v12 : FVec Ideal S512x8 .f32) (v14 : FVec Ideal S512x8x128 .f32) (o : Nat) (ho : o < 8)
    (hs : S512x8x128.Slices ![0, o, 0] S512x1x128) (hs' : S512x8.Slices ![0, o] S512x1) (p : Fin 512) (f : Fin 128) :
    divf (shapeCast S512x128 (extractStridedSlice S512x1x128 ![0, o, 0] v14 hs) shapeCasts_S512x1x128_S512x128)
        (broadcastTo S512x128 (extractStridedSlice S512x1 ![0, o] v12 hs') broadcasts_S512x1_S512x128) (ix2 p f)
      = Ideal.div (v14 (ix3 p (⟨o, ho⟩ : Fin 8) f)) (v12 (ix2 p (⟨o, ho⟩ : Fin 8))) := by
  have e1 : shapeCast S512x128 (extractStridedSlice S512x1x128 ![0, o, 0] v14 hs) shapeCasts_S512x1x128_S512x128 (ix2 p f)
      = v14 (ix3 p (⟨o, ho⟩ : Fin 8) f) :=
    (shapeCast_apply _ shapeCasts_S512x1x128_S512x128 (ix2 p f) (ix3 p (0 : Fin 1) f) (by
      rw [Shape.rowMajor_val_two, Shape.rowMajor_val_three]
      show (p.val * 1 + 0) * 128 + f.val = p.val * 128 + f.val; omega)).trans
    (extractStridedSlice_apply _ v14 hs (ix3 p (0 : Fin 1) f) (ix3 p (⟨o, ho⟩ : Fin 8) f) (fun c => by
      match c with
      | ⟨0, _⟩ => show p.val = 0 + p.val; omega
      | ⟨1, _⟩ => show o = o + 0; omega
      | ⟨2, _⟩ => show f.val = 0 + f.val; omega))
  have e2 : broadcastTo S512x128 (extractStridedSlice S512x1 ![0, o] v12 hs') broadcasts_S512x1_S512x128 (ix2 p f)
      = v12 (ix2 p (⟨o, ho⟩ : Fin 8)) :=
    (Cert.RowOps.spreadCol_apply _ broadcasts_S512x1_S512x128 p f).trans
    (extractStridedSlice_apply _ v12 hs' (ix2 p (0 : Fin 1)) (ix2 p (⟨o, ho⟩ : Fin 8)) (fun c => by
      match c with
      | ⟨0, _⟩ => show p.val = 0 + p.val; omega
      | ⟨1, _⟩ => show o = o + 0; omega))
  exact (divf_apply _ _ _).trans (by rw [e1, e2])

/-- Neighbour `o`'s partial product at `(p, j)` as a sum over its 128 features. -/
def pp (v12 : FVec Ideal S512x8 .f32) (v14 : FVec Ideal S512x8x128 .f32) (w : FVec Ideal S128x128 .f32) (o : Nat) (ho : o < 8)
    (p : Fin 512) (j : Fin 128) : EReal :=
  ∑ f : Fin 128, Ideal.div (v14 (ix3 p (⟨o, ho⟩ : Fin 8) f)) (v12 (ix2 p (⟨o, ho⟩ : Fin 8))) * w (ix2 f j)

/-- The body's `o`-th product (slice, quotient, narrowing, product into zero) at `(p, j)`. -/
theorem product_apply (v12 : FVec Ideal S512x8 .f32) (v14 : FVec Ideal S512x8x128 .f32) (w : FVec Ideal S128x128 .f32)
    (o : Nat) (ho : o < 8) (hs : S512x8x128.Slices ![0, o, 0] S512x1x128) (hs' : S512x8.Slices ![0, o] S512x1)
    (p : Fin 512) (j : Fin 128) :
    matmul dot_S512x128_S128x128_S512x128_1_0_0_1_n_n none
        (truncf .bf16 (divf (shapeCast S512x128 (extractStridedSlice S512x1x128 ![0, o, 0] v14 hs) shapeCasts_S512x1x128_S512x128)
          (broadcastTo S512x128 (extractStridedSlice S512x1 ![0, o] v12 hs') broadcasts_S512x1_S512x128)) bitsLt_bf16_f32)
        (truncf .bf16 w bitsLt_bf16_f32) (constant (F := Ideal) S512x128 .f32 0x00000000#32) (ix2 p j)
      = pp v12 v14 w o ho p j := by
  refine (matmul_zero_apply _ _ p j).trans ?_
  unfold pp
  refine Finset.sum_congr rfl fun f _ => ?_
  exact congrArg (· * w (ix2 f j)) (quot_apply v12 v14 o ho hs hs' p f)

/-! ## The payloads at an index

The body adds the eight partial products to a zero accumulator from left to right, then the bias row, then applies
the rectifier; each stage at `(p, j)` in terms of the partial products `pp`. -/

/-- The message block passes through unchanged. -/
theorem msgs_eq (x0 : FVec Ideal S512x8x128 .f32) : k1_pay3 (F := Ideal) x0 = x0 := by
  unfold k1_pay3
  exact shapeCast_self x0 _

/-- Neighbour 2's quotient, kept as a vector between the two halves of the body. -/
theorem pay5_apply (x1 : FVec Ideal S512x3 .f32) (x2 : FVec Ideal S512x8x3 .f32) (x0 : FVec Ideal S512x8x128 .f32)
    (p : Fin 512) (f : Fin 128) :
    k1_pay5 (F := Ideal) x1 x2 x0 (ix2 p f)
      = Ideal.div (k1_pay3 (F := Ideal) x0 (ix3 p (⟨2, by norm_num⟩ : Fin 8) f))
          (k1_pay2 (F := Ideal) x1 x2 (ix2 p (⟨2, by norm_num⟩ : Fin 8))) := by
  unfold k1_pay5
  exact quot_apply (k1_pay2 x1 x2) (k1_pay3 x0) 2 (by norm_num) slices_S512x8x128_o0_2_0_S512x1x128 slices_S512x8_o0_2_S512x1 p f

/-- Its product with the third weight slab is neighbour 2's partial product. -/
theorem pay5_sum (x1 : FVec Ideal S512x3 .f32) (x2 : FVec Ideal S512x8x3 .f32) (x0 : FVec Ideal S512x8x128 .f32)
    (w : FVec Ideal S128x128 .f32) (p : Fin 512) (j : Fin 128) :
    ∑ f : Fin 128, k1_pay5 (F := Ideal) x1 x2 x0 (ix2 p f) * w (ix2 f j)
      = pp (k1_pay2 x1 x2) (k1_pay3 x0) w 2 (by norm_num) p j := by
  unfold pp
  exact Finset.sum_congr rfl fun f _ => congrArg (· * w (ix2 f j)) (pay5_apply x1 x2 x0 p f)

/-- The accumulator after neighbours 0 and 1. -/
theorem pay4_apply (x1 : FVec Ideal S512x3 .f32) (x2 : FVec Ideal S512x8x3 .f32) (x0 : FVec Ideal S512x8x128 .f32)
    (w0 w1 : FVec Ideal S128x128 .f32) (p : Fin 512) (j : Fin 128) :
    k1_pay4 (F := Ideal) x1 x2 x0 w0 w1 (ix2 p j)
      = (Ideal.ofBits .f32 0x00000000#32 + pp (k1_pay2 x1 x2) (k1_pay3 x0) w0 0 (by norm_num) p j)
          + pp (k1_pay2 x1 x2) (k1_pay3 x0) w1 1 (by norm_num) p j := by
  rw [← product_apply (k1_pay2 x1 x2) (k1_pay3 x0) w0 0 (by norm_num) slices_S512x8x128_o0_0_0_S512x1x128 slices_S512x8_o0_0_S512x1 p j,
    ← product_apply (k1_pay2 x1 x2) (k1_pay3 x0) w1 1 (by norm_num) slices_S512x8x128_o0_1_0_S512x1x128 slices_S512x8_o0_1_S512x1 p j]
  rfl

/-- The accumulator after neighbours 2 to 6, from the accumulator `v35` after 0 and 1 and neighbour 2's quotient `v40`. -/
theorem pay6_apply (v12 : FVec Ideal S512x8 .f32) (v14 : FVec Ideal S512x8x128 .f32) (v35 v40 : FVec Ideal S512x128 .f32)
    (w2 w3 w4 w5 w6 : FVec Ideal S128x128 .f32) (p : Fin 512) (j : Fin 128) :
    k1_pay6 (F := Ideal) v12 v14 v35 v40 w2 w3 w4 w5 w6 (ix2 p j)
      = ((((v35 (ix2 p j) + ∑ f : Fin 128, v40 (ix2 p f) * w2 (ix2 f j)) + pp v12 v14 w3 3 (by norm_num) p j)
          + pp v12 v14 w4 4 (by norm_num) p j) + pp v12 v14 w5 5 (by norm_num) p j) + pp v12 v14 w6 6 (by norm_num) p j := by
  have e2 : matmul dot_S512x128_S128x128_S512x128_1_0_0_1_n_n none (truncf .bf16 v40 bitsLt_bf16_f32)
      (truncf .bf16 w2 bitsLt_bf16_f32) (constant (F := Ideal) S512x128 .f32 0x00000000#32) (ix2 p j)
      = ∑ f : Fin 128, v40 (ix2 p f) * w2 (ix2 f j) := matmul_zero_apply _ _ p j
  rw [← e2,
    ← product_apply v12 v14 w3 3 (by norm_num) slices_S512x8x128_o0_3_0_S512x1x128 slices_S512x8_o0_3_S512x1 p j,
    ← product_apply v12 v14 w4 4 (by norm_num) slices_S512x8x128_o0_4_0_S512x1x128 slices_S512x8_o0_4_S512x1 p j,
    ← product_apply v12 v14 w5 5 (by norm_num) slices_S512x8x128_o0_5_0_S512x1x128 slices_S512x8_o0_5_S512x1 p j,
    ← product_apply v12 v14 w6 6 (by norm_num) slices_S512x8x128_o0_6_0_S512x1x128 slices_S512x8_o0_6_S512x1 p j]
  rfl

/-- The bias row spread over the 512 rows reads, at `(p, j)`, its entry `j`. -/
theorem biasSpread_apply (b : FVec Ideal S1x128 .f32) (p : Fin 512) (j : Fin 128) :
    broadcastTo S512x128 b broadcasts_S1x128_S512x128 (ix2 p j) = b (ix2 (0 : Fin 1) j) :=
  broadcastTo_apply b broadcasts_S1x128_S512x128 (ix2 p j) (ix2 (0 : Fin 1) j) (fun c => by
    match c with
    | ⟨0, _⟩ => show (0 : Fin 1).val = if (1 : ℕ) = 1 then 0 else p.val; rw [if_pos rfl]; rfl
    | ⟨1, _⟩ => show j.val = if (128 : ℕ) = 1 then 0 else j.val; rw [if_neg (by decide)])

/-- What the body stores: the rectifier of the accumulator after neighbour 7 plus the bias. -/
theorem pay1_apply (v12 : FVec Ideal S512x8 .f32) (v14 : FVec Ideal S512x8x128 .f32) (v85 : FVec Ideal S512x128 .f32)
    (w7 : FVec Ideal S128x128 .f32) (b : FVec Ideal S1x128 .f32) (p : Fin 512) (j : Fin 128) :
    k1_pay1 (F := Ideal) v12 v14 v85 w7 b (ix2 p j)
      = Cert.Layer.leaky ((v85 (ix2 p j) + pp v12 v14 w7 7 (by norm_num) p j) + b (ix2 (0 : Fin 1) j)) := by
  rw [← product_apply v12 v14 w7 7 (by norm_num) slices_S512x8x128_o0_7_0_S512x1x128 slices_S512x8_o0_7_S512x1 p j,
    ← biasSpread_apply b p j]
  rfl

/-! ## From the partial products to the layer -/

/-- Column `c = k · 128 + f` of the flattened row is feature `f` of neighbour `k`. -/
theorem wow_col (x0 : FVec Ideal S512x8x128 .f32) (x1 : FVec Ideal S512x3 .f32) (x2 : FVec Ideal S512x8x3 .f32)
    (p : Fin 512) (k : Fin 8) (f : Fin 128) (c : Fin 1024) (hc : c.val = k.val * 128 + f.val)
    (h1 : c.val / 128 < 8) (h2 : c.val % 128 < 128) :
    Cert.Layer.wow x0 x1 x2 p ⟨c.val / 128, h1⟩ ⟨c.val % 128, h2⟩ = Cert.Layer.wow x0 x1 x2 p k f := by
  have hq : c.val / 128 = k.val := by have := f.isLt; omega
  have hr : c.val % 128 = f.val := by have := f.isLt; omega
  have ek : (⟨c.val / 128, h1⟩ : Fin 8) = k := Fin.ext hq
  have ef : (⟨c.val % 128, h2⟩ : Fin 128) = f := Fin.ext hr
  rw [ek, ef]

/-- Neighbour `o`'s partial product, its slab `w` being rows `o · 128 …` of the weight matrix, is the layer's
    partial sum over that neighbour's 128 columns. -/
theorem pp_eq_part (x0 : FVec Ideal S512x8x128 .f32) (x1 : FVec Ideal S512x3 .f32) (x2 : FVec Ideal S512x8x3 .f32)
    (x3 : FVec Ideal S1024x128 .f32) (w : FVec Ideal S128x128 .f32) (o : Nat) (ho : o < 8)
    (hw : ∀ (f j : Fin 128), w (ix2 f j) = x3 (ix2 (⟨o * 128 + f.val, by have := f.isLt; omega⟩ : Fin 1024) j))
    (p : Fin 512) (j : Fin 128) :
    pp (k1_pay2 x1 x2) (k1_pay3 x0) w o ho p j
      = Cert.Layer.part (F := 128) (KF := 1024) (by norm_num)
          (Cert.Layer.term (R := 512) (F := 128) (KF := 1024) (H := 128) (by norm_num) x0 x1 x2 x3 p j) (⟨o, ho⟩ : Fin 8) := by
  unfold pp Cert.Layer.part
  refine Finset.sum_congr rfl fun f _ => ?_
  unfold Cert.Layer.term
  rw [hw f j, msgs_eq, dist_apply]
  refine congrArg (· * x3 (ix2 (⟨o * 128 + f.val, by have := f.isLt; omega⟩ : Fin 1024) j)) ?_
  exact (wow_col x0 x1 x2 p (⟨o, ho⟩ : Fin 8) f (⟨o * 128 + f.val, by have := f.isLt; omega⟩ : Fin 1024) rfl _ _).symm

/-- The whole body at `(p, j)`, the eight weight slabs being the eight row blocks of the weight matrix. -/
theorem body_apply (x0 : FVec Ideal S512x8x128 .f32) (x1 : FVec Ideal S512x3 .f32) (x2 : FVec Ideal S512x8x3 .f32)
    (x3 : FVec Ideal S1024x128 .f32) (x4 : FVec Ideal S1x128 .f32) (w0 w1 w2 w3 w4 w5 w6 w7 : FVec Ideal S128x128 .f32)
    (h0 : ∀ (f j : Fin 128), w0 (ix2 f j) = x3 (ix2 (⟨0 * 128 + f.val, by have := f.isLt; omega⟩ : Fin 1024) j))
    (h1 : ∀ (f j : Fin 128), w1 (ix2 f j) = x3 (ix2 (⟨1 * 128 + f.val, by have := f.isLt; omega⟩ : Fin 1024) j))
    (h2 : ∀ (f j : Fin 128), w2 (ix2 f j) = x3 (ix2 (⟨2 * 128 + f.val, by have := f.isLt; omega⟩ : Fin 1024) j))
    (h3 : ∀ (f j : Fin 128), w3 (ix2 f j) = x3 (ix2 (⟨3 * 128 + f.val, by have := f.isLt; omega⟩ : Fin 1024) j))
    (h4 : ∀ (f j : Fin 128), w4 (ix2 f j) = x3 (ix2 (⟨4 * 128 + f.val, by have := f.isLt; omega⟩ : Fin 1024) j))
    (h5 : ∀ (f j : Fin 128), w5 (ix2 f j) = x3 (ix2 (⟨5 * 128 + f.val, by have := f.isLt; omega⟩ : Fin 1024) j))
    (h6 : ∀ (f j : Fin 128), w6 (ix2 f j) = x3 (ix2 (⟨6 * 128 + f.val, by have := f.isLt; omega⟩ : Fin 1024) j))
    (h7 : ∀ (f j : Fin 128), w7 (ix2 f j) = x3 (ix2 (⟨7 * 128 + f.val, by have := f.isLt; omega⟩ : Fin 1024) j))
    (p : Fin 512) (j : Fin 128) :
    k1_pay1 (F := Ideal) (k1_pay2 x1 x2) (k1_pay3 x0)
        (k1_pay6 (k1_pay2 x1 x2) (k1_pay3 x0) (k1_pay4 x1 x2 x0 w0 w1) (k1_pay5 x1 x2 x0) w2 w3 w4 w5 w6) w7 x4 (ix2 p j)
      = Cert.Layer.leaky (Cert.Layer.lin (R := 512) (F := 128) (KF := 1024) (H := 128) (by norm_num) x0 x1 x2 x3 x4 p j) := by
  refine (pay1_apply _ _ _ _ _ p j).trans (congrArg Cert.Layer.leaky ?_)
  unfold Cert.Layer.lin
  refine congrArg (· + x4 (ix2 (0 : Fin 1) j)) ?_
  rw [pay6_apply, pay4_apply, pay5_sum, Ideal.ofBits_zero_f32,
    pp_eq_part x0 x1 x2 x3 w0 0 (by norm_num) h0, pp_eq_part x0 x1 x2 x3 w1 1 (by norm_num) h1,
    pp_eq_part x0 x1 x2 x3 w2 2 (by norm_num) h2, pp_eq_part x0 x1 x2 x3 w3 3 (by norm_num) h3,
    pp_eq_part x0 x1 x2 x3 w4 4 (by norm_num) h4, pp_eq_part x0 x1 x2 x3 w5 5 (by norm_num) h5,
    pp_eq_part x0 x1 x2 x3 w6 6 (by norm_num) h6, pp_eq_part x0 x1 x2 x3 w7 7 (by norm_num) h7]
  exact Cert.Layer.acc8_part (by norm_num) (Cert.Layer.term (by norm_num) x0 x1 x2 x3 p j)

/-- The output block the body leaves is the layer with its rectifier, over the block's inputs. -/
theorem out1 (x0 : Vec Ideal S512x8x128 .f32) (x1 : Vec Ideal S512x3 .f32) (x2 : Vec Ideal S512x8x3 .f32)
    (x3 : Vec Ideal S1024x128 .f32) (x4 : Vec Ideal S1x128 .f32) :
    out1_5 (F := Ideal) x0 x1 x2 x3 x4 = Cert.Layer.val true (R := 512) (F := 128) (KF := 1024) (H := 128) (by norm_num) x0 x1 x2 x3 x4 := by
  unfold out1_5
  rw [View.canon_unit_zero zeros2]
  rw [View.ld_unit_zero (S := S512x3) zeros2, View.ld_unit_zero (S := S512x8x3) zeros3,
    View.ld_unit_zero (S := S512x8x128) zeros3, View.ld_unit_zero (S := S1x128) zeros2]
  funext i
  obtain ⟨p, j, rfl⟩ : ∃ (p : Fin 512) (j : Fin 128), i = ix2 p j := ⟨i 0, i 1, eq_ix2 i⟩
  exact body_apply x0 x1 x2 x3 x4 _ _ _ _ _ _ _ _
    (fun f j => slab_apply x3 0 (by norm_num) inb_S1024x128_S128x128_0_0 f j)
    (fun f j => slab_apply x3 128 (by norm_num) inb_S1024x128_S128x128_128_0 f j)
    (fun f j => slab_apply x3 256 (by norm_num) inb_S1024x128_S128x128_256_0 f j)
    (fun f j => slab_apply x3 384 (by norm_num) inb_S1024x128_S128x128_384_0 f j)
    (fun f j => slab_apply x3 512 (by norm_num) inb_S1024x128_S128x128_512_0 f j)
    (fun f j => slab_apply x3 640 (by norm_num) inb_S1024x128_S128x128_640_0 f j)
    (fun f j => slab_apply x3 768 (by norm_num) inb_S1024x128_S128x128_768_0 f j)
    (fun f j => slab_apply x3 896 (by norm_num) inb_S1024x128_S128x128_896_0 f j) p j

end Cert.KernelIdeal.Body

end
-- ==== Proof.Blocks1.lean ====
/-
  Region 1 of the kernel's program, from blocks to arrays. The grid has 512 points; point `t` stages rows
  `512 · t … 512 · t + 511` of the neighbour messages, of the positions and of the neighbours' positions, the whole weight
  matrix and the whole bias row, and writes back rows `512 · t … 512 · t + 511` of the output. The body's output block is
  the layer of the staged blocks; a row of the layer depends only on that row of its row-blocked operands, so what point
  `t` writes back is block `t` of the layer of the whole arrays; the 512 blocks tile the output array, which therefore
  ends holding the layer of the arrays as the region finds them.
-/
import proofs.«126566_j70523363000700_1_alg».proof.Proof.Gen.KernelIdeal.Frame
import proofs.«126566_j70523363000700_1_alg».proof.Proof.LayerRows
import proofs.«126566_j70523363000700_1_alg».proof.Proof.Body1

set_option maxRecDepth 16384

noncomputable section

namespace Cert.KernelIdeal.Blocks1

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Row `p` of block `t` of a 512-row tiling is row `512 · t + p` of the array. -/
abbrev row (t : Fin 512) (p : Fin 512) : Fin 262144 := ⟨t.val * 512 + p.val, by have := t.isLt; have := p.isLt; omega⟩

/-- The layer of the arrays as region 1 finds them. -/
abbrev G (c : Dev nD) : S262144x128.Idx → EReal :=
  Cert.Layer.val true (R := 262144) (F := 128) (KF := 1024) (H := 128) (by norm_num) (V c main_v21) (V c main_arg1) (V c main_v6) (V c main_arg5) (V c main_arg6)

/-- The index maps, decided over the grid: the row-blocked windows sit at block `t`, the weights and the bias at block 0. -/
theorem idx : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The message block at point `t` is rows `512 · t …` of the message array. -/
theorem msgs_blk (c : Dev nD) (t : Fin cfg1.N) (p : Fin 512) (k : Fin 8) (f : Fin 128) :
    iblk1 V c 0 t (ix3 p k f) = V c main_v21 (ix3 (row ⟨t.val, t.isLt⟩ p) k f) := by
  obtain ⟨e0, e1, e2, -⟩ := idx t
  show V c main_v21 (((cfg1.win 0).blk t).view.emb (ix3 p k f)) = _
  refine congrArg (V c main_v21) (funext fun a => Fin.ext ?_)
  match a with
  | ⟨0, _⟩ => show win1_0.index t (0 : Fin 3) * 512 + 1 * p.val = t.val * 512 + p.val; rw [e0]; omega
  | ⟨1, _⟩ => show win1_0.index t (1 : Fin 3) * 8 + 1 * k.val = k.val; rw [e1]; omega
  | ⟨2, _⟩ => show win1_0.index t (2 : Fin 3) * 128 + 1 * f.val = f.val; rw [e2]; omega

/-- The position block at point `t`. -/
theorem pos_blk (c : Dev nD) (t : Fin cfg1.N) (p : Fin 512) (d : Fin 3) :
    iblk1 V c 1 t (ix2 p d) = V c main_arg1 (ix2 (row ⟨t.val, t.isLt⟩ p) d) := by
  obtain ⟨-, -, -, e0, e1, -⟩ := idx t
  show V c main_arg1 (((cfg1.win 1).blk t).view.emb (ix2 p d)) = _
  refine congrArg (V c main_arg1) (funext fun a => Fin.ext ?_)
  match a with
  | ⟨0, _⟩ => show win1_1.index t (0 : Fin 2) * 512 + 1 * p.val = t.val * 512 + p.val; rw [e0]; omega
  | ⟨1, _⟩ => show win1_1.index t (1 : Fin 2) * 3 + 1 * d.val = d.val; rw [e1]; omega

/-- The neighbour-position block at point `t`. -/
theorem spos_blk (c : Dev nD) (t : Fin cfg1.N) (p : Fin 512) (k : Fin 8) (d : Fin 3) :
    iblk1 V c 2 t (ix3 p k d) = V c main_v6 (ix3 (row ⟨t.val, t.isLt⟩ p) k d) := by
  obtain ⟨-, -, -, -, -, e0, e1, e2, -⟩ := idx t
  show V c main_v6 (((cfg1.win 2).blk t).view.emb (ix3 p k d)) = _
  refine congrArg (V c main_v6) (funext fun a => Fin.ext ?_)
  match a with
  | ⟨0, _⟩ => show win1_2.index t (0 : Fin 3) * 512 + 1 * p.val = t.val * 512 + p.val; rw [e0]; omega
  | ⟨1, _⟩ => show win1_2.index t (1 : Fin 3) * 8 + 1 * k.val = k.val; rw [e1]; omega
  | ⟨2, _⟩ => show win1_2.index t (2 : Fin 3) * 3 + 1 * d.val = d.val; rw [e2]; omega

/-- The weight window is the whole matrix at every point. -/
theorem wts_blk (c : Dev nD) (t : Fin cfg1.N) (q : Fin 1024) (j : Fin 128) :
    iblk1 V c 3 t (ix2 q j) = V c main_arg5 (ix2 q j) := by
  obtain ⟨-, -, -, -, -, -, -, -, e0, e1, -⟩ := idx t
  show V c main_arg5 (((cfg1.win 3).blk t).view.emb (ix2 q j)) = _
  refine congrArg (V c main_arg5) (funext fun a => Fin.ext ?_)
  match a with
  | ⟨0, _⟩ => show win1_3.index t (0 : Fin 2) * 1024 + 1 * q.val = q.val; rw [e0]; omega
  | ⟨1, _⟩ => show win1_3.index t (1 : Fin 2) * 128 + 1 * j.val = j.val; rw [e1]; omega

/-- The bias window is the whole row at every point. -/
theorem bias_blk (c : Dev nD) (t : Fin cfg1.N) (z : Fin 1) (j : Fin 128) :
    iblk1 V c 4 t (ix2 z j) = V c main_arg6 (ix2 z j) := by
  obtain ⟨-, -, -, -, -, -, -, -, -, -, e0, e1, -⟩ := idx t
  show V c main_arg6 (((cfg1.win 4).blk t).view.emb (ix2 z j)) = _
  refine congrArg (V c main_arg6) (funext fun a => Fin.ext ?_)
  match a with
  | ⟨0, _⟩ => show win1_4.index t (0 : Fin 2) * 1 + 1 * z.val = z.val; rw [e0]; omega
  | ⟨1, _⟩ => show win1_4.index t (1 : Fin 2) * 128 + 1 * j.val = j.val; rw [e1]; omega

/-- What point `t` writes back is block `t` of the layer of the arrays. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5, Cert.KernelIdeal.Body.out1]
  obtain ⟨-, -, -, -, -, -, -, -, -, -, -, -, e0, e1⟩ := idx t
  funext y
  have ey : (((cfg1.win 5).blk t).view.emb y : S262144x128.Idx)
      = ix2 (row ⟨t.val, t.isLt⟩ (⟨(y 0).val, (y 0).isLt⟩ : Fin 512)) (⟨(y 1).val, (y 1).isLt⟩ : Fin 128) := by
    funext a; apply Fin.ext
    match a with
    | ⟨0, _⟩ => show win1_5.index t (0 : Fin 2) * 512 + 1 * (y 0).val = t.val * 512 + (y 0).val; rw [e0]; omega
    | ⟨1, _⟩ => show win1_5.index t (1 : Fin 2) * 128 + 1 * (y 1).val = (y 1).val; rw [e1]; omega
  show Cert.Layer.val true (R := 512) (F := 128) (KF := 1024) (H := 128) _ (iblk1 V c 0 t) (iblk1 V c 1 t) (iblk1 V c 2 t) (iblk1 V c 3 t) (iblk1 V c 4 t) y
    = G V c (((cfg1.win 5).blk t).view.emb y)
  rw [ey]
  refine (congrArg (Cert.Layer.val true (R := 512) (F := 128) (KF := 1024) (H := 128) _ (iblk1 V c 0 t) (iblk1 V c 1 t) (iblk1 V c 2 t) (iblk1 V c 3 t) (iblk1 V c 4 t))
    (eq_ix2 (n0 := 512) (n1 := 128) y)).trans ?_
  exact Cert.Layer.val_congr true _ _ _ _ _ _ _ _ _ _ _ _ _ _
    (fun k f => msgs_blk V c t _ k f) (fun d => pos_blk V c t _ d) (fun k d => spos_blk V c t _ k d)
    (fun q => wts_blk V c t q _) (bias_blk V c t 0 _)

/-- Every row of the output array lies in the block of the point that is its number divided by 512. -/
theorem cover (i : S262144x128.Idx) :
    ∃ t : Fin cfg1.N, (cfg1.win 5).flush t = true ∧ i ∈ ((cfg1.win 5).blk t).view.set := by
  have hi0 : (i 0).val < 262144 := (i 0).isLt
  have hi1 : (i 1).val < 128 := (i 1).isLt
  let t : Fin cfg1.N := ⟨(i 0).val / 512, by show (i 0).val / 512 < 512; omega⟩
  obtain ⟨-, -, -, -, -, -, -, -, -, -, -, -, e0, e1⟩ := idx t
  refine ⟨t, flush1_5 t, ?_⟩
  show i ∈ ((View.whole main_v22).slice (win1_5.rect t)).set
  rw [View.set_slice_whole, Rect.mem_set_unit]
  intro a
  match a with
  | ⟨0, _⟩ =>
    show win1_5.index t (0 : Fin 2) * 512 ≤ (i 0).val ∧ (i 0).val < win1_5.index t (0 : Fin 2) * 512 + 512
    rw [e0]; show (i 0).val / 512 * 512 ≤ (i 0).val ∧ (i 0).val < (i 0).val / 512 * 512 + 512; omega
  | ⟨1, _⟩ =>
    show win1_5.index t (1 : Fin 2) * 128 ≤ (i 1).val ∧ (i 1).val < win1_5.index t (1 : Fin 2) * 128 + 128
    rw [e1]; omega

/-- The output array after region 1: the layer of the arrays the region was entered with. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Blocks1

end
-- ==== Proof.Body2.lean ====
/-
  Region 2's stored block is the layer on the extended reals.

  The body loads the node positions, the neighbours' positions, the message block, eight slabs of 128 rows of the weight
  matrix and the bias row, and stores one block. At an output index `(p, j)` the stored value is read operation by operation:
  the distance vector at `(p, k)` is the specification's distance; neighbour `k`'s 128 features over that distance,
  contracted with the slab from row `k · 128`, are the specification's partial sum over the columns `k · 128 + f`; the eight
  partial products are added from zero in order, and the bias entry `j` is added last. Regrouping the eight partial sums into
  the one sum over all 1024 columns is the specification's own lemma.
-/
import proofs.«126566_j70523363000700_1_alg».proof.Proof.LayerSpec
import proofs.«126566_j70523363000700_1_alg».proof.Proof.LibRowOps
import proofs.«126566_j70523363000700_1_alg».proof.Proof.Gen.KernelIdeal.Frame

noncomputable section

namespace Cert.KernelIdeal.Body

open Idealize.ShloMosaic Idealize.ShloMosaic.ValueIdx Cert.KernelIdeal Cert.KernelIdeal.Gen
open scoped BigOperators

namespace R2

/-! ### A product of a [512,128] block with a [128,16] slab, read at an output index -/

theorem lhs_dot_0 (i : S512x16.Idx) (q : dot_S512x128_S128x16_S512x16_1_0_0_1_n_n.contr.Idx) :
    (dot_S512x128_S128x16_S512x16_1_0_0_1_n_n.lhsIdx i q 0).val = (i 0).val := by
  unfold DotDims.lhsIdx
  rw [dif_neg (show ¬(0 : Fin S512x128.rank) ∈ dot_S512x128_S128x16_S512x16_1_0_0_1_n_n.lhsBatch by decide), dif_pos (show (0 : Fin S512x128.rank) ∈ dot_S512x128_S128x16_S512x16_1_0_0_1_n_n.lhsNonContracting by decide)]
  rfl
theorem lhs_dot_1 (i : S512x16.Idx) (q : dot_S512x128_S128x16_S512x16_1_0_0_1_n_n.contr.Idx) :
    (dot_S512x128_S128x16_S512x16_1_0_0_1_n_n.lhsIdx i q 1).val = (q ⟨0, by decide⟩).val :=
  dot_S512x128_S128x16_S512x16_1_0_0_1_n_n.lhsIdx_val_of_single rfl i q
theorem rhs_dot_0 (i : S512x16.Idx) (q : dot_S512x128_S128x16_S512x16_1_0_0_1_n_n.contr.Idx) :
    (dot_S512x128_S128x16_S512x16_1_0_0_1_n_n.rhsIdx i q 0).val = (q ⟨0, by decide⟩).val :=
  dot_S512x128_S128x16_S512x16_1_0_0_1_n_n.rhsIdx_val_of_single rfl i q
theorem rhs_dot_1 (i : S512x16.Idx) (q : dot_S512x128_S128x16_S512x16_1_0_0_1_n_n.contr.Idx) :
    (dot_S512x128_S128x16_S512x16_1_0_0_1_n_n.rhsIdx i q 1).val = (i 1).val := by
  unfold DotDims.rhsIdx
  rw [dif_neg (show ¬(1 : Fin S128x16.rank) ∈ dot_S512x128_S128x16_S512x16_1_0_0_1_n_n.rhsBatch by decide), dif_pos (show (1 : Fin S128x16.rank) ∈ dot_S512x128_S128x16_S512x16_1_0_0_1_n_n.rhsNonContracting by decide)]
  rfl

/-- Into the zero block, the product at `(p, j)` is the sum over the 128 features of row `p` times column `j`. -/
theorem matmulZero_apply (a : FVec Ideal S512x128 .bf16) (w : FVec Ideal S128x16 .bf16) (p : Fin 512) (j : Fin 16) :
    matmul (F := Ideal) dot_S512x128_S128x16_S512x16_1_0_0_1_n_n none a w (constant (F := Ideal) S512x16 .f32 0x00000000#32) (ix2 p j)
      = ∑ f : Fin 128, a (ix2 p f) * w (ix2 f j) := by
  refine (Ideal.matmul_constant_zero_apply dot_S512x128_S128x16_S512x16_1_0_0_1_n_n none a w (ix2 p j)).trans ?_
  rw [← Equiv.sum_comp (contrEquiv1 dot_S512x128_S128x16_S512x16_1_0_0_1_n_n 128 rfl rfl).symm]
  refine Finset.sum_congr rfl fun k _ => ?_
  have hk := contrEquiv1_symm_val dot_S512x128_S128x16_S512x16_1_0_0_1_n_n 128 rfl rfl k
  have el : dot_S512x128_S128x16_S512x16_1_0_0_1_n_n.lhsIdx (ix2 p j) ((contrEquiv1 dot_S512x128_S128x16_S512x16_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S512x128_S128x16_S512x16_1_0_0_1_n_n.rhsIdx (ix2 p j) ((contrEquiv1 dot_S512x128_S128x16_S512x16_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ### The distance vector at `(p, k)` -/

/-- A pair `(p, k)` with the coordinate `d` put back on axis 2 is the index `(p, k, d)`. -/
theorem lift_coord (h : S512x8x3.Reduces [2] S512x8) (p : Fin 512) (k : Fin 8) (d : Fin (S512x8x3.size 2)) :
    h.lift (ix2 p k) d = ix3 p k (⟨d.val, d.isLt⟩ : Fin 3) := by
  funext c; apply Fin.ext
  fin_cases c <;> rfl

/-- The node's position spread over its eight neighbours reads, at `(p, k, d)`, coordinate `d` of node `p`. -/
theorem spreadPos_apply (v0 : Vec Ideal S512x3 .f32) (p : Fin 512) (k : Fin 8) (d : Fin 3) :
    broadcastTo S512x8x3 (shapeCast S512x1x3 v0 shapeCasts_S512x3_S512x1x3) broadcasts_S512x1x3_S512x8x3 (ix3 p k d) = v0 (ix2 p d) := by
  refine (broadcastTo_apply _ broadcasts_S512x1x3_S512x8x3 (ix3 p k d) (ix3 p (0 : Fin 1) d) (fun a => by
    match a with
    | ⟨0, _⟩ => rfl
    | ⟨1, _⟩ => rfl
    | ⟨2, _⟩ => rfl)).trans ?_
  exact shapeCast_apply v0 shapeCasts_S512x3_S512x1x3 (ix3 p (0 : Fin 1) d) (ix2 p d) (by
    rw [Shape.rowMajor_val_two, Shape.rowMajor_val_three]
    show p.val * 3 + d.val = (p.val * 1 + 0) * 3 + d.val
    omega)

/-- The sum of squared differences at `(p, k)`. -/
theorem sq_apply (v0 : Vec Ideal S512x3 .f32) (v1 : Vec Ideal S512x8x3 .f32) (p : Fin 512) (k : Fin 8) :
    multiReduction (F := Ideal) .add [2] S512x8
      (mulf (subf (broadcastTo S512x8x3 (shapeCast S512x1x3 v0 shapeCasts_S512x3_S512x1x3) broadcasts_S512x1x3_S512x8x3) (shapeCast S512x8x3 v1 shapeCasts_S512x8x3_S512x8x3))
            (subf (broadcastTo S512x8x3 (shapeCast S512x1x3 v0 shapeCasts_S512x3_S512x1x3) broadcasts_S512x1x3_S512x8x3) (shapeCast S512x8x3 v1 shapeCasts_S512x8x3_S512x8x3)))
      0x00000000#32 reduces_S512x8x3_S512x8 (.inl rfl) rfl (ix2 p k) = Cert.Layer.sq v0 v1 p k := by
  refine (Ideal.multiReduction_add_single _ 0x00000000#32 reduces_S512x8x3_S512x8 (.inl rfl) rfl (ix2 p k)).trans ?_
  unfold Cert.Layer.sq
  show ∑ d : Fin 3, _ = _
  refine Finset.sum_congr rfl fun d _ => ?_
  rw [lift_coord reduces_S512x8x3_S512x8 p k d, shapeCast_self]
  have e := spreadPos_apply v0 p k d
  exact congrArg₂ (· * ·) (congrArg (· - v1 (ix3 p k d)) e) (congrArg (· - v1 (ix3 p k d)) e)

/-- The distance payload at `(p, k)`. -/
theorem dist_apply (v0 : Vec Ideal S512x3 .f32) (v1 : Vec Ideal S512x8x3 .f32) (p : Fin 512) (k : Fin 8) :
    k2_pay2 (F := Ideal) v0 v1 (ix2 p k) = Cert.Layer.dist v0 v1 p k := by
  unfold k2_pay2 Cert.Layer.dist Cert.Layer.fix
  have e := sq_apply v0 v1 p k
  exact congrArg (fun s => Scalar.select (Ideal.cmp .oeq (Ideal.sqrt s) (Ideal.ofBits .f32 0x00000000#32)) (Ideal.ofBits .f32 0x3F000000#32) (Ideal.sqrt s)) e

/-! ### One neighbour's quotient block, one weight slab, one partial product -/

/-- Neighbour `o`'s features over the distance to it, at `(p, f)`. -/
theorem quot_apply (v12 : FVec Ideal S512x8 .f32) (v14 : FVec Ideal S512x8x128 .f32) (o : ℕ) (ho : o < 8)
    (hs : S512x8x128.Slices ![0, o, 0] S512x1x128) (hs' : S512x8.Slices ![0, o] S512x1) (p : Fin 512) (f : Fin 128) :
    divf (shapeCast S512x128 (extractStridedSlice S512x1x128 ![0, o, 0] v14 hs) shapeCasts_S512x1x128_S512x128)
         (broadcastTo S512x128 (extractStridedSlice S512x1 ![0, o] v12 hs') broadcasts_S512x1_S512x128) (ix2 p f)
      = Ideal.div (v14 (ix3 p (⟨o, ho⟩ : Fin 8) f)) (v12 (ix2 p (⟨o, ho⟩ : Fin 8))) := by
  have e1 : shapeCast S512x128 (extractStridedSlice S512x1x128 ![0, o, 0] v14 hs) shapeCasts_S512x1x128_S512x128 (ix2 p f)
      = v14 (ix3 p (⟨o, ho⟩ : Fin 8) f) := by
    refine (shapeCast_apply _ shapeCasts_S512x1x128_S512x128 (ix2 p f) (ix3 p (0 : Fin 1) f) (by
      rw [Shape.rowMajor_val_two, Shape.rowMajor_val_three]
      show (p.val * 1 + 0) * 128 + f.val = p.val * 128 + f.val
      omega)).trans ?_
    exact extractStridedSlice_apply ![0, o, 0] v14 hs (ix3 p (0 : Fin 1) f) (ix3 p (⟨o, ho⟩ : Fin 8) f) (fun a => by
      match a with
      | ⟨0, _⟩ => show p.val = 0 + p.val; omega
      | ⟨1, _⟩ => show o = o + 0; omega
      | ⟨2, _⟩ => show f.val = 0 + f.val; omega)
  have e2 : broadcastTo S512x128 (extractStridedSlice S512x1 ![0, o] v12 hs') broadcasts_S512x1_S512x128 (ix2 p f)
      = v12 (ix2 p (⟨o, ho⟩ : Fin 8)) := by
    refine (Cert.RowOps.spreadCol_apply _ broadcasts_S512x1_S512x128 p f).trans ?_
    exact extractStridedSlice_apply ![0, o] v12 hs' (ix2 p (0 : Fin 1)) (ix2 p (⟨o, ho⟩ : Fin 8)) (fun a => by
      match a with
      | ⟨0, _⟩ => show p.val = 0 + p.val; omega
      | ⟨1, _⟩ => show o = o + 0; omega)
  exact congrArg₂ Ideal.div e1 e2

/-- Neighbour `k`'s partial product at `(p, j)`, from the distance vector, the message block and a weight slab. -/
def pp (d : FVec Ideal S512x8 .f32) (m : FVec Ideal S512x8x128 .f32) (w : Vec Ideal S128x16 .f32) (p : Fin 512) (j : Fin 16)
    (k : Fin 8) : EReal :=
  ∑ f : Fin 128, Ideal.div (m (ix3 p k f)) (d (ix2 p k)) * w (ix2 f j)

/-- Neighbour `o`'s partial product at `(p, j)`. -/
theorem part_apply (v12 : FVec Ideal S512x8 .f32) (v14 : FVec Ideal S512x8x128 .f32) (w : Vec Ideal S128x16 .f32) (o : ℕ) (ho : o < 8)
    (hs : S512x8x128.Slices ![0, o, 0] S512x1x128) (hs' : S512x8.Slices ![0, o] S512x1) (p : Fin 512) (j : Fin 16) :
    matmul (F := Ideal) dot_S512x128_S128x16_S512x16_1_0_0_1_n_n none
      (truncf .bf16 (divf (shapeCast S512x128 (extractStridedSlice S512x1x128 ![0, o, 0] v14 hs) shapeCasts_S512x1x128_S512x128)
         (broadcastTo S512x128 (extractStridedSlice S512x1 ![0, o] v12 hs') broadcasts_S512x1_S512x128)) bitsLt_bf16_f32)
      (truncf .bf16 w bitsLt_bf16_f32) (constant (F := Ideal) S512x16 .f32 0x00000000#32) (ix2 p j)
      = pp v12 v14 w p j (⟨o, ho⟩ : Fin 8) := by
  refine (matmulZero_apply _ _ p j).trans ?_
  refine Finset.sum_congr rfl fun f _ => ?_
  exact congrArg (· * w (ix2 f j)) (quot_apply v12 v14 o ho hs hs' p f)

/-- The weight slab of 128 rows from row `off`, read at `(f, j)`. -/
theorem slab_apply (x3 : Vec Ideal S1024x16 .f32) (off : ℕ) (hoff : off + 128 ≤ 1024)
    (inb : ∀ a, (![off, 0] : Fin 2 → ℕ) a + S128x16.size a ≤ S1024x16.size a) (f : Fin 128) (j : Fin 16) :
    View.ld x3 (Rect.unit (s := S1024x16) ![off, 0] S128x16.size inb) (ix2 f j)
      = x3 (ix2 (⟨off + f.val, by have := f.isLt; omega⟩ : Fin 1024) j) := by
  show x3 _ = x3 _
  refine congrArg x3 (funext fun a => Fin.ext ?_)
  match a with
  | ⟨0, _⟩ => show off + 1 * f.val = off + f.val; omega
  | ⟨1, _⟩ => show 0 + 1 * j.val = j.val; omega

/-- The bias row spread over the 512 nodes reads, at `(p, j)`, its entry `j`. -/
theorem bias_apply (b : Vec Ideal S1x16 .f32) (p : Fin 512) (j : Fin 16) :
    broadcastTo S512x16 b broadcasts_S1x16_S512x16 (ix2 p j) = b (ix2 (0 : Fin 1) j) :=
  broadcastTo_apply b broadcasts_S1x16_S512x16 (ix2 p j) (ix2 (0 : Fin 1) j) (fun a => by
    match a with
    | ⟨0, _⟩ => rfl
    | ⟨1, _⟩ => rfl)

/-! ### The payloads at `(p, j)` -/

theorem pay3_eq (v13 : Vec Ideal S512x8x128 .f32) : k2_pay3 (F := Ideal) v13 = v13 :=
  shapeCast_self v13 shapeCasts_S512x8x128_S512x8x128

theorem pay5_apply (v0 : Vec Ideal S512x3 .f32) (v1 : Vec Ideal S512x8x3 .f32) (v13 : Vec Ideal S512x8x128 .f32) (p : Fin 512) (f : Fin 128) :
    k2_pay5 (F := Ideal) v0 v1 v13 (ix2 p f)
      = Ideal.div (k2_pay3 (F := Ideal) v13 (ix3 p (2 : Fin 8) f)) (k2_pay2 (F := Ideal) v0 v1 (ix2 p (2 : Fin 8))) := by
  unfold k2_pay5
  exact quot_apply (k2_pay2 (F := Ideal) v0 v1) (k2_pay3 (F := Ideal) v13) 2 (by norm_num) _ _ p f

theorem pay4_apply (v0 : Vec Ideal S512x3 .f32) (v1 : Vec Ideal S512x8x3 .f32) (v13 : Vec Ideal S512x8x128 .f32)
    (v21 v31 : Vec Ideal S128x16 .f32) (p : Fin 512) (j : Fin 16) :
    k2_pay4 (F := Ideal) v0 v1 v13 v21 v31 (ix2 p j)
      = (0 + pp (k2_pay2 (F := Ideal) v0 v1) (k2_pay3 (F := Ideal) v13) v21 p j 0) + pp (k2_pay2 (F := Ideal) v0 v1) (k2_pay3 (F := Ideal) v13) v31 p j 1 := by
  unfold k2_pay4
  exact congrArg₂ (· + ·)
    (congrArg₂ (· + ·) Ideal.ofBits_zero_f32 (part_apply (k2_pay2 (F := Ideal) v0 v1) (k2_pay3 (F := Ideal) v13) v21 0 (by norm_num) _ _ p j))
    (part_apply (k2_pay2 (F := Ideal) v0 v1) (k2_pay3 (F := Ideal) v13) v31 1 (by norm_num) _ _ p j)

theorem pay6_apply (v12 : FVec Ideal S512x8 .f32) (v14 : FVec Ideal S512x8x128 .f32) (v35 : FVec Ideal S512x16 .f32)
    (v40 : FVec Ideal S512x128 .f32) (v41 v51 v61 v71 v81 : Vec Ideal S128x16 .f32) (p : Fin 512) (j : Fin 16) :
    k2_pay6 (F := Ideal) v12 v14 v35 v40 v41 v51 v61 v71 v81 (ix2 p j)
      = ((((v35 (ix2 p j) + ∑ f : Fin 128, v40 (ix2 p f) * v41 (ix2 f j)) + pp v12 v14 v51 p j 3) + pp v12 v14 v61 p j 4)
          + pp v12 v14 v71 p j 5) + pp v12 v14 v81 p j 6 := by
  unfold k2_pay6
  exact congrArg₂ (· + ·) (congrArg₂ (· + ·) (congrArg₂ (· + ·) (congrArg₂ (· + ·)
    (congrArg (v35 (ix2 p j) + ·) (matmulZero_apply _ _ p j))
    (part_apply v12 v14 v51 3 (by norm_num) _ _ p j))
    (part_apply v12 v14 v61 4 (by norm_num) _ _ p j))
    (part_apply v12 v14 v71 5 (by norm_num) _ _ p j))
    (part_apply v12 v14 v81 6 (by norm_num) _ _ p j)

theorem pay1_apply (v12 : FVec Ideal S512x8 .f32) (v14 : FVec Ideal S512x8x128 .f32) (v85 : FVec Ideal S512x16 .f32)
    (v91 : Vec Ideal S128x16 .f32) (v96 : Vec Ideal S1x16 .f32) (p : Fin 512) (j : Fin 16) :
    k2_pay1 (F := Ideal) v12 v14 v85 v91 v96 (ix2 p j)
      = (v85 (ix2 p j) + pp v12 v14 v91 p j 7) + v96 (ix2 (0 : Fin 1) j) := by
  unfold k2_pay1
  exact congrArg₂ (· + ·) (congrArg (v85 (ix2 p j) + ·) (part_apply v12 v14 v91 7 (by norm_num) _ _ p j)) (bias_apply v96 p j)

/-! ### The partial products are the specification's, and the whole block -/

/-- Column `k · 128 + f` of the flattened row is feature `f` of neighbour `k`. -/
theorem term_col (hKF : 1024 = 8 * 128) (x0 : Vec Ideal S512x8x128 .f32) (x1 : Vec Ideal S512x3 .f32) (x2 : Vec Ideal S512x8x3 .f32)
    (x3 : Vec Ideal S1024x16 .f32) (p : Fin 512) (j : Fin 16) (k : Fin 8) (f : Fin 128) (h : k.val * 128 + f.val < 1024) :
    Cert.Layer.term (R := 512) (F := 128) (KF := 1024) (H := 16) hKF x0 x1 x2 x3 p j ⟨k.val * 128 + f.val, h⟩
      = Ideal.div (x0 (ix3 p k f)) (Cert.Layer.dist x1 x2 p k) * x3 (ix2 (⟨k.val * 128 + f.val, h⟩ : Fin 1024) j) := by
  have hk : (⟨(⟨k.val * 128 + f.val, h⟩ : Fin 1024).val / 128, Cert.Layer.div_lt_of_eq hKF _⟩ : Fin 8) = k :=
    Fin.ext (by have := f.isLt; show (k.val * 128 + f.val) / 128 = k.val; omega)
  have hf : (⟨(⟨k.val * 128 + f.val, h⟩ : Fin 1024).val % 128, Cert.Layer.mod_lt_of_eq hKF _⟩ : Fin 128) = f :=
    Fin.ext (by have := f.isLt; show (k.val * 128 + f.val) % 128 = f.val; omega)
  unfold Cert.Layer.term Cert.Layer.wow
  rw [hk, hf]

/-- Neighbour `k`'s partial product against the slab from row `k · 128` is the specification's partial sum. -/
theorem pp_slab (hKF : 1024 = 8 * 128) (x0 : Vec Ideal S512x8x128 .f32) (x1 : Vec Ideal S512x3 .f32) (x2 : Vec Ideal S512x8x3 .f32)
    (x3 : Vec Ideal S1024x16 .f32) (p : Fin 512) (j : Fin 16) (k : Fin 8) (off : ℕ) (hoff : off = k.val * 128)
    (inb : ∀ a, (![off, 0] : Fin 2 → ℕ) a + S128x16.size a ≤ S1024x16.size a) :
    pp (k2_pay2 (F := Ideal) x1 x2) (k2_pay3 (F := Ideal) x0) (View.ld x3 (Rect.unit (s := S1024x16) ![off, 0] S128x16.size inb)) p j k
      = Cert.Layer.part hKF (Cert.Layer.term (R := 512) (F := 128) (KF := 1024) (H := 16) hKF x0 x1 x2 x3 p j) k := by
  subst hoff
  unfold pp Cert.Layer.part
  refine Finset.sum_congr rfl fun f _ => ?_
  refine Eq.trans ?_ (term_col hKF x0 x1 x2 x3 p j k f _).symm
  exact congrArg₂ (· * ·)
    (congrArg₂ Ideal.div (congrFun (pay3_eq x0) (ix3 p k f)) (dist_apply x1 x2 p k))
    (slab_apply x3 (k.val * 128) (by have := k.isLt; omega) inb f j)

/-- Eight terms accumulated from zero, each a value of `S`, are `acc8 S`. -/
theorem acc8_of {a0 a1 a2 a3 a4 a5 a6 a7 : EReal} (S : Fin 8 → EReal) (h0 : a0 = S 0) (h1 : a1 = S 1) (h2 : a2 = S 2)
    (h3 : a3 = S 3) (h4 : a4 = S 4) (h5 : a5 = S 5) (h6 : a6 = S 6) (h7 : a7 = S 7) :
    (((((((0 + a0) + a1) + a2) + a3) + a4) + a5) + a6) + a7 = Cert.Layer.acc8 S := by
  subst h0 h1 h2 h3 h4 h5 h6 h7
  rfl

/-- The body's arithmetic over the loaded blocks, at `(p, j)`: the eight partial products from zero, plus the bias. -/
theorem body_apply (v0 : Vec Ideal S512x3 .f32) (v1 : Vec Ideal S512x8x3 .f32) (v13 : Vec Ideal S512x8x128 .f32)
    (w0 w1 w2 w3 w4 w5 w6 w7 : Vec Ideal S128x16 .f32) (b : Vec Ideal S1x16 .f32) (p : Fin 512) (j : Fin 16) :
    k2_pay1 (F := Ideal) (k2_pay2 (F := Ideal) v0 v1) (k2_pay3 (F := Ideal) v13)
        (k2_pay6 (F := Ideal) (k2_pay2 (F := Ideal) v0 v1) (k2_pay3 (F := Ideal) v13) (k2_pay4 (F := Ideal) v0 v1 v13 w0 w1)
          (k2_pay5 (F := Ideal) v0 v1 v13) w2 w3 w4 w5 w6) w7 b (ix2 p j)
      = ((((((((0 + pp (k2_pay2 (F := Ideal) v0 v1) (k2_pay3 (F := Ideal) v13) w0 p j 0) + pp (k2_pay2 (F := Ideal) v0 v1) (k2_pay3 (F := Ideal) v13) w1 p j 1) + pp (k2_pay2 (F := Ideal) v0 v1) (k2_pay3 (F := Ideal) v13) w2 p j 2) + pp (k2_pay2 (F := Ideal) v0 v1) (k2_pay3 (F := Ideal) v13) w3 p j 3)
          + pp (k2_pay2 (F := Ideal) v0 v1) (k2_pay3 (F := Ideal) v13) w4 p j 4) + pp (k2_pay2 (F := Ideal) v0 v1) (k2_pay3 (F := Ideal) v13) w5 p j 5) + pp (k2_pay2 (F := Ideal) v0 v1) (k2_pay3 (F := Ideal) v13) w6 p j 6) + pp (k2_pay2 (F := Ideal) v0 v1) (k2_pay3 (F := Ideal) v13) w7 p j 7)
          + b (ix2 (0 : Fin 1) j) := by
  refine (pay1_apply _ _ _ w7 b p j).trans ?_
  refine congrArg (fun t => (t + pp (k2_pay2 (F := Ideal) v0 v1) (k2_pay3 (F := Ideal) v13) w7 p j 7) + b (ix2 (0 : Fin 1) j)) ?_
  refine (pay6_apply _ _ _ _ w2 w3 w4 w5 w6 p j).trans ?_
  refine congrArg (fun t => (((t + pp (k2_pay2 (F := Ideal) v0 v1) (k2_pay3 (F := Ideal) v13) w3 p j 3) + pp (k2_pay2 (F := Ideal) v0 v1) (k2_pay3 (F := Ideal) v13) w4 p j 4) + pp (k2_pay2 (F := Ideal) v0 v1) (k2_pay3 (F := Ideal) v13) w5 p j 5)
      + pp (k2_pay2 (F := Ideal) v0 v1) (k2_pay3 (F := Ideal) v13) w6 p j 6) ?_
  exact congrArg₂ (· + ·) (pay4_apply v0 v1 v13 w0 w1 p j)
    (Finset.sum_congr rfl fun f _ => congrArg (· * w2 (ix2 f j)) (pay5_apply v0 v1 v13 p f))

end R2

open R2

theorem out2 (x0 : Vec Ideal S512x8x128 .f32) (x1 : Vec Ideal S512x3 .f32) (x2 : Vec Ideal S512x8x3 .f32)
    (x3 : Vec Ideal S1024x16 .f32) (x4 : Vec Ideal S1x16 .f32) :
    out2_5 (F := Ideal) x0 x1 x2 x3 x4 = Cert.Layer.val false (R := 512) (F := 128) (KF := 1024) (H := 16) (by norm_num) x0 x1 x2 x3 x4 := by
  have hz2 : (![0, 0] : Fin 2 → Nat) = fun _ => 0 := by funext a; fin_cases a <;> rfl
  have hz3 : (![0, 0, 0] : Fin 3 → Nat) = fun _ => 0 := by funext a; fin_cases a <;> rfl
  unfold out2_5
  rw [View.canon_unit_zero hz2]
  simp only [View.ld_unit_zero (S := S512x3) hz2, View.ld_unit_zero (S := S512x8x3) hz3,
    View.ld_unit_zero (S := S512x8x128) hz3, View.ld_unit_zero (S := S1x16) hz2]
  funext i
  obtain ⟨p, j, rfl⟩ : ∃ (p : Fin 512) (j : Fin 16), i = ix2 p j := ⟨i 0, i 1, eq_ix2 i⟩
  have hKF : 1024 = 8 * 128 := by norm_num
  refine (body_apply x1 x2 x0 _ _ _ _ _ _ _ _ x4 p j).trans ?_
  show _ = Cert.Layer.lin hKF x0 x1 x2 x3 x4 p j
  unfold Cert.Layer.lin
  refine congrArg (· + x4 (ix2 (0 : Fin 1) j)) ?_
  rw [← Cert.Layer.acc8_part hKF]
  exact acc8_of _ (pp_slab hKF x0 x1 x2 x3 p j 0 0 rfl _) (pp_slab hKF x0 x1 x2 x3 p j 1 128 rfl _)
    (pp_slab hKF x0 x1 x2 x3 p j 2 256 rfl _) (pp_slab hKF x0 x1 x2 x3 p j 3 384 rfl _)
    (pp_slab hKF x0 x1 x2 x3 p j 4 512 rfl _) (pp_slab hKF x0 x1 x2 x3 p j 5 640 rfl _)
    (pp_slab hKF x0 x1 x2 x3 p j 6 768 rfl _) (pp_slab hKF x0 x1 x2 x3 p j 7 896 rfl _)

end Cert.KernelIdeal.Body

end
-- ==== Proof.Blocks2.lean ====
/-
  Region 2 of the kernel's program, from blocks to arrays. The grid has 512 points; point `t` stages rows
  `512 · t … 512 · t + 511` of the neighbour messages, of the positions and of the neighbours' positions, the whole weight
  matrix and the whole bias row, and writes back rows `512 · t … 512 · t + 511` of the output. The body's output block is
  the layer of the staged blocks; a row of the layer depends only on that row of its row-blocked operands, so what point
  `t` writes back is block `t` of the layer of the whole arrays; the 512 blocks tile the output array, which therefore
  ends holding the layer of the arrays as the region finds them.
-/
import proofs.«126566_j70523363000700_1_alg».proof.Proof.Gen.KernelIdeal.Frame
import proofs.«126566_j70523363000700_1_alg».proof.Proof.LayerRows
import proofs.«126566_j70523363000700_1_alg».proof.Proof.Body2

set_option maxRecDepth 16384

noncomputable section

namespace Cert.KernelIdeal.Blocks2

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Row `p` of block `t` of a 512-row tiling is row `512 · t + p` of the array. -/
abbrev row (t : Fin 512) (p : Fin 512) : Fin 262144 := ⟨t.val * 512 + p.val, by have := t.isLt; have := p.isLt; omega⟩

/-- The layer of the arrays as region 2 finds them. -/
abbrev G (c : Dev nD) : S262144x16.Idx → EReal :=
  Cert.Layer.val false (R := 262144) (F := 128) (KF := 1024) (H := 16) (by norm_num) (V c main_v29) (V c main_arg1) (V c main_v6) (V c main_arg7) (V c main_arg8)

/-- The index maps, decided over the grid: the row-blocked windows sit at block `t`, the weights and the bias at block 0. -/
theorem idx : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The message block at point `t` is rows `512 · t …` of the message array. -/
theorem msgs_blk (c : Dev nD) (t : Fin cfg2.N) (p : Fin 512) (k : Fin 8) (f : Fin 128) :
    iblk2 V c 0 t (ix3 p k f) = V c main_v29 (ix3 (row ⟨t.val, t.isLt⟩ p) k f) := by
  obtain ⟨e0, e1, e2, -⟩ := idx t
  show V c main_v29 (((cfg2.win 0).blk t).view.emb (ix3 p k f)) = _
  refine congrArg (V c main_v29) (funext fun a => Fin.ext ?_)
  match a with
  | ⟨0, _⟩ => show win2_0.index t (0 : Fin 3) * 512 + 1 * p.val = t.val * 512 + p.val; rw [e0]; omega
  | ⟨1, _⟩ => show win2_0.index t (1 : Fin 3) * 8 + 1 * k.val = k.val; rw [e1]; omega
  | ⟨2, _⟩ => show win2_0.index t (2 : Fin 3) * 128 + 1 * f.val = f.val; rw [e2]; omega

/-- The position block at point `t`. -/
theorem pos_blk (c : Dev nD) (t : Fin cfg2.N) (p : Fin 512) (d : Fin 3) :
    iblk2 V c 1 t (ix2 p d) = V c main_arg1 (ix2 (row ⟨t.val, t.isLt⟩ p) d) := by
  obtain ⟨-, -, -, e0, e1, -⟩ := idx t
  show V c main_arg1 (((cfg2.win 1).blk t).view.emb (ix2 p d)) = _
  refine congrArg (V c main_arg1) (funext fun a => Fin.ext ?_)
  match a with
  | ⟨0, _⟩ => show win2_1.index t (0 : Fin 2) * 512 + 1 * p.val = t.val * 512 + p.val; rw [e0]; omega
  | ⟨1, _⟩ => show win2_1.index t (1 : Fin 2) * 3 + 1 * d.val = d.val; rw [e1]; omega

/-- The neighbour-position block at point `t`. -/
theorem spos_blk (c : Dev nD) (t : Fin cfg2.N) (p : Fin 512) (k : Fin 8) (d : Fin 3) :
    iblk2 V c 2 t (ix3 p k d) = V c main_v6 (ix3 (row ⟨t.val, t.isLt⟩ p) k d) := by
  obtain ⟨-, -, -, -, -, e0, e1, e2, -⟩ := idx t
  show V c main_v6 (((cfg2.win 2).blk t).view.emb (ix3 p k d)) = _
  refine congrArg (V c main_v6) (funext fun a => Fin.ext ?_)
  match a with
  | ⟨0, _⟩ => show win2_2.index t (0 : Fin 3) * 512 + 1 * p.val = t.val * 512 + p.val; rw [e0]; omega
  | ⟨1, _⟩ => show win2_2.index t (1 : Fin 3) * 8 + 1 * k.val = k.val; rw [e1]; omega
  | ⟨2, _⟩ => show win2_2.index t (2 : Fin 3) * 3 + 1 * d.val = d.val; rw [e2]; omega

/-- The weight window is the whole matrix at every point. -/
theorem wts_blk (c : Dev nD) (t : Fin cfg2.N) (q : Fin 1024) (j : Fin 16) :
    iblk2 V c 3 t (ix2 q j) = V c main_arg7 (ix2 q j) := by
  obtain ⟨-, -, -, -, -, -, -, -, e0, e1, -⟩ := idx t
  show V c main_arg7 (((cfg2.win 3).blk t).view.emb (ix2 q j)) = _
  refine congrArg (V c main_arg7) (funext fun a => Fin.ext ?_)
  match a with
  | ⟨0, _⟩ => show win2_3.index t (0 : Fin 2) * 1024 + 1 * q.val = q.val; rw [e0]; omega
  | ⟨1, _⟩ => show win2_3.index t (1 : Fin 2) * 16 + 1 * j.val = j.val; rw [e1]; omega

/-- The bias window is the whole row at every point. -/
theorem bias_blk (c : Dev nD) (t : Fin cfg2.N) (z : Fin 1) (j : Fin 16) :
    iblk2 V c 4 t (ix2 z j) = V c main_arg8 (ix2 z j) := by
  obtain ⟨-, -, -, -, -, -, -, -, -, -, e0, e1, -⟩ := idx t
  show V c main_arg8 (((cfg2.win 4).blk t).view.emb (ix2 z j)) = _
  refine congrArg (V c main_arg8) (funext fun a => Fin.ext ?_)
  match a with
  | ⟨0, _⟩ => show win2_4.index t (0 : Fin 2) * 1 + 1 * z.val = z.val; rw [e0]; omega
  | ⟨1, _⟩ => show win2_4.index t (1 : Fin 2) * 16 + 1 * j.val = j.val; rw [e1]; omega

/-- What point `t` writes back is block `t` of the layer of the arrays. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5, Cert.KernelIdeal.Body.out2]
  obtain ⟨-, -, -, -, -, -, -, -, -, -, -, -, e0, e1⟩ := idx t
  funext y
  have ey : (((cfg2.win 5).blk t).view.emb y : S262144x16.Idx)
      = ix2 (row ⟨t.val, t.isLt⟩ (⟨(y 0).val, (y 0).isLt⟩ : Fin 512)) (⟨(y 1).val, (y 1).isLt⟩ : Fin 16) := by
    funext a; apply Fin.ext
    match a with
    | ⟨0, _⟩ => show win2_5.index t (0 : Fin 2) * 512 + 1 * (y 0).val = t.val * 512 + (y 0).val; rw [e0]; omega
    | ⟨1, _⟩ => show win2_5.index t (1 : Fin 2) * 16 + 1 * (y 1).val = (y 1).val; rw [e1]; omega
  show Cert.Layer.val false (R := 512) (F := 128) (KF := 1024) (H := 16) _ (iblk2 V c 0 t) (iblk2 V c 1 t) (iblk2 V c 2 t) (iblk2 V c 3 t) (iblk2 V c 4 t) y
    = G V c (((cfg2.win 5).blk t).view.emb y)
  rw [ey]
  refine (congrArg (Cert.Layer.val false (R := 512) (F := 128) (KF := 1024) (H := 16) _ (iblk2 V c 0 t) (iblk2 V c 1 t) (iblk2 V c 2 t) (iblk2 V c 3 t) (iblk2 V c 4 t))
    (eq_ix2 (n0 := 512) (n1 := 16) y)).trans ?_
  exact Cert.Layer.val_congr false _ _ _ _ _ _ _ _ _ _ _ _ _ _
    (fun k f => msgs_blk V c t _ k f) (fun d => pos_blk V c t _ d) (fun k d => spos_blk V c t _ k d)
    (fun q => wts_blk V c t q _) (bias_blk V c t 0 _)

/-- Every row of the output array lies in the block of the point that is its number divided by 512. -/
theorem cover (i : S262144x16.Idx) :
    ∃ t : Fin cfg2.N, (cfg2.win 5).flush t = true ∧ i ∈ ((cfg2.win 5).blk t).view.set := by
  have hi0 : (i 0).val < 262144 := (i 0).isLt
  have hi1 : (i 1).val < 16 := (i 1).isLt
  let t : Fin cfg2.N := ⟨(i 0).val / 512, by show (i 0).val / 512 < 512; omega⟩
  obtain ⟨-, -, -, -, -, -, -, -, -, -, -, -, e0, e1⟩ := idx t
  refine ⟨t, flush2_5 t, ?_⟩
  show i ∈ ((View.whole main_v30).slice (win2_5.rect t)).set
  rw [View.set_slice_whole, Rect.mem_set_unit]
  intro a
  match a with
  | ⟨0, _⟩ =>
    show win2_5.index t (0 : Fin 2) * 512 ≤ (i 0).val ∧ (i 0).val < win2_5.index t (0 : Fin 2) * 512 + 512
    rw [e0]; show (i 0).val / 512 * 512 ≤ (i 0).val ∧ (i 0).val < (i 0).val / 512 * 512 + 512; omega
  | ⟨1, _⟩ =>
    show win2_5.index t (1 : Fin 2) * 16 ≤ (i 1).val ∧ (i 1).val < win2_5.index t (1 : Fin 2) * 16 + 16
    rw [e1]; omega

/-- The output array after region 2: the layer of the arrays the region was entered with. -/
theorem final (c : Dev nD) : (dat2 (F := Ideal) V c).arrAt 5 cfg2.N = G V c :=
  (dat2 (F := Ideal) V c).arrAt_eq_of_cover 5 (G V c) (fun t _ => flushed_eq V c t) (cover)

end Cert.KernelIdeal.Blocks2

end
-- ==== Proof.KernelValue.lean ====
/-
  The kernel's program, read from the launch to the return. Between the three regions the host gathers rows: the
  neighbour table is first normalised (a negative entry has the row count added), then each node's eight neighbour rows
  are gathered — of the positions once, of the features before every region, from the previous region's output. A region
  leaves in its output array the layer of the arrays it was entered with, so the result is three layers composed through
  the gathers, a function of the launch contents of the nine arguments.
-/
import proofs.«126566_j70523363000700_1_alg».proof.Proof.Gen.KernelIdeal.Frame
import proofs.«126566_j70523363000700_1_alg».proof.Proof.KernelTerm
import proofs.«126566_j70523363000700_1_alg».proof.Proof.Blocks0
import proofs.«126566_j70523363000700_1_alg».proof.Proof.Blocks1
import proofs.«126566_j70523363000700_1_alg».proof.Proof.Blocks2
import Idealize.ShloMosaic.Lib.StableHlo.Run

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-! ## Before region 0: the first gathers -/

theorem W1_v13 (c : Dev nD) :
    W1 m ρ c (Proc.devRef .tc main_v13) = Host.gather gather_S262144x16_S262144x8x1_S262144x8x16_2_0_n_n_0_2_116 (m ((c : Thread nD τ).loc main_arg0)) (nbr (m ((c : Thread nD τ).loc main_arg2))) := by
  show StableHlo.after hostOps0 (W0 m ρ c) (Proc.devRef .tc main_v13) = _
  after_results; rfl

theorem W1_v6 (c : Dev nD) : W1 m ρ c (Proc.devRef .tc main_v6) = spos (m ((c : Thread nD τ).loc main_arg1)) (m ((c : Thread nD τ).loc main_arg2)) := by
  show StableHlo.after hostOps0 (W0 m ρ c) (Proc.devRef .tc main_v6) = _
  after_results; rfl

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_reads (c : Dev nD) :
    W1 m ρ c (Proc.devRef .tc main_v13) = Host.gather gather_S262144x16_S262144x8x1_S262144x8x16_2_0_n_n_0_2_116 (m ((c : Thread nD τ).loc main_arg0)) (nbr (m ((c : Thread nD τ).loc main_arg2)))
    ∧ W1 m ρ c (Proc.devRef .tc main_v6) = spos (m ((c : Thread nD τ).loc main_arg1)) (m ((c : Thread nD τ).loc main_arg2))
    ∧ W1 m ρ c (Proc.devRef .tc main_arg1) = m ((c : Thread nD τ).loc main_arg1) ∧ W1 m ρ c (Proc.devRef .tc main_arg2) = m ((c : Thread nD τ).loc main_arg2)
    ∧ W1 m ρ c (Proc.devRef .tc main_arg3) = m ((c : Thread nD τ).loc main_arg3) ∧ W1 m ρ c (Proc.devRef .tc main_arg4) = m ((c : Thread nD τ).loc main_arg4)
    ∧ W1 m ρ c (Proc.devRef .tc main_arg5) = m ((c : Thread nD τ).loc main_arg5) ∧ W1 m ρ c (Proc.devRef .tc main_arg6) = m ((c : Thread nD τ).loc main_arg6)
    ∧ W1 m ρ c (Proc.devRef .tc main_arg7) = m ((c : Thread nD τ).loc main_arg7) ∧ W1 m ρ c (Proc.devRef .tc main_arg8) = m ((c : Thread nD τ).loc main_arg8) :=
  ⟨W1_v13 m ρ c, W1_v6 m ρ c, W1_arg1 m ρ c, W1_arg2 m ρ c, W1_arg3 m ρ c, W1_arg4 m ρ c, W1_arg5 m ρ c, W1_arg6 m ρ c,
    W1_arg7 m ρ c, W1_arg8 m ρ c⟩

/-! ## Region 0 -/

/-- After region 0 its output array holds the first layer. -/
theorem W2_v14 (c : Dev nD) : W2 m ρ c (Proc.devRef .tc main_v14) = h1 (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨e13, e6, e1, -, e3, e4, -⟩ := W1_reads m ρ c
  refine (W2_arr m ρ c 5).trans ((Cert.KernelIdeal.Blocks0.final (V1 m ρ) c).trans ?_)
  show Cert.Layer.val false (R := 262144) (F := 16) (KF := 128) (H := 128) _ (W1 m ρ c (Proc.devRef .tc main_v13)) (W1 m ρ c (Proc.devRef .tc main_arg1))
    (W1 m ρ c (Proc.devRef .tc main_v6)) (W1 m ρ c (Proc.devRef .tc main_arg3)) (W1 m ρ c (Proc.devRef .tc main_arg4)) = _
  rw [e13, e1, e6, e3, e4]
  rfl

/-- Region 0 writes nothing else. -/
theorem W2_keeps (c : Dev nD) :
    W2 m ρ c (Proc.devRef .tc main_v6) = spos (m ((c : Thread nD τ).loc main_arg1)) (m ((c : Thread nD τ).loc main_arg2))
    ∧ W2 m ρ c (Proc.devRef .tc main_arg1) = m ((c : Thread nD τ).loc main_arg1) ∧ W2 m ρ c (Proc.devRef .tc main_arg2) = m ((c : Thread nD τ).loc main_arg2)
    ∧ W2 m ρ c (Proc.devRef .tc main_arg5) = m ((c : Thread nD τ).loc main_arg5) ∧ W2 m ρ c (Proc.devRef .tc main_arg6) = m ((c : Thread nD τ).loc main_arg6)
    ∧ W2 m ρ c (Proc.devRef .tc main_arg7) = m ((c : Thread nD τ).loc main_arg7) ∧ W2 m ρ c (Proc.devRef .tc main_arg8) = m ((c : Thread nD τ).loc main_arg8) := by
  obtain ⟨-, e6, e1, e2, -, -, e5, e6', e7, e8⟩ := W1_reads m ρ c
  exact ⟨((W2_arr m ρ c 2).trans (((dat0 (V1 m ρ) c).arrAt_in 2 rfl _).trans (A_eq0 (V1 m ρ) c 2))).trans e6,
    ((W2_arr m ρ c 1).trans (((dat0 (V1 m ρ) c).arrAt_in 1 rfl _).trans (A_eq0 (V1 m ρ) c 1))).trans e1,
    (W2_of_ne m ρ c main_arg2 (by decide)).trans e2,
    (W2_of_ne m ρ c main_arg5 (by decide)).trans e5,
    (W2_of_ne m ρ c main_arg6 (by decide)).trans e6',
    (W2_of_ne m ρ c main_arg7 (by decide)).trans e7,
    (W2_of_ne m ρ c main_arg8 (by decide)).trans e8⟩

/-! ## Before region 1: the first layer's rows gathered -/

set_option maxHeartbeats 2000000 in
theorem W3_reads (c : Dev nD) :
    W3 m ρ c (Proc.devRef .tc main_v21) = Host.gather gather_S262144x128_S262144x8x1_S262144x8x128_2_0_n_n_0_2_1128
        (h1 (m ((c : Thread nD τ).loc main_arg0)) (m ((c : Thread nD τ).loc main_arg1)) (m ((c : Thread nD τ).loc main_arg2)) (m ((c : Thread nD τ).loc main_arg3)) (m ((c : Thread nD τ).loc main_arg4))) (nbr (m ((c : Thread nD τ).loc main_arg2)))
    ∧ W3 m ρ c (Proc.devRef .tc main_v6) = spos (m ((c : Thread nD τ).loc main_arg1)) (m ((c : Thread nD τ).loc main_arg2))
    ∧ W3 m ρ c (Proc.devRef .tc main_arg1) = m ((c : Thread nD τ).loc main_arg1) ∧ W3 m ρ c (Proc.devRef .tc main_arg2) = m ((c : Thread nD τ).loc main_arg2)
    ∧ W3 m ρ c (Proc.devRef .tc main_arg5) = m ((c : Thread nD τ).loc main_arg5) ∧ W3 m ρ c (Proc.devRef .tc main_arg6) = m ((c : Thread nD τ).loc main_arg6)
    ∧ W3 m ρ c (Proc.devRef .tc main_arg7) = m ((c : Thread nD τ).loc main_arg7) ∧ W3 m ρ c (Proc.devRef .tc main_arg8) = m ((c : Thread nD τ).loc main_arg8) := by
  obtain ⟨e6, e1, e2, e5, e6', e7, e8⟩ := W2_keeps m ρ c
  have e14 := W2_v14 m ρ c
  refine ⟨?_, ?_, ?_, ?_, ?_, ?_, ?_, ?_⟩
  · show StableHlo.after hostOps1 (W2 m ρ c) (Proc.devRef .tc main_v21) = _
    after_results
    rw [e14, e2]
    rfl
  · show StableHlo.after hostOps1 (W2 m ρ c) (Proc.devRef .tc main_v6) = _
    after_results; exact e6
  · show StableHlo.after hostOps1 (W2 m ρ c) (Proc.devRef .tc main_arg1) = _
    after_results; exact e1
  · show StableHlo.after hostOps1 (W2 m ρ c) (Proc.devRef .tc main_arg2) = _
    after_results; exact e2
  · show StableHlo.after hostOps1 (W2 m ρ c) (Proc.devRef .tc main_arg5) = _
    after_results; exact e5
  · show StableHlo.after hostOps1 (W2 m ρ c) (Proc.devRef .tc main_arg6) = _
    after_results; exact e6'
  · show StableHlo.after hostOps1 (W2 m ρ c) (Proc.devRef .tc main_arg7) = _
    after_results; exact e7
  · show StableHlo.after hostOps1 (W2 m ρ c) (Proc.devRef .tc main_arg8) = _
    after_results; exact e8

/-! ## Region 1 -/

/-- After region 1 its output array holds the hidden layer. -/
theorem W4_v22 (c : Dev nD) : W4 m ρ c (Proc.devRef .tc main_v22)
    = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e21, e6, e1, -, e5, e6', -⟩ := W3_reads m ρ c
  refine (W4_arr m ρ c 5).trans ((Cert.KernelIdeal.Blocks1.final (V3 m ρ) c).trans ?_)
  show Cert.Layer.val true (R := 262144) (F := 128) (KF := 1024) (H := 128) _ (W3 m ρ c (Proc.devRef .tc main_v21)) (W3 m ρ c (Proc.devRef .tc main_arg1))
    (W3 m ρ c (Proc.devRef .tc main_v6)) (W3 m ρ c (Proc.devRef .tc main_arg5)) (W3 m ρ c (Proc.devRef .tc main_arg6)) = _
  rw [e21, e1, e6, e5, e6']
  rfl

/-- Region 1 writes nothing else. -/
theorem W4_keeps (c : Dev nD) :
    W4 m ρ c (Proc.devRef .tc main_v6) = spos (m ((c : Thread nD τ).loc main_arg1)) (m ((c : Thread nD τ).loc main_arg2))
    ∧ W4 m ρ c (Proc.devRef .tc main_arg1) = m ((c : Thread nD τ).loc main_arg1) ∧ W4 m ρ c (Proc.devRef .tc main_arg2) = m ((c : Thread nD τ).loc main_arg2)
    ∧ W4 m ρ c (Proc.devRef .tc main_arg7) = m ((c : Thread nD τ).loc main_arg7) ∧ W4 m ρ c (Proc.devRef .tc main_arg8) = m ((c : Thread nD τ).loc main_arg8) := by
  obtain ⟨-, e6, e1, e2, -, -, e7, e8⟩ := W3_reads m ρ c
  exact ⟨((W4_arr m ρ c 2).trans (((dat1 (V3 m ρ) c).arrAt_in 2 rfl _).trans (A_eq1 (V3 m ρ) c 2))).trans e6,
    ((W4_arr m ρ c 1).trans (((dat1 (V3 m ρ) c).arrAt_in 1 rfl _).trans (A_eq1 (V3 m ρ) c 1))).trans e1,
    (W4_of_ne m ρ c main_arg2 (by decide)).trans e2,
    (W4_of_ne m ρ c main_arg7 (by decide)).trans e7,
    (W4_of_ne m ρ c main_arg8 (by decide)).trans e8⟩

/-! ## Before region 2: the hidden layer's rows gathered -/

set_option maxHeartbeats 2000000 in
theorem W5_reads (c : Dev nD) :
    W5 m ρ c (Proc.devRef .tc main_v29) = Host.gather gather_S262144x128_S262144x8x1_S262144x8x128_2_0_n_n_0_2_1128
        (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (nbr (m ((c : Thread nD τ).loc main_arg2)))
    ∧ W5 m ρ c (Proc.devRef .tc main_v6) = spos (m ((c : Thread nD τ).loc main_arg1)) (m ((c : Thread nD τ).loc main_arg2))
    ∧ W5 m ρ c (Proc.devRef .tc main_arg1) = m ((c : Thread nD τ).loc main_arg1)
    ∧ W5 m ρ c (Proc.devRef .tc main_arg7) = m ((c : Thread nD τ).loc main_arg7) ∧ W5 m ρ c (Proc.devRef .tc main_arg8) = m ((c : Thread nD τ).loc main_arg8) := by
  obtain ⟨e6, e1, e2, e7, e8⟩ := W4_keeps m ρ c
  have e22 := W4_v22 m ρ c
  refine ⟨?_, ?_, ?_, ?_, ?_⟩
  · show StableHlo.after hostOps2 (W4 m ρ c) (Proc.devRef .tc main_v29) = _
    after_results
    rw [e22, e2]
    rfl
  · show StableHlo.after hostOps2 (W4 m ρ c) (Proc.devRef .tc main_v6) = _
    after_results; exact e6
  · show StableHlo.after hostOps2 (W4 m ρ c) (Proc.devRef .tc main_arg1) = _
    after_results; exact e1
  · show StableHlo.after hostOps2 (W4 m ρ c) (Proc.devRef .tc main_arg7) = _
    after_results; exact e7
  · show StableHlo.after hostOps2 (W4 m ρ c) (Proc.devRef .tc main_arg8) = _
    after_results; exact e8

/-! ## Region 2: the result -/

/-- After region 2 the result array holds the three layers composed, of the launch contents of the arguments. -/
theorem W6_v30 (c : Dev nD) : W6 m ρ c (Proc.devRef .tc main_v30)
    = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨e29, e6, e1, e7, e8⟩ := W5_reads m ρ c
  refine (W6_arr m ρ c 5).trans ((Cert.KernelIdeal.Blocks2.final (V5 m ρ) c).trans ?_)
  show Cert.Layer.val false (R := 262144) (F := 128) (KF := 1024) (H := 16) _ (W5 m ρ c (Proc.devRef .tc main_v29)) (W5 m ρ c (Proc.devRef .tc main_arg1))
    (W5 m ρ c (Proc.devRef .tc main_v6)) (W5 m ρ c (Proc.devRef .tc main_arg7)) (W5 m ρ c (Proc.devRef .tc main_arg8)) = _
  rw [e29, e1, e6, e7, e8]
  rfl

end Cert.KernelIdeal.KValue

end
-- ==== Proof.RefLayer0.lean ====
import proofs.«126566_j70523363000700_1_alg».proof.Proof.LayerSpec
import proofs.«126566_j70523363000700_1_alg».proof.Proof.LibRowOps
import proofs.«126566_j70523363000700_1_alg».proof.Proof.Gen.ReferenceIdeal.Read

noncomputable section

namespace Cert.ReferenceIdeal.RefLayer

open Idealize.ShloMosaic Idealize.ShloMosaic.ValueIdx Cert.ReferenceIdeal Cert.ReferenceIdeal.Read

/-! Layer 0 of the reference, read stage by stage at explicit coordinates: node `n`, neighbour `k`, space coordinate `d`,
    feature `f`, flattened column `c`, output column `j`. -/

/-- The summed axis put back: entry `(n, k)` with `d` on the last axis is `(n, k, d)`. -/
theorem l0_idx_sum (n : Fin 262144) (k : Fin 8) (d : Fin 3) : idx_main_v18 (ix2 n k) d = ix3 n k d :=
  funext fun a => Fin.ext (by match a with | ⟨0, _⟩ => rfl | ⟨1, _⟩ => rfl | ⟨2, _⟩ => rfl)

/-- The node's own position spread over the neighbours: `(n, k, d)` reads position `(n, d)`. -/
theorem l0_idx_pos (n : Fin 262144) (k : Fin 8) (d : Fin 3) : idx_main_v14 (idx_main_v15 (ix3 n k d)) = ix2 n d :=
  funext fun a => Fin.ext (by match a with | ⟨0, _⟩ => rfl | ⟨1, _⟩ => rfl)

/-- The distance kept as a column: `(n, k, 0)` reads `(n, k)`. -/
theorem l0_idx_col (n : Fin 262144) (k : Fin 8) (q : Fin 1) : idx_main_v19 (ix3 n k q) = ix2 n k :=
  funext fun a => Fin.ext (by match a with | ⟨0, _⟩ => rfl | ⟨1, _⟩ => rfl)

/-- The distance spread over the features: `(n, k, f)` reads `(n, k, 0)`. -/
theorem l0_idx_spread (n : Fin 262144) (k : Fin 8) (f : Fin 16) : idx_main_v24 (ix3 n k f) = ix3 n k (0 : Fin 1) :=
  funext fun a => Fin.ext (by match a with | ⟨0, _⟩ => rfl | ⟨1, _⟩ => rfl | ⟨2, _⟩ => rfl)

/-- The flattened row: column `c` of node `n` is feature `c % 16` of neighbour `c / 16`. -/
theorem l0_idx_flat (n : Fin 262144) (j : Fin 128) (c : Fin 128) :
    idx_main_v26 (lidx_main_v27 (ix2 n j) c)
      = ix3 n (⟨c.val / 16, Cert.Layer.div_lt_of_eq (F := 16) (KF := 128) (by norm_num) c⟩ : Fin 8)
          (⟨c.val % 16, Cert.Layer.mod_lt_of_eq (F := 16) (KF := 128) (by norm_num) c⟩ : Fin 16) :=
  funext fun a => Fin.ext (by
    have hn := n.isLt
    have hc := c.isLt
    match a with
    | ⟨0, _⟩ => show (n.val * 128 + c.val) / 128 = n.val; omega
    | ⟨1, _⟩ => show (n.val * 128 + c.val) / 16 % 8 = c.val / 16; omega
    | ⟨2, _⟩ => show (n.val * 128 + c.val) % 16 = c.val % 16; omega)

/-- The weight read by the contraction: row `c`, column `j`. -/
theorem l0_idx_weight (n : Fin 262144) (j : Fin 128) (c : Fin 128) : ridx_main_v27 (ix2 n j) c = ix2 c j :=
  funext fun a => Fin.ext (by match a with | ⟨0, _⟩ => rfl | ⟨1, _⟩ => rfl)

/-- The bias row spread over the nodes: `(n, j)` reads `(0, j)`. -/
theorem l0_idx_bias (n : Fin 262144) (j : Fin 128) : idx_main_v28 (ix2 n j) = ix2 (0 : Fin 1) j :=
  funext fun a => Fin.ext (by match a with | ⟨0, _⟩ => rfl | ⟨1, _⟩ => rfl)

/-- The reduction over the three coordinates is the sum of squared differences. -/
theorem l0_sq (x1 : (⟨S262144x3, .f32⟩ : BufTy).Contents (Elt Ideal)) (x2 : (⟨S262144x8, .i32⟩ : BufTy).Contents (Elt Ideal))
    (n : Fin 262144) (k : Fin 8) :
    val_main_v18 (F := Ideal) x1 x2 (ix2 n k) = Cert.Layer.sq x1 (val_main_v13 (F := Ideal) x1 x2) n k := by
  rw [val_main_v18_apply]
  refine (congrArg (· + _) (show val_main_cst (F := Ideal) _ = (0 : EReal) from Ideal.ofBits_zero_f32)).trans ?_
  rw [zero_add]
  unfold Cert.Layer.sq
  refine Finset.sum_congr rfl fun d _ => ?_
  rw [l0_idx_sum, val_main_v17_apply, val_main_v16_apply, val_main_v15_apply, val_main_v14_apply, l0_idx_pos]
  rfl

/-- The guarded square root is the distance. -/
theorem l0_dist (x1 : (⟨S262144x3, .f32⟩ : BufTy).Contents (Elt Ideal)) (x2 : (⟨S262144x8, .i32⟩ : BufTy).Contents (Elt Ideal))
    (n : Fin 262144) (k : Fin 8) (q : Fin 1) :
    val_main_v23 (F := Ideal) x1 x2 (ix3 n k q) = Cert.Layer.dist x1 (val_main_v13 (F := Ideal) x1 x2) n k := by
  have h20 : val_main_v20 (F := Ideal) x1 x2 (ix3 n k q)
      = Ideal.sqrt (Cert.Layer.sq x1 (val_main_v13 (F := Ideal) x1 x2) n k) := by
    rw [val_main_v20_apply, val_main_v19_apply, l0_idx_col, l0_sq]
    rfl
  rw [val_main_v23_apply, val_main_v22_apply, h20, val_main_v21_apply, val_main_call0_v0_apply]
  rfl

/-- The quotient of a neighbour's feature by the distance. -/
theorem l0_wow (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (n : Fin 262144) (k : Fin 8) (f : Fin 16) :
    val_main_v25 (F := Ideal) x0 x1 x2 (ix3 n k f)
      = Cert.Layer.wow (val_main_v6 (F := Ideal) x0 x2) x1 (val_main_v13 (F := Ideal) x1 x2) n k f := by
  rw [val_main_v25_apply, val_main_v24_apply, l0_idx_spread, l0_dist]
  rfl

/-- One summand of the contraction. -/
theorem l0_term (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (n : Fin 262144) (j : Fin 128) (c : Fin 128) :
    val_main_v26 (F := Ideal) x0 x1 x2 (lidx_main_v27 (ix2 n j) c) * x3 (ridx_main_v27 (ix2 n j) c)
      = Cert.Layer.term (R := 262144) (F := 16) (KF := 128) (H := 128) (by norm_num)
          (val_main_v6 (F := Ideal) x0 x2) x1 (val_main_v13 (F := Ideal) x1 x2) x3 n j c := by
  rw [val_main_v26_apply, l0_idx_flat, l0_wow, l0_idx_weight]
  rfl

theorem layer0 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) :
    val_main_v29 (F := Ideal) x0 x1 x2 x3 x4
      = Cert.Layer.val false (R := 262144) (F := 16) (KF := 128) (H := 128) (by norm_num)
          (val_main_v6 (F := Ideal) x0 x2) x1 (val_main_v13 (F := Ideal) x1 x2) x3 x4 := by
  funext i
  obtain ⟨n, j, rfl⟩ : ∃ (n : Fin 262144) (j : Fin 128), i = ix2 n j := ⟨i 0, i 1, eq_ix2 i⟩
  rw [val_main_v29_apply, val_main_v27_apply, val_main_v28_apply, l0_idx_bias]
  rw [Finset.sum_congr rfl fun c _ => l0_term x0 x1 x2 x3 n j c]
  rfl

end Cert.ReferenceIdeal.RefLayer

end
-- ==== Proof.RefLayer1.lean ====
import proofs.«126566_j70523363000700_1_alg».proof.Proof.LayerSpec
import proofs.«126566_j70523363000700_1_alg».proof.Proof.LibRowOps
import proofs.«126566_j70523363000700_1_alg».proof.Proof.Gen.ReferenceIdeal.Read

noncomputable section

namespace Cert.ReferenceIdeal.RefLayer

open Idealize.ShloMosaic Idealize.ShloMosaic.ValueIdx Cert.ReferenceIdeal Cert.ReferenceIdeal.Read

/-! Layer 1 of the reference, read stage by stage at explicit coordinates: node `n`, neighbour `k`, space coordinate `d`,
    feature `f` (128 of them), flattened column `c` (1024 of them), output column `j`; the leaky rectifier follows. -/

/-- The summed axis put back: entry `(n, k)` with `d` on the last axis is `(n, k, d)`. -/
theorem l1_idx_sum (n : Fin 262144) (k : Fin 8) (d : Fin 3) : idx_main_v48 (ix2 n k) d = ix3 n k d :=
  funext fun a => Fin.ext (by match a with | ⟨0, _⟩ => rfl | ⟨1, _⟩ => rfl | ⟨2, _⟩ => rfl)

/-- The node's own position spread over the neighbours: `(n, k, d)` reads position `(n, d)`. -/
theorem l1_idx_pos (n : Fin 262144) (k : Fin 8) (d : Fin 3) : idx_main_v44 (idx_main_v45 (ix3 n k d)) = ix2 n d :=
  funext fun a => Fin.ext (by match a with | ⟨0, _⟩ => rfl | ⟨1, _⟩ => rfl)

/-- The distance kept as a column: `(n, k, 0)` reads `(n, k)`. -/
theorem l1_idx_col (n : Fin 262144) (k : Fin 8) (q : Fin 1) : idx_main_v49 (ix3 n k q) = ix2 n k :=
  funext fun a => Fin.ext (by match a with | ⟨0, _⟩ => rfl | ⟨1, _⟩ => rfl)

/-- The distance spread over the features: `(n, k, f)` reads `(n, k, 0)`. -/
theorem l1_idx_spread (n : Fin 262144) (k : Fin 8) (f : Fin 128) : idx_main_v54 (ix3 n k f) = ix3 n k (0 : Fin 1) :=
  funext fun a => Fin.ext (by match a with | ⟨0, _⟩ => rfl | ⟨1, _⟩ => rfl | ⟨2, _⟩ => rfl)

/-- The flattened row: column `c` of node `n` is feature `c % 128` of neighbour `c / 128`. -/
theorem l1_idx_flat (n : Fin 262144) (j : Fin 128) (c : Fin 1024) :
    idx_main_v56 (lidx_main_v57 (ix2 n j) c)
      = ix3 n (⟨c.val / 128, Cert.Layer.div_lt_of_eq (F := 128) (KF := 1024) (by norm_num) c⟩ : Fin 8)
          (⟨c.val % 128, Cert.Layer.mod_lt_of_eq (F := 128) (KF := 1024) (by norm_num) c⟩ : Fin 128) :=
  funext fun a => Fin.ext (by
    have hn := n.isLt
    have hc := c.isLt
    match a with
    | ⟨0, _⟩ => show (n.val * 1024 + c.val) / 1024 = n.val; omega
    | ⟨1, _⟩ => show (n.val * 1024 + c.val) / 128 % 8 = c.val / 128; omega
    | ⟨2, _⟩ => show (n.val * 1024 + c.val) % 128 = c.val % 128; omega)

/-- The weight read by the contraction: row `c`, column `j`. -/
theorem l1_idx_weight (n : Fin 262144) (j : Fin 128) (c : Fin 1024) : ridx_main_v57 (ix2 n j) c = ix2 c j :=
  funext fun a => Fin.ext (by match a with | ⟨0, _⟩ => rfl | ⟨1, _⟩ => rfl)

/-- The bias row spread over the nodes: `(n, j)` reads `(0, j)`. -/
theorem l1_idx_bias (n : Fin 262144) (j : Fin 128) : idx_main_v58 (ix2 n j) = ix2 (0 : Fin 1) j :=
  funext fun a => Fin.ext (by match a with | ⟨0, _⟩ => rfl | ⟨1, _⟩ => rfl)

/-- The reduction over the three coordinates is the sum of squared differences. -/
theorem l1_sq (x1 : (⟨S262144x3, .f32⟩ : BufTy).Contents (Elt Ideal)) (x2 : (⟨S262144x8, .i32⟩ : BufTy).Contents (Elt Ideal))
    (n : Fin 262144) (k : Fin 8) :
    val_main_v48 (F := Ideal) x1 x2 (ix2 n k) = Cert.Layer.sq x1 (val_main_v43 (F := Ideal) x1 x2) n k := by
  rw [val_main_v48_apply]
  refine (congrArg (· + _) (show val_main_cst_9 (F := Ideal) _ = (0 : EReal) from Ideal.ofBits_zero_f32)).trans ?_
  rw [zero_add]
  unfold Cert.Layer.sq
  refine Finset.sum_congr rfl fun d _ => ?_
  rw [l1_idx_sum, val_main_v47_apply, val_main_v46_apply, val_main_v45_apply, val_main_v44_apply, l1_idx_pos]
  rfl

/-- The guarded square root is the distance. -/
theorem l1_dist (x1 : (⟨S262144x3, .f32⟩ : BufTy).Contents (Elt Ideal)) (x2 : (⟨S262144x8, .i32⟩ : BufTy).Contents (Elt Ideal))
    (n : Fin 262144) (k : Fin 8) (q : Fin 1) :
    val_main_v53 (F := Ideal) x1 x2 (ix3 n k q) = Cert.Layer.dist x1 (val_main_v43 (F := Ideal) x1 x2) n k := by
  have h50 : val_main_v50 (F := Ideal) x1 x2 (ix3 n k q)
      = Ideal.sqrt (Cert.Layer.sq x1 (val_main_v43 (F := Ideal) x1 x2) n k) := by
    rw [val_main_v50_apply, val_main_v49_apply, l1_idx_col, l1_sq]
    rfl
  rw [val_main_v53_apply, val_main_v52_apply, h50, val_main_v51_apply, val_main_call1_v0_apply]
  rfl

/-- The quotient of a neighbour's feature by the distance. -/
theorem l1_wow (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (n : Fin 262144) (k : Fin 8) (f : Fin 128) :
    val_main_v55 (F := Ideal) x0 x1 x2 x3 x4 (ix3 n k f)
      = Cert.Layer.wow (val_main_v36 (F := Ideal) x0 x1 x2 x3 x4) x1 (val_main_v43 (F := Ideal) x1 x2) n k f := by
  rw [val_main_v55_apply, val_main_v54_apply, l1_idx_spread, l1_dist]
  rfl

/-- One summand of the contraction. -/
theorem l1_term (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (n : Fin 262144) (j : Fin 128) (c : Fin 1024) :
    val_main_v56 (F := Ideal) x0 x1 x2 x3 x4 (lidx_main_v57 (ix2 n j) c) * x5 (ridx_main_v57 (ix2 n j) c)
      = Cert.Layer.term (R := 262144) (F := 128) (KF := 1024) (H := 128) (by norm_num)
          (val_main_v36 (F := Ideal) x0 x1 x2 x3 x4) x1 (val_main_v43 (F := Ideal) x1 x2) x5 n j c := by
  rw [val_main_v56_apply, l1_idx_flat, l1_wow, l1_idx_weight]
  rfl

/-- The contraction plus the bias, before the rectifier. -/
theorem l1_lin (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) (n : Fin 262144) (j : Fin 128) :
    val_main_v59 (F := Ideal) x0 x1 x2 x3 x4 x5 x6 (ix2 n j)
      = Cert.Layer.lin (R := 262144) (F := 128) (KF := 1024) (H := 128) (by norm_num)
          (val_main_v36 (F := Ideal) x0 x1 x2 x3 x4) x1 (val_main_v43 (F := Ideal) x1 x2) x5 x6 n j := by
  rw [val_main_v59_apply, val_main_v57_apply, val_main_v58_apply, l1_idx_bias]
  rw [Finset.sum_congr rfl fun c _ => l1_term x0 x1 x2 x3 x4 x5 n j c]
  rfl

theorem layer1 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) :
    val_main_v64 (F := Ideal) x0 x1 x2 x3 x4 x5 x6
      = Cert.Layer.val true (R := 262144) (F := 128) (KF := 1024) (H := 128) (by norm_num)
          (val_main_v36 (F := Ideal) x0 x1 x2 x3 x4) x1 (val_main_v43 (F := Ideal) x1 x2) x5 x6 := by
  funext i
  obtain ⟨n, j, rfl⟩ : ∃ (n : Fin 262144) (j : Fin 128), i = ix2 n j := ⟨i 0, i 1, eq_ix2 i⟩
  rw [val_main_v64_apply, val_main_v61_apply, val_main_v63_apply, l1_lin, val_main_v60_apply, val_main_v62_apply]
  rfl

end Cert.ReferenceIdeal.RefLayer

end
-- ==== Proof.RefLayer2.lean ====
import proofs.«126566_j70523363000700_1_alg».proof.Proof.LayerSpec
import proofs.«126566_j70523363000700_1_alg».proof.Proof.LibRowOps
import proofs.«126566_j70523363000700_1_alg».proof.Proof.Gen.ReferenceIdeal.Read

noncomputable section

namespace Cert.ReferenceIdeal.RefLayer

open Idealize.ShloMosaic Idealize.ShloMosaic.ValueIdx Cert.ReferenceIdeal Cert.ReferenceIdeal.Read

/-! Layer 2 of the reference, read stage by stage at explicit coordinates: node `n`, neighbour `k`, space coordinate `d`,
    feature `f` (128 of them), flattened column `c` (1024 of them), output column `j` (16 of them); no rectifier follows. -/

/-- The summed axis put back: entry `(n, k)` with `d` on the last axis is `(n, k, d)`. -/
theorem l2_idx_sum (n : Fin 262144) (k : Fin 8) (d : Fin 3) : idx_main_v83 (ix2 n k) d = ix3 n k d :=
  funext fun a => Fin.ext (by match a with | ⟨0, _⟩ => rfl | ⟨1, _⟩ => rfl | ⟨2, _⟩ => rfl)

/-- The node's own position spread over the neighbours: `(n, k, d)` reads position `(n, d)`. -/
theorem l2_idx_pos (n : Fin 262144) (k : Fin 8) (d : Fin 3) : idx_main_v79 (idx_main_v80 (ix3 n k d)) = ix2 n d :=
  funext fun a => Fin.ext (by match a with | ⟨0, _⟩ => rfl | ⟨1, _⟩ => rfl)

/-- The distance kept as a column: `(n, k, 0)` reads `(n, k)`. -/
theorem l2_idx_col (n : Fin 262144) (k : Fin 8) (q : Fin 1) : idx_main_v84 (ix3 n k q) = ix2 n k :=
  funext fun a => Fin.ext (by match a with | ⟨0, _⟩ => rfl | ⟨1, _⟩ => rfl)

/-- The distance spread over the features: `(n, k, f)` reads `(n, k, 0)`. -/
theorem l2_idx_spread (n : Fin 262144) (k : Fin 8) (f : Fin 128) : idx_main_v89 (ix3 n k f) = ix3 n k (0 : Fin 1) :=
  funext fun a => Fin.ext (by match a with | ⟨0, _⟩ => rfl | ⟨1, _⟩ => rfl | ⟨2, _⟩ => rfl)

/-- The flattened row: column `c` of node `n` is feature `c % 128` of neighbour `c / 128`. -/
theorem l2_idx_flat (n : Fin 262144) (j : Fin 16) (c : Fin 1024) :
    idx_main_v91 (lidx_main_v92 (ix2 n j) c)
      = ix3 n (⟨c.val / 128, Cert.Layer.div_lt_of_eq (F := 128) (KF := 1024) (by norm_num) c⟩ : Fin 8)
          (⟨c.val % 128, Cert.Layer.mod_lt_of_eq (F := 128) (KF := 1024) (by norm_num) c⟩ : Fin 128) :=
  funext fun a => Fin.ext (by
    have hn := n.isLt
    have hc := c.isLt
    match a with
    | ⟨0, _⟩ => show (n.val * 1024 + c.val) / 1024 = n.val; omega
    | ⟨1, _⟩ => show (n.val * 1024 + c.val) / 128 % 8 = c.val / 128; omega
    | ⟨2, _⟩ => show (n.val * 1024 + c.val) % 128 = c.val % 128; omega)

/-- The weight read by the contraction: row `c`, column `j`. -/
theorem l2_idx_weight (n : Fin 262144) (j : Fin 16) (c : Fin 1024) : ridx_main_v92 (ix2 n j) c = ix2 c j :=
  funext fun a => Fin.ext (by match a with | ⟨0, _⟩ => rfl | ⟨1, _⟩ => rfl)

/-- The bias row spread over the nodes: `(n, j)` reads `(0, j)`. -/
theorem l2_idx_bias (n : Fin 262144) (j : Fin 16) : idx_main_v93 (ix2 n j) = ix2 (0 : Fin 1) j :=
  funext fun a => Fin.ext (by match a with | ⟨0, _⟩ => rfl | ⟨1, _⟩ => rfl)

/-- The reduction over the three coordinates is the sum of squared differences. -/
theorem l2_sq (x1 : (⟨S262144x3, .f32⟩ : BufTy).Contents (Elt Ideal)) (x2 : (⟨S262144x8, .i32⟩ : BufTy).Contents (Elt Ideal))
    (n : Fin 262144) (k : Fin 8) :
    val_main_v83 (F := Ideal) x1 x2 (ix2 n k) = Cert.Layer.sq x1 (val_main_v78 (F := Ideal) x1 x2) n k := by
  rw [val_main_v83_apply]
  refine (congrArg (· + _) (show val_main_cst_18 (F := Ideal) _ = (0 : EReal) from Ideal.ofBits_zero_f32)).trans ?_
  rw [zero_add]
  unfold Cert.Layer.sq
  refine Finset.sum_congr rfl fun d _ => ?_
  rw [l2_idx_sum, val_main_v82_apply, val_main_v81_apply, val_main_v80_apply, val_main_v79_apply, l2_idx_pos]
  rfl

/-- The guarded square root is the distance. -/
theorem l2_dist (x1 : (⟨S262144x3, .f32⟩ : BufTy).Contents (Elt Ideal)) (x2 : (⟨S262144x8, .i32⟩ : BufTy).Contents (Elt Ideal))
    (n : Fin 262144) (k : Fin 8) (q : Fin 1) :
    val_main_v88 (F := Ideal) x1 x2 (ix3 n k q) = Cert.Layer.dist x1 (val_main_v78 (F := Ideal) x1 x2) n k := by
  have h85 : val_main_v85 (F := Ideal) x1 x2 (ix3 n k q)
      = Ideal.sqrt (Cert.Layer.sq x1 (val_main_v78 (F := Ideal) x1 x2) n k) := by
    rw [val_main_v85_apply, val_main_v84_apply, l2_idx_col, l2_sq]
    rfl
  rw [val_main_v88_apply, val_main_v87_apply, h85, val_main_v86_apply, val_main_call3_v0_apply]
  rfl

/-- The quotient of a neighbour's feature by the distance. -/
theorem l2_wow (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) (n : Fin 262144) (k : Fin 8) (f : Fin 128) :
    val_main_v90 (F := Ideal) x0 x1 x2 x3 x4 x5 x6 (ix3 n k f)
      = Cert.Layer.wow (val_main_v71 (F := Ideal) x0 x1 x2 x3 x4 x5 x6) x1 (val_main_v78 (F := Ideal) x1 x2) n k f := by
  rw [val_main_v90_apply, val_main_v89_apply, l2_idx_spread, l2_dist]
  rfl

/-- One summand of the contraction. -/
theorem l2_term (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) (x7 : (⟨S1024x16, .f32⟩ : BufTy).Contents (Elt Ideal))
    (n : Fin 262144) (j : Fin 16) (c : Fin 1024) :
    val_main_v91 (F := Ideal) x0 x1 x2 x3 x4 x5 x6 (lidx_main_v92 (ix2 n j) c) * x7 (ridx_main_v92 (ix2 n j) c)
      = Cert.Layer.term (R := 262144) (F := 128) (KF := 1024) (H := 16) (by norm_num)
          (val_main_v71 (F := Ideal) x0 x1 x2 x3 x4 x5 x6) x1 (val_main_v78 (F := Ideal) x1 x2) x7 n j c := by
  rw [val_main_v91_apply, l2_idx_flat, l2_wow, l2_idx_weight]
  rfl

theorem layer2 (x0 : (⟨S262144x16, .f32⟩ : BufTy).Contents (Elt Ideal)) (x1 : (⟨S262144x3, .f32⟩ : BufTy).Contents (Elt Ideal))
    (x2 : (⟨S262144x8, .i32⟩ : BufTy).Contents (Elt Ideal)) (x3 : (⟨S128x128, .f32⟩ : BufTy).Contents (Elt Ideal))
    (x4 : (⟨S1x128, .f32⟩ : BufTy).Contents (Elt Ideal)) (x5 : (⟨S1024x128, .f32⟩ : BufTy).Contents (Elt Ideal))
    (x6 : (⟨S1x128, .f32⟩ : BufTy).Contents (Elt Ideal)) (x7 : (⟨S1024x16, .f32⟩ : BufTy).Contents (Elt Ideal))
    (x8 : (⟨S1x16, .f32⟩ : BufTy).Contents (Elt Ideal)) :
    val_main_v94 (F := Ideal) x0 x1 x2 x3 x4 x5 x6 x7 x8
      = Cert.Layer.val false (R := 262144) (F := 128) (KF := 1024) (H := 16) (by norm_num)
          (val_main_v71 (F := Ideal) x0 x1 x2 x3 x4 x5 x6) x1 (val_main_v78 (F := Ideal) x1 x2) x7 x8 := by
  funext i
  obtain ⟨n, j, rfl⟩ : ∃ (n : Fin 262144) (j : Fin 16), i = ix2 n j := ⟨i 0, i 1, eq_ix2 i⟩
  rw [val_main_v94_apply, val_main_v92_apply, val_main_v93_apply, l2_idx_bias]
  rw [Finset.sum_congr rfl fun c _ => l2_term x0 x1 x2 x3 x4 x5 x6 x7 n j c]
  rfl

end Cert.ReferenceIdeal.RefLayer

end
-- ==== Proof.Bridge.lean ====
/-
  The reference's result is the kernel's term of the same arguments. The reference normalises the neighbour table and
  gathers the neighbours' positions anew before every layer, the kernel once; the operations are the same, so the
  gathered arrays are the same functions of the arguments, and each of the reference's layers is the layer function of
  its gathered messages. The three layers then compose alike on both sides.
-/
import proofs.«126566_j70523363000700_1_alg».proof.Proof.KernelTerm
import proofs.«126566_j70523363000700_1_alg».proof.Proof.RefLayer0
import proofs.«126566_j70523363000700_1_alg».proof.Proof.RefLayer1
import proofs.«126566_j70523363000700_1_alg».proof.Proof.RefLayer2

noncomputable section

namespace Cert.Bridge

open Idealize.ShloMosaic Cert.ReferenceIdeal.Read Cert.KernelIdeal.KValue

/-- The reference's six normalisations of the neighbour table are the one function. -/
theorem nbr5 (x2 : (⟨Cert.ReferenceIdeal.S262144x8, .i32⟩ : BufTy).Contents (Elt Ideal)) : val_main_v5 (F := Ideal) x2 = nbr x2 := by
  unfold val_main_v5 val_main_v4 val_main_v3 val_main_v2 val_main_v1 val_main_v0 val_main_c val_main_c_0 nbr; rfl
theorem nbr12 (x2 : (⟨Cert.ReferenceIdeal.S262144x8, .i32⟩ : BufTy).Contents (Elt Ideal)) : val_main_v12 (F := Ideal) x2 = nbr x2 := by
  unfold val_main_v12 val_main_v11 val_main_v10 val_main_v9 val_main_v8 val_main_v7 val_main_c_1 val_main_c_2 nbr; rfl
theorem nbr35 (x2 : (⟨Cert.ReferenceIdeal.S262144x8, .i32⟩ : BufTy).Contents (Elt Ideal)) : val_main_v35 (F := Ideal) x2 = nbr x2 := by
  unfold val_main_v35 val_main_v34 val_main_v33 val_main_v32 val_main_v31 val_main_v30 val_main_c_5 val_main_c_6 nbr; rfl
theorem nbr42 (x2 : (⟨Cert.ReferenceIdeal.S262144x8, .i32⟩ : BufTy).Contents (Elt Ideal)) : val_main_v42 (F := Ideal) x2 = nbr x2 := by
  unfold val_main_v42 val_main_v41 val_main_v40 val_main_v39 val_main_v38 val_main_v37 val_main_c_7 val_main_c_8 nbr; rfl
theorem nbr70 (x2 : (⟨Cert.ReferenceIdeal.S262144x8, .i32⟩ : BufTy).Contents (Elt Ideal)) : val_main_v70 (F := Ideal) x2 = nbr x2 := by
  unfold val_main_v70 val_main_v69 val_main_v68 val_main_v67 val_main_v66 val_main_v65 val_main_c_14 val_main_c_15 nbr; rfl
theorem nbr77 (x2 : (⟨Cert.ReferenceIdeal.S262144x8, .i32⟩ : BufTy).Contents (Elt Ideal)) : val_main_v77 (F := Ideal) x2 = nbr x2 := by
  unfold val_main_v77 val_main_v76 val_main_v75 val_main_v74 val_main_v73 val_main_v72 val_main_c_16 val_main_c_17 nbr; rfl

/-- The neighbours' positions, gathered before each layer, are the one array. -/
theorem spos13 (x1 : (⟨Cert.ReferenceIdeal.S262144x3, .f32⟩ : BufTy).Contents (Elt Ideal)) (x2 : (⟨Cert.ReferenceIdeal.S262144x8, .i32⟩ : BufTy).Contents (Elt Ideal)) : val_main_v13 (F := Ideal) x1 x2 = spos x1 x2 := by
  unfold val_main_v13 spos; rw [nbr12]; rfl
theorem spos43 (x1 : (⟨Cert.ReferenceIdeal.S262144x3, .f32⟩ : BufTy).Contents (Elt Ideal)) (x2 : (⟨Cert.ReferenceIdeal.S262144x8, .i32⟩ : BufTy).Contents (Elt Ideal)) : val_main_v43 (F := Ideal) x1 x2 = spos x1 x2 := by
  unfold val_main_v43 spos; rw [nbr42]; rfl
theorem spos78 (x1 : (⟨Cert.ReferenceIdeal.S262144x3, .f32⟩ : BufTy).Contents (Elt Ideal)) (x2 : (⟨Cert.ReferenceIdeal.S262144x8, .i32⟩ : BufTy).Contents (Elt Ideal)) : val_main_v78 (F := Ideal) x1 x2 = spos x1 x2 := by
  unfold val_main_v78 spos; rw [nbr77]; rfl

/-- The first layer. -/
theorem first (x0 : (⟨Cert.ReferenceIdeal.S262144x16, .f32⟩ : BufTy).Contents (Elt Ideal)) (x1 : (⟨Cert.ReferenceIdeal.S262144x3, .f32⟩ : BufTy).Contents (Elt Ideal)) (x2 : (⟨Cert.ReferenceIdeal.S262144x8, .i32⟩ : BufTy).Contents (Elt Ideal)) (x3 : (⟨Cert.ReferenceIdeal.S128x128, .f32⟩ : BufTy).Contents (Elt Ideal)) (x4 : (⟨Cert.ReferenceIdeal.S1x128, .f32⟩ : BufTy).Contents (Elt Ideal)) :
    val_main_v29 (F := Ideal) x0 x1 x2 x3 x4 = h1 x0 x1 x2 x3 x4 := by
  rw [Cert.ReferenceIdeal.RefLayer.layer0, spos13]
  unfold val_main_v6 h1
  rw [nbr5]; rfl

/-- The hidden layer. -/
theorem hidden (x0 : (⟨Cert.ReferenceIdeal.S262144x16, .f32⟩ : BufTy).Contents (Elt Ideal)) (x1 : (⟨Cert.ReferenceIdeal.S262144x3, .f32⟩ : BufTy).Contents (Elt Ideal)) (x2 : (⟨Cert.ReferenceIdeal.S262144x8, .i32⟩ : BufTy).Contents (Elt Ideal)) (x3 : (⟨Cert.ReferenceIdeal.S128x128, .f32⟩ : BufTy).Contents (Elt Ideal)) (x4 : (⟨Cert.ReferenceIdeal.S1x128, .f32⟩ : BufTy).Contents (Elt Ideal)) (x5 : (⟨Cert.ReferenceIdeal.S1024x128, .f32⟩ : BufTy).Contents (Elt Ideal)) (x6 : (⟨Cert.ReferenceIdeal.S1x128, .f32⟩ : BufTy).Contents (Elt Ideal)) :
    val_main_v64 (F := Ideal) x0 x1 x2 x3 x4 x5 x6 = h2 x0 x1 x2 x3 x4 x5 x6 := by
  rw [Cert.ReferenceIdeal.RefLayer.layer1, spos43]
  unfold val_main_v36 h2
  rw [nbr35, first]; rfl

/-- The result. -/
theorem result (x0 : (⟨Cert.ReferenceIdeal.S262144x16, .f32⟩ : BufTy).Contents (Elt Ideal)) (x1 : (⟨Cert.ReferenceIdeal.S262144x3, .f32⟩ : BufTy).Contents (Elt Ideal)) (x2 : (⟨Cert.ReferenceIdeal.S262144x8, .i32⟩ : BufTy).Contents (Elt Ideal)) (x3 : (⟨Cert.ReferenceIdeal.S128x128, .f32⟩ : BufTy).Contents (Elt Ideal)) (x4 : (⟨Cert.ReferenceIdeal.S1x128, .f32⟩ : BufTy).Contents (Elt Ideal)) (x5 : (⟨Cert.ReferenceIdeal.S1024x128, .f32⟩ : BufTy).Contents (Elt Ideal)) (x6 : (⟨Cert.ReferenceIdeal.S1x128, .f32⟩ : BufTy).Contents (Elt Ideal)) (x7 : (⟨Cert.ReferenceIdeal.S1024x16, .f32⟩ : BufTy).Contents (Elt Ideal)) (x8 : (⟨Cert.ReferenceIdeal.S1x16, .f32⟩ : BufTy).Contents (Elt Ideal)) :
    val_main_v94 (F := Ideal) x0 x1 x2 x3 x4 x5 x6 x7 x8 = h3 x0 x1 x2 x3 x4 x5 x6 x7 x8 := by
  rw [Cert.ReferenceIdeal.RefLayer.layer2, spos78]
  unfold val_main_v71 h3
  rw [nbr70, hidden]; rfl

end Cert.Bridge

end
-- ==== Proof.lean ====
/-
  A three-layer message-passing network over 262144 nodes with eight neighbours each. Every layer divides each
  neighbour's message by the distance to that neighbour (zero distances replaced by one half), flattens the eight
  quotient rows into one, multiplies by the layer's weights and adds its bias; the hidden layer is followed by a leaky
  rectifier. The kernel tiles the nodes in blocks of 512 rows and accumulates, per block, eight partial products (one per
  neighbour) from zero; the reference contracts the flattened row at once. On the extended reals the two orders of
  summation agree (addition is commutative and associative), a change of float format is the identity, and both programs
  gather neighbour rows by the same host operations, so the two results are one function of the nine arguments:
  each region's output array is the layer of the arrays it is entered with (blocks to arrays), the run threads the
  three regions through the gathers, and the reference's run, read one operation at a time, is the same composition.
  No finiteness is used.
-/
import proofs.«126566_j70523363000700_1_alg».proof.Defs
import proofs.«126566_j70523363000700_1_alg».proof.Proof.Gen.Kernel
import proofs.«126566_j70523363000700_1_alg».proof.Proof.Gen.Kernel.Frame
import proofs.«126566_j70523363000700_1_alg».proof.Proof.Gen.KernelIdeal
import proofs.«126566_j70523363000700_1_alg».proof.Proof.Gen.KernelIdeal.Frame
import proofs.«126566_j70523363000700_1_alg».proof.Proof.Gen.ReferenceIdeal
import proofs.«126566_j70523363000700_1_alg».proof.Proof.Gen.Pre_finite_inputs
import proofs.«126566_j70523363000700_1_alg».proof.Proof.Gen.ReferenceIdeal.Run
import proofs.«126566_j70523363000700_1_alg».proof.Proof.Gen.ReferenceIdeal.Read
import proofs.«126566_j70523363000700_1_alg».proof.Proof.KernelRun
import proofs.«126566_j70523363000700_1_alg».proof.Proof.KernelValue
import proofs.«126566_j70523363000700_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the three layers composed through the gathers, of arguments that agree. -/
theorem algebraic : Cert.algebraic_KernelIdeal_ReferenceIdeal := by
  intro m ρ m' ρ' _ hagree
  refine ⟨fun c => Cert.KernelIdeal.KValue.h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.W6_v30 m ρ c), (h c).2⟩) (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v94_eq, Cert.Bridge.result, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
